-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x128256 : Shape := ⟨3, ![2, 1024, 128256]⟩
abbrev S2x1024 : Shape := ⟨2, ![2, 1024]⟩
abbrev S2x1023 : Shape := ⟨2, ![2, 1023]⟩
abbrev S2 : Shape := ⟨1, ![2]⟩
abbrev S_ : Shape := ⟨0, ![]⟩

class Facts : Prop where
  bcast_S_S2x1024x128256 : S_.BroadcastsInDim S2x1024x128256 (![] : Fin 0 → Fin S2x1024x128256.rank)
  reducesTo_S2x1024x128256_S_d0_1_2 : S2x1024x128256.ReducesTo [0, 1, 2] S_
  h_S_ : 0 < S_.numel
  bcast_S_S2x1023 : S_.BroadcastsInDim S2x1023 (![] : Fin 0 → Fin S2x1023.rank)
  reducesTo_S2x1023_S_d0_1 : S2x1023.ReducesTo [0, 1] S_
  bcast_S_S2 : S_.BroadcastsInDim S2 (![] : Fin 0 → Fin S2.rank)
  reducesTo_S2_S_d0 : S2.ReducesTo [0] S_
  bcast_S_S2x1024 : S_.BroadcastsInDim S2x1024 (![] : Fin 0 → Fin S2x1024.rank)
  reducesTo_S2x1024_S_d0_1 : S2x1024.ReducesTo [0, 1] S_
  slices_S2x1024_S2x1023_0_1 : S2x1024.Slices ![0, 1] S2x1023

variable [Facts]

def fn_part1 {F : FTy → Type} [FloatOps F] (main_arg1 : IVec S2x1024 32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : IVec S2x1023 32 := (extractStridedSlice S2x1023 ![0, 1] · slices_S2x1024_S2x1023_0_1) main_arg1
  let main_c_6 : IVec S_ 32 := constantI S_ 32 0#32
  let main_v20 : IVec S2x1023 32 := broadcastInDim S2x1023 ![] bcast_S_S2x1023 main_c_6
  let main_v21 : IVec S2x1023 1 := cmpi .sge main_v19 main_v20
  let main_v22 : IVec S2x1023 32 := (extractStridedSlice S2x1023 ![0, 1] · slices_S2x1024_S2x1023_0_1) main_arg1
  let main_c_7 : IVec S_ 32 := constantI S_ 32 128256#32
  let main_v23 : IVec S2x1023 32 := broadcastInDim S2x1023 ![] bcast_S_S2x1023 main_c_7
  let main_v24 : IVec S2x1023 1 := cmpi .slt main_v22 main_v23
  let main_v25 : IVec S2x1023 1 := andi main_v21 main_v24
  let main_c_8 : IVec S_ 1 := constantI S_ 1 1#1
  let main_v26 : IVec S_ 1 := (fun x v => Host.reduce IntOp.andi x v reducesTo_S2x1023_S_d0_1 h_S_) main_v25 main_c_8
  let main_v27 : IVec S_ 1 := andi main_v18 main_v26
  main_v27

def fn {F : FTy → Type} [FloatOps F] (main_arg0 : FVec F S2x1024x128256 .f32) (main_arg1 : IVec S2x1024 32) (main_arg2 : FVec F S2x1023 .f32) (main_arg3 : FVec F S2 .f32) (main_arg4 : FVec F S2x1024 .f32) : IVec S_ 1 :=
  let main_v0 : FVec F S2x1024x128256 .f32 := Host.absf main_arg0
  let main_cst : FVec F S_ .f32 := constant S_ .f32 0x7F800000#32
  let main_v1 : FVec F S2x1024x128256 .f32 := broadcastInDim S2x1024x128256 ![] bcast_S_S2x1024x128256 main_cst
  let main_v2 : IVec S2x1024x128256 1 := cmpf .olt main_v0 main_v1
  let main_c : IVec S_ 1 := constantI S_ 1 1#1
  let main_v3 : IVec S_ 1 := (fun x v => Host.reduce IntOp.andi x v reducesTo_S2x1024x128256_S_d0_1_2 h_S_) main_v2 main_c
  let main_v4 : FVec F S2x1023 .f32 := Host.absf main_arg2
  let main_cst_0 : FVec F S_ .f32 := constant S_ .f32 0x7F800000#32
  let main_v5 : FVec F S2x1023 .f32 := broadcastInDim S2x1023 ![] bcast_S_S2x1023 main_cst_0
  let main_v6 : IVec S2x1023 1 := cmpf .olt main_v4 main_v5
  let main_c_1 : IVec S_ 1 := constantI S_ 1 1#1
  let main_v7 : IVec S_ 1 := (fun x v => Host.reduce IntOp.andi x v reducesTo_S2x1023_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg1 main_v13 main_v16
-- ==== Kernel.lean ====
abbrev S2x1024x128256 : Shape := ⟨3, ![2, 1024, 128256]⟩
abbrev S2x1024 : Shape := ⟨2, ![2, 1024]⟩
abbrev S2x1023 : Shape := ⟨2, ![2, 1023]⟩
abbrev S2 : Shape := ⟨1, ![2]⟩
abbrev S_ : Shape := ⟨0, ![]⟩
abbrev S2048x1 : Shape := ⟨2, ![2048, 1]⟩
abbrev S2048x128256 : Shape := ⟨2, ![2048, 128256]⟩
abbrev S256x6144 : Shape := ⟨2, ![256, 6144]⟩
abbrev S256x1 : Shape := ⟨2, ![256, 1]⟩
abbrev S256 : Shape := ⟨1, ![256]⟩
abbrev S2x1 : Shape := ⟨2, ![2, 1]⟩

abbrev nBuf : Space → Nat
  | .hbm => 75
  | .vmem => 12
  | .smem => 0
  | _ => 0

abbrev bufTy : (tb : Table) → Fin (tcTables nBuf tb) → BufTy
  | .hbm, ⟨0, _⟩ => ⟨S2x1024x128256, .f32⟩
  | .hbm, ⟨1, _⟩ => ⟨S2x1024, .i32⟩
  | .hbm, ⟨2, _⟩ => ⟨S2x1023, .f32⟩
  | .hbm, ⟨3, _⟩ => ⟨S2, .f32⟩
  | .hbm, ⟨4, _⟩ => ⟨S2x1024, .f32⟩
  | .hbm, ⟨5, _⟩ => ⟨S2x1023, .i32⟩
  | .hbm, ⟨6, _⟩ => ⟨S_, .i32⟩
  | .hbm, ⟨7, _⟩ => ⟨S_, .i32⟩
  | .hbm, ⟨8, _⟩ => ⟨S2x1024, .i32⟩
  | .hbm, ⟨9, _⟩ => ⟨S2048x1, .i32⟩
  | .hbm, ⟨10, _⟩ => ⟨S2048x128256, .f32⟩
  | .hbm, ⟨11, _⟩ => ⟨S2048x1, .f32⟩
  | .hbm, ⟨12, _⟩ => ⟨S2048x1, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S_, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S_, .f32⟩
  | .hbm, ⟨29, _⟩ => ⟨S2x1024, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S2x1023, .f32⟩
  | .hbm, ⟨36, _⟩ => ⟨S2x1023, .f32⟩
  | .hbm, ⟨37, _⟩ => ⟨S2x1023, .f32⟩
  | .hbm, ⟨38, _⟩ => ⟨S2x1023, .f32⟩
  | .hbm, ⟨39, _⟩ => ⟨S2x1023, .f32⟩
  | .hbm, ⟨40, _⟩ => ⟨S_, .f32⟩
  | .hbm, ⟨41, _⟩ => ⟨S2, .f32⟩
  | .hbm, ⟨42, _⟩ => ⟨S_, .f32⟩
  | .hbm, ⟨43, _⟩ => ⟨S2, .f32⟩
  | .hbm, ⟨44, _⟩ => ⟨S2, .f32⟩
  | .hbm, ⟨45, _⟩ => ⟨S_, .f32⟩
  | .hbm, ⟨46, _⟩ => ⟨S2x1023, .f32⟩
  | .hbm, ⟨47, _⟩ => ⟨S2x1023, .i1⟩
  | .hbm, ⟨48, _⟩ => ⟨S2x1023, .i32⟩
  | .hbm, ⟨49, _⟩ => ⟨S_, .i32⟩
  | .hbm, ⟨50, _⟩ => ⟨S_, .i32⟩
  | .hbm, ⟨51, _⟩ => ⟨S2x1023, .i32⟩
  | .hbm, ⟨52, _⟩ => ⟨S_, .i32⟩
  | .hbm, ⟨53, _⟩ => ⟨S2x1023, .i32⟩
  | .hbm, ⟨54, _⟩ => ⟨S2x1023, .i1⟩
  | .hbm, ⟨55, _⟩ => ⟨S2x1023, .i1⟩
  | .hbm, ⟨56, _⟩ => ⟨S_, .i32⟩
  | .hbm, ⟨57, _⟩ => ⟨S2x1023, .i32⟩
  | .hbm, ⟨58, _⟩ => ⟨S2x1023, .i1⟩
  | .hbm, ⟨59, _⟩ => ⟨S2x1023, .i1⟩
  | .hbm, ⟨60, _⟩ => ⟨S2x1023, .f32⟩
  | .hbm, ⟨61, _⟩ => ⟨S2x1023, .f32⟩
  | .hbm, ⟨62, _⟩ => ⟨S_, .f32⟩
  | .hbm, ⟨63, _⟩ => ⟨S2, .f32⟩
  | .hbm, ⟨64, _⟩ => ⟨S2x1023, .i32⟩
  | .hbm, ⟨65, _⟩ => ⟨S_, .i32⟩
  | .hbm, ⟨66, _⟩ => ⟨S2, .i32⟩
  | .hbm, ⟨67, _⟩ => ⟨S2, .f32⟩
  | .hbm, ⟨68, _⟩ => ⟨S2, .f32⟩
  | .hbm, ⟨69, _⟩ => ⟨S_, .f32⟩
  | .hbm, ⟨70, _⟩ => ⟨S_, .f32⟩
  | .hbm, ⟨71, _⟩ => ⟨S2x1023, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S256x6144, .f32⟩
  | .local _ .vmem, ⟨1, _⟩ => ⟨S256x6144, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S2x1024x128256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call3_call0_c : Ref sig .tc := ⟨.hbm, 49, rfl⟩
abbrev main_call3_call0_v0 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 21], ![false, false]⟩

def k0_cond2 (i : grid0.Coords) : BitVec 1 :=
  let arg1 : BitVec 32 := BitVec.ofNat 32 (i 1).val
  let c20_i32 : BitVec 32 := 20#32
  let v56 : BitVec 1 := Scalar.cmpi .eq arg1 c20_i32
  let v57 : BitVec 32 := Scalar.extui v56
  let c0_i32_27 : BitVec 32 := 0#32
  let v58 : BitVec 1 := Scalar.cmpi .ne v57 c0_i32_27
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x1024_S2x1023_0_1 : S2x1024.Slices ![0, 1] S2x1023
  pads_S2x1023_S2x1024_000_010 : S2x1023.Pads (![0, 0] : Fin 2 → Nat) ![0, 1] ![0, 0] S2x1024
  h_S_ : 0 < S_.numel
  shapeCasts_S2x1024_S2048x1 : S2x1024.ShapeCasts S2048x1
  shapeCasts_S2x1024x128256_S2048x128256 : S2x1024x128256.ShapeCasts S2048x128256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  iota_S256x6144_d1_w32 : S256x6144.Iotas .tc 32 [1]
  reduces_S256x6144_S256 : S256x6144.Reduces [1] S256
  shapeCasts_S256_S256x1 : S256.ShapeCasts S256x1
  broadcasts_S256x1_S256x6144 : S256x1.Broadcasts S256x6144
  shapeCasts_S2048x1_S2x1024 : S2048x1.ShapeCasts S2x1024
  bcast_S2_S2x1_0 : S2.BroadcastsInDim S2x1 (![0] : Fin 1 → Fin S2x1.rank)
  bcast_S2x1_S2x1024_0_1 : S2x1.BroadcastsInDim S2x1024 (![0, 1] : Fin 2 → Fin S2x1024.rank)
  bcast_S_S2x1024 : S_.BroadcastsInDim S2x1024 (![] : Fin 0 → Fin S2x1024.rank)
  slices_S2x1024_S2x1023_0_0 : S2x1024.Slices ![0, 0] S2x1023
  reducesTo_S2x1023_S2_d1 : S2x1023.ReducesTo [1] S2
  bcast_S_S2x1023 : S_.BroadcastsInDim S2x1023 (![] : Fin 0 → Fin S2x1023.rank)
  natLt_1_32 : 1 < 32
  bcast_S_S_ : S_.BroadcastsInDim S_ (![] : Fin 0 → Fin S_.rank)
  reduceWindows_S2x1023_S2x1023_w1s1p0_0_w1023s1p1022_0 : S2x1023.ReduceWindows (![1, 1023] : Fin 2 → Nat) ![1, 1] ![0, 1022] ![0, 0] S2x1023
  reducesTo_S2x1023_S_d0_1 : S2x1023.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x6144.size a < S2048x128256.size a
  hwx0_0 : ∀ i : grid0.Coords, EltTy.bits .f32 = 32 ∨ (Rect.unit (s := S2048x128256) (fun a => cc0_transform_0 i a * S256x6144.size a) (fun a => (Pipeline.Clip.of (cc0_transform_0 i a) (S256x6144.size a) (S2048x128256.size a)).extent (S256x6144.size a)) fun a => Pipeline.Clip.inb (Pipeline.Clip.ok_of (hstart0_0 i a))).WholeWords (EltTy.packing .f32)
  hwxs0_0 : ∀ i : grid0.Coords, EltTy.bits .f32 = 32 ∨ (Rect.unit (s := S256x6144) (fun _ => 0) (fun a => (Pipeline.Clip.of (cc0_transform_0 i a) (S256x6144.size a) (S2048x128256.size a)).extent (S256x6144.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)

variable [Facts₀]

abbrev win0_0 : Pipeline.Window sig grid0 :=
  Pipeline.Window.ofSpecClip (Memref.whole main_v3) S256x6144.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x1024x128256 : Shape := ⟨3, ![2, 1024, 128256]⟩
abbrev S2x1024 : Shape := ⟨2, ![2, 1024]⟩
abbrev S2x1023 : Shape := ⟨2, ![2, 1023]⟩
abbrev S2 : Shape := ⟨1, ![2]⟩
abbrev S_ : Shape := ⟨0, ![]⟩
abbrev S2x1024x1 : Shape := ⟨3, ![2, 1024, 1]⟩
abbrev S2x1024x1x1 : Shape := ⟨4, ![2, 1024, 1, 1]⟩
abbrev S1 : Shape := ⟨1, ![1]⟩
abbrev S1x1x1x1 : Shape := ⟨4, ![1, 1, 1, 1]⟩
abbrev S2x1 : Shape := ⟨2, ![2, 1]⟩

abbrev nBuf : Space → Nat
  | .hbm => 113
  | .vmem => 0
  | .smem => 0
  | _ => 0

abbrev bufTy : (tb : Table) → Fin (tcTables nBuf tb) → BufTy
  | .hbm, ⟨0, _⟩ => ⟨S2x1024x128256, .f32⟩
  | .hbm, ⟨1, _⟩ => ⟨S2x1024, .i32⟩
  | .hbm, ⟨2, _⟩ => ⟨S2x1023, .f32⟩
  | .hbm, ⟨3, _⟩ => ⟨S2, .f32⟩
  | .hbm, ⟨4, _⟩ => ⟨S2x1024, .f32⟩
  | .hbm, ⟨5, _⟩ => ⟨S2x1023, .i32⟩
  | .hbm, ⟨6, _⟩ => ⟨S_, .i32⟩
  | .hbm, ⟨7, _⟩ => ⟨S_, .i32⟩
  | .hbm, ⟨8, _⟩ => ⟨S2x1024, .i32⟩
  | .hbm, ⟨9, _⟩ => ⟨S_, .f32⟩
  | .hbm, ⟨10, _⟩ => ⟨S_, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024x1, .f32⟩
  | .hbm, ⟨18, _⟩ => ⟨S2x1024x128256, .f32⟩
  | .hbm, ⟨19, _⟩ => ⟨S2x1024x128256, .f32⟩
  | .hbm, ⟨20, _⟩ => ⟨S2x1024x128256, .f32⟩
  | .hbm, ⟨21, _⟩ => ⟨S_, .f32⟩
  | .hbm, ⟨22, _⟩ => ⟨S2x1024, .f32⟩
  | .hbm, ⟨23, _⟩ => ⟨S2x1024x1, .f32⟩
  | .hbm, ⟨24, _⟩ => ⟨S2x1024x1, .f32⟩
  | .hbm, ⟨25, _⟩ => ⟨S2x1024x128256, .f32⟩
  | .hbm, ⟨26, _⟩ => ⟨S2x1024x128256, .f32⟩
  | .hbm, ⟨27, _⟩ => ⟨S2x1024x1, .i32⟩
  | .hbm, ⟨28, _⟩ => ⟨S_, .i32⟩
  | .hbm, ⟨29, _⟩ => ⟨S2x1024x1, .i32⟩
  | .hbm, ⟨30, _⟩ => ⟨S2x1024x1, .i1⟩
  | .hbm, ⟨31, _⟩ => ⟨S_, .i32⟩
  | .hbm, ⟨32, _⟩ => ⟨S2x1024x1, .i32⟩
  | .hbm, ⟨33, _⟩ => ⟨S2x1024x1, .i32⟩
  | .hbm, ⟨34, _⟩ => ⟨S2x1024x1, .i32⟩
  | .hbm, ⟨35, _⟩ => ⟨S2x1024x1x1, .i32⟩
  | .hbm, ⟨36, _⟩ => ⟨S1, .i32⟩
  | .hbm, ⟨37, _⟩ => ⟨S_, .i32⟩
  | .hbm, ⟨38, _⟩ => ⟨S2x1024x1x1, .i32⟩
  | .hbm, ⟨39, _⟩ => ⟨S2x1024x1x1, .i1⟩
  | .hbm, ⟨40, _⟩ => ⟨S1x1x1x1, .i32⟩
  | .hbm, ⟨41, _⟩ => ⟨S2x1024x1x1, .i32⟩
  | .hbm, ⟨42, _⟩ => ⟨S2x1024x1x1, .i1⟩
  | .hbm, ⟨43, _⟩ => ⟨S2x1024x1x1, .i1⟩
  | .hbm, ⟨44, _⟩ => ⟨S_, .i1⟩
  | .hbm, ⟨45, _⟩ => ⟨S2x1024x1, .i1⟩
  | .hbm, ⟨46, _⟩ => ⟨S2x1024x1, .f32⟩
  | .hbm, ⟨47, _⟩ => ⟨S_, .f32⟩
  | .hbm, ⟨48, _⟩ => ⟨S2x1024x1, .f32⟩
  | .hbm, ⟨49, _⟩ => ⟨S2x1024x1, .f32⟩
  | .hbm, ⟨50, _⟩ => ⟨S2x1024, .f32⟩
  | .hbm, ⟨51, _⟩ => ⟨S2x1024, .f32⟩
  | .hbm, ⟨52, _⟩ => ⟨S2x1024, .f32⟩
  | .hbm, ⟨53, _⟩ => ⟨S2x1, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x1024, .f32⟩
  | .hbm, ⟨60, _⟩ => ⟨S2x1024, .f32⟩
  | .hbm, ⟨61, _⟩ => ⟨S_, .f32⟩
  | .hbm, ⟨62, _⟩ => ⟨S2x1024, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S2x1024, .f32⟩
  | .hbm, ⟨68, _⟩ => ⟨S2x1024x128256, .f32⟩
  | .hbm, ⟨69, _⟩ => ⟨S2x1024x128256, .f32⟩
  | .hbm, ⟨70, _⟩ => ⟨S_, .f32⟩
  | .hbm, ⟨71, _⟩ => ⟨S2x1024, .f32⟩
  | .hbm, ⟨72, _⟩ => ⟨S2x1024, .f32⟩
  | .hbm, ⟨73, _⟩ => ⟨S2x1023, .f32⟩
  | .hbm, ⟨74, _⟩ => ⟨S2x1023, .f32⟩
  | .hbm, ⟨75, _⟩ => ⟨S2x1023, .f32⟩
  | .hbm, ⟨76, _⟩ => ⟨S2x1023, .f32⟩
  | .hbm, ⟨77, _⟩ => ⟨S2x1023, .f32⟩
  | .hbm, ⟨78, _⟩ => ⟨S_, .f32⟩
  | .hbm, ⟨79, _⟩ => ⟨S2, .f32⟩
  | .hbm, ⟨80, _⟩ => ⟨S_, .f32⟩
  | .hbm, ⟨81, _⟩ => ⟨S2, .f32⟩
  | .hbm, ⟨82, _⟩ => ⟨S2, .f32⟩
  | .hbm, ⟨83, _⟩ => ⟨S_, .f32⟩
  | .hbm, ⟨84, _⟩ => ⟨S2x1023, .f32⟩
  | .hbm, ⟨85, _⟩ => ⟨S2x1023, .i1⟩
  | .hbm, ⟨86, _⟩ => ⟨S2x1023, .i32⟩
  | .hbm, ⟨87, _⟩ => ⟨S_, .i32⟩
  | .hbm, ⟨88, _⟩ => ⟨S_, .i32⟩
  | .hbm, ⟨89, _⟩ => ⟨S2x1023, .i32⟩
  | .hbm, ⟨90, _⟩ => ⟨S_, .i32⟩
  | .hbm, ⟨91, _⟩ => ⟨S2x1023, .i32⟩
  | .hbm, ⟨92, _⟩ => ⟨S2x1023, .i1⟩
  | .hbm, ⟨93, _⟩ => ⟨S2x1023, .i1⟩
  | .hbm, ⟨94, _⟩ => ⟨S_, .i32⟩
  | .hbm, ⟨95, _⟩ => ⟨S2x1023, .i32⟩
  | .hbm, ⟨96, _⟩ => ⟨S2x1023, .i1⟩
  | .hbm, ⟨97, _⟩ => ⟨S2x1023, .i1⟩
  | .hbm, ⟨98, _⟩ => ⟨S2x1023, .f32⟩
  | .hbm, ⟨99, _⟩ => ⟨S2x1023, .f32⟩
  | .hbm, ⟨100, _⟩ => ⟨S_, .f32⟩
  | .hbm, ⟨101, _⟩ => ⟨S2, .f32⟩
  | .hbm, ⟨102, _⟩ => ⟨S2x1023, .i32⟩
  | .hbm, ⟨103, _⟩ => ⟨S_, .i32⟩
  | .hbm, ⟨104, _⟩ => ⟨S2, .i32⟩
  | .hbm, ⟨105, _⟩ => ⟨S2, .f32⟩
  | .hbm, ⟨106, _⟩ => ⟨S2, .f32⟩
  | .hbm, ⟨107, _⟩ => ⟨S_, .f32⟩
  | .hbm, ⟨108, _⟩ => ⟨S_, .f32⟩
  | .hbm, ⟨109, _⟩ => ⟨S2x1023, .f32⟩
  | .hbm, ⟨110, _⟩ => ⟨S_, .f32⟩
  | .hbm, ⟨111, _⟩ => ⟨S_, .f32⟩
  | .hbm, ⟨112, _⟩ => ⟨S_, .f32⟩
  | _, _ => ⟨S2x1024x128256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_call1_v0 : Ref sig .tc := ⟨.hbm, 10, rfl⟩
abbrev main_v2 : Ref sig .tc := ⟨.hbm, 11, rfl⟩
abbrev main_call2_cst : Ref sig .tc := ⟨.hbm, 12, rfl⟩
abbrev main_call2_v0 : Ref sig .tc := ⟨.hbm, 13, rfl⟩
abbrev main_call2_cst_0 : Ref sig .tc := ⟨.hbm, 14, rfl⟩
abbrev main_call2_v1 : Ref sig .tc := ⟨.hbm, 15, rfl⟩
abbrev main_call2_v2 : Ref sig .tc := ⟨.hbm, 16, rfl⟩
abbrev main_call2_v3 : Ref sig .tc := ⟨.hbm, 17, rfl⟩
abbrev main_call2_v4 : Ref sig .tc := ⟨.hbm, 18, rfl⟩
abbrev main_call2_v5 : Ref sig .tc := ⟨.hbm, 19, rfl⟩
abbrev main_call2_v6 : Ref sig .tc := ⟨.hbm, 20, rfl⟩
abbrev main_call2_cst_1 : Ref sig .tc := ⟨.hbm, 21, rfl⟩
abbrev main_call2_v7 : Ref sig .tc := ⟨.hbm, 22, rfl⟩
abbrev main_call2_v8 : Ref sig .tc := ⟨.hbm, 23, rfl⟩
abbrev main_call2_v9 : Ref sig .tc := ⟨.hbm, 24, rfl⟩
abbrev main_call2_v10 : Ref sig .tc := ⟨.hbm, 25, rfl⟩
abbrev main_v3 : Ref sig .tc := ⟨.hbm, 26, rfl⟩
abbrev main_v4 : Ref sig .tc := ⟨.hbm, 27, rfl⟩
abbrev main_call3_c : Ref sig .tc := ⟨.hbm, 28, rfl⟩
abbrev main_call3_v0 : Ref sig .tc := ⟨.hbm, 29, rfl⟩
abbrev main_call3_v1 : Ref sig .tc := ⟨.hbm, 30, rfl⟩
abbrev main_call3_c_0 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_call3_v5 : Ref sig .tc := ⟨.hbm, 35, rfl⟩
abbrev main_call3_c_1 : Ref sig .tc := ⟨.hbm, 36, rfl⟩
abbrev main_call3_c_2 : Ref sig .tc := ⟨.hbm, 37, rfl⟩
abbrev main_call3_v6 : Ref sig .tc := ⟨.hbm, 38, rfl⟩
abbrev main_call3_v7 : Ref sig .tc := ⟨.hbm, 39, rfl⟩
abbrev main_call3_v8 : Ref sig .tc := ⟨.hbm, 40, rfl⟩
abbrev main_call3_v9 : Ref sig .tc := ⟨.hbm, 41, rfl⟩
abbrev main_call3_v10 : Ref sig .tc := ⟨.hbm, 42, rfl⟩
abbrev main_call3_v11 : Ref sig .tc := ⟨.hbm, 43, rfl⟩
abbrev main_call3_c_3 : Ref sig .tc := ⟨.hbm, 44, rfl⟩
abbrev main_call3_v12 : Ref sig .tc := ⟨.hbm, 45, rfl⟩
abbrev main_call3_v13 : Ref sig .tc := ⟨.hbm, 46, rfl⟩
abbrev main_call3_cst : Ref sig .tc := ⟨.hbm, 47, rfl⟩
abbrev main_call3_v14 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_0 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_2 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_3 : Ref sig .tc := ⟨.hbm, 78, rfl⟩
abbrev main_v26 : Ref sig .tc := ⟨.hbm, 79, rfl⟩
abbrev main_cst_4 : Ref sig .tc := ⟨.hbm, 80, rfl⟩
abbrev main_v27 : Ref sig .tc := ⟨.hbm, 81, rfl⟩
abbrev main_v28 : Ref sig .tc := ⟨.hbm, 82, rfl⟩
abbrev main_cst_5 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_call5_call0_c : Ref sig .tc := ⟨.hbm, 87, rfl⟩
abbrev main_call5_call0_v0 : Ref sig .tc := ⟨.hbm, 88, rfl⟩
abbrev main_v32 : Ref sig .tc := ⟨.hbm, 89, rfl⟩
abbrev main_c_6 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_7 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_cst_8 : Ref sig .tc := ⟨.hbm, 100, rfl⟩
abbrev main_v41 : Ref sig .tc := ⟨.hbm, 101, rfl⟩
abbrev main_v42 : Ref sig .tc := ⟨.hbm, 102, rfl⟩
abbrev main_c_9 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_10 : Ref sig .tc := ⟨.hbm, 107, rfl⟩
abbrev main_v46 : Ref sig .tc := ⟨.hbm, 108, rfl⟩
abbrev main_v47 : Ref sig .tc := ⟨.hbm, 109, rfl⟩
abbrev main_cst_11 : Ref sig .tc := ⟨.hbm, 110, rfl⟩
abbrev main_v48 : Ref sig .tc := ⟨.hbm, 111, rfl⟩
abbrev main_v49 : Ref sig .tc := ⟨.hbm, 112, rfl⟩

abbrev nD : Nat := 1
abbrev τ : Topo := Topo.v7x

variable {F : FTy → Type} [FloatOps F]

class Facts₀ : Prop where
  slices_S2x1024_S2x1023_0_1 : S2x1024.Slices ![0, 1] S2x1023
  pads_S2x1023_S2x1024_000_010 : S2x1023.Pads (![0, 0] : Fin 2 → Nat) ![0, 1] ![0, 0] S2x1024
  h_S_ : 0 < S_.numel
  reducesTo_S2x1024x128256_S2x1024_d2 : S2x1024x128256.ReducesTo [2] S2x1024
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S2x1024x1_S2x1024x128256_0_1_2 : S2x1024x1.BroadcastsInDim S2x1024x128256 (![0, 1, 2] : Fin 3 → Fin S2x1024x128256.rank)
  bcast_S_S2x1024x1 : S_.BroadcastsInDim S2x1024x1 (![] : Fin 0 → Fin S2x1024x1.rank)
  shapeCasts_S2x1024x1_S2x1024x1x1 : S2x1024x1.ShapeCasts S2x1024x1x1
  bcast_S_S2x1024x1x1 : S_.BroadcastsInDim S2x1024x1x1 (![] : Fin 0 → Fin S2x1024x1x1.rank)
  bcast_S1_S1x1x1x1_3 : S1.BroadcastsInDim S1x1x1x1 (![3] : Fin 1 → Fin S1x1x1x1.rank)
  bcast_S1x1x1x1_S2x1024x1x1_0_1_2_3 : S1x1x1x1.BroadcastsInDim S2x1024x1x1 (![0, 1, 2, 3] : Fin 4 → Fin S2x1024x1x1.rank)
  reducesTo_S2x1024x1x1_S2x1024x1_d3 : S2x1024x1x1.ReducesTo [3] S2x1024x1
  shapeCasts_S2x1024x1_S2x1024 : S2x1024x1.ShapeCasts S2x1024
  bcast_S2_S2x1_0 : S2.BroadcastsInDim S2x1 (![0] : Fin 1 → Fin S2x1.rank)
  bcast_S2x1_S2x1024_0_1 : S2x1.BroadcastsInDim S2x1024 (![0, 1] : Fin 2 → Fin S2x1024.rank)
  slices_S2x1024_S2x1023_0_0 : S2x1024.Slices ![0, 0] S2x1023
  reducesTo_S2x1023_S2_d1 : S2x1023.ReducesTo [1] S2
  bcast_S_S2x1023 : S_.BroadcastsInDim S2x1023 (![] : Fin 0 → Fin S2x1023.rank)
  natLt_1_32 : 1 < 32
  bcast_S_S_ : S_.BroadcastsInDim S_ (![] : Fin 0 → Fin S_.rank)
  reduceWindows_S2x1023_S2x1023_w1s1p0_0_w1023s1p1022_0 : S2x1023.ReduceWindows (![1, 1023] : Fin 2 → Nat) ![1, 1] ![0, 1022] ![0, 0] S2x1023
  reducesTo_S2x1023_S_d0_1 : S2x1023.ReducesTo [0, 1] S_
  gather_S2x1024x128256_S2x1024x1x1_S2x1024x1_n_2_01_01_2_3_111_wf : GatherDims.WF S2x1024x128256 S2x1024x1x1 S2x1024x1 [] [2] [0, 1] [2] [0, 1] 3 ![1, 1, 1]

variable [Facts₀]

def gather_S2x1024x128256_S2x1024x1x1_S2x1024x1_n_2_01_01_2_3_111 : GatherDims S2x1024x128256 S2x1024x1x1 S2x1024x1 where
  offsetDims := []
  collapsedSliceDims := [2]
  operandBatchingDims := [0, 1]
  startIndicesBatchingDims := [0, 1]
  startIndexMap := [2]
  indexVectorDim := 3
  sliceSizes := ![1, 1, 1]
  wf := gather_S2x1024x128256_S2x1024x1x1_S2x1024x1_n_2_01_01_2_3_111_wf

class Facts : Prop extends Facts₀ where

variable [Facts]
-- ==== Proof.BBody.lean ====
/-
  The kernel body's runs, case by case (at any float instance): what each staging and scratch buffer holds after the body
  as the pieces its stores wrote, found by running the body symbolically.
-/
import proofs.«430439_j8589934595_1_alg».proof.Proof.Gen.Kernel.Frame
import proofs.«430439_j8589934595_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body on whole staging memrefs and whole scratch buffers, in each of the three cases the grid meets:
    the first chunk of a row block (the running state is reset, then updated), a middle chunk (updated), the last
    chunk (updated, then the two outputs written from it). Each statement hands the body its buffers at given
    contents and takes them back: the inputs as they were, each buffer the case stores into with its stores
    written, as a list of pieces (last first) that the run itself finds. -/

/-- The first conditional of the body (the reset of the running state) is taken exactly at the first chunk of a row block. -/
abbrev condFirst (i : grid0.Coords) : Prop := (Scalar.cmpi .ne (Scalar.extui (Scalar.cmpi .eq (BitVec.ofNat 32 (i 1).val) 0#32)) 0#32) = 1#1
/-- The second (the epilogue) exactly at the last chunk. -/
abbrev condLast (i : grid0.Coords) : Prop := k0_cond2 i = 1#1

set_option maxHeartbeats 4000000 in
/-- A middle chunk: the four scratch buffers updated, the outputs' buffers untouched. -/
noncomputable def runMid (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) :
    Σ' (LS0 : List (View.Piece (Elt F) S256x1 .f32)) (LS1 : List (View.Piece (Elt F) S256x1 .f32)) (LS2 : List (View.Piece (Elt F) S256x1 .f32)), { LS3 : List (View.Piece (Elt F) S256x1 .f32) //
      ∀ (xi4 xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare xi4 ∗ owns (c : Thread nD τ) arg5 fullShare xi5
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare xi4 ∗ owns (c : Thread nD τ) arg5 fullShare xi5
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0_kernel_eq_skeleton]; unfold cc0_kernel_skel
    unfold owns
    iintro ⟨⟨%f0, %hf0, H0⟩, ⟨%f1, %hf1, H1⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg4.eq_unread hf4; obtain rfl := harg5.eq_unread hf5
    obtain rfl := harg6.eq_unread hfs0; obtain rfl := harg7.eq_unread hfs1
    obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [HS0]; · iexists _; iexact HS0
    isplitl [HS1]; · iexists _; iexact HS1
    isplitl [HS2]; · iexists _; iexact HS2
    iexists _; iexact HS3

set_option maxHeartbeats 4000000 in
/-- The first chunk: the four scratch buffers, found at anything, reset and then updated; the outputs' buffers untouched. -/
noncomputable def runFirst (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) :
    Σ' (LS0 : List (View.Piece (Elt F) S256x1 .f32)) (LS1 : List (View.Piece (Elt F) S256x1 .f32)) (LS2 : List (View.Piece (Elt F) S256x1 .f32)), { LS3 : List (View.Piece (Elt F) S256x1 .f32) //
      ∀ (xi4 xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare xi4 ∗ owns (c : Thread nD τ) arg5 fullShare xi5
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi4 ∗ owns (c : Thread nD τ) arg5 fullShare xi5
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0_kernel_eq_skeleton]; unfold cc0_kernel_skel
    unfold owns
    iintro ⟨⟨%f0, %hf0, H0⟩, ⟨%f1, %hf1, H1⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1
    obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [HS0]; · iexists _; iexact HS0
    isplitl [HS1]; · iexists _; iexact HS1
    isplitl [HS2]; · iexists _; iexact HS2
    iexists _; iexact HS3

set_option maxHeartbeats 4000000 in
/-- The last chunk: the four scratch buffers updated and the two outputs' buffers, found at anything, written. -/
noncomputable def runLast (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) :
    Σ' (L4 : List (View.Piece (Elt F) S256x1 .f32)) (L5 : List (View.Piece (Elt F) S256x1 .f32)) (LS0 : List (View.Piece (Elt F) S256x1 .f32)) (LS1 : List (View.Piece (Elt F) S256x1 .f32)) (LS2 : List (View.Piece (Elt F) S256x1 .f32)), { LS3 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg6.eq_unread hfs0; obtain rfl := harg7.eq_unread hfs1
    obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.Kernel.Body

end
-- ==== Proof.BFrame.lean ====
/-
  The frame of the kernel program: every weakly fair execution of @main terminates, nothing faults, and the five
  argument arrays end as launched. No contents are named: the body's control flow depends on the grid point only, so
  every window and every scratch buffer is handed to the body at some contents and taken back at some contents.
-/
import proofs.«430439_j8589934595_1_alg».proof.Proof.BBody
import Idealize.ShloMosaic.Lib.Pipeline.FrameSuffix

set_option maxRecDepth 16384

noncomputable section

namespace Cert.Kernel.BFrame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on buffers at some contents -/

/-- A buffer left with stores written over some contents is a buffer at some contents. -/
theorem some_of_writes (c : Dev nD) {sh : Shape} {e : EltTy} (M : Memref sig .tc .vmem sh e) (L : List (View.Piece (Elt F) sh e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  iexists (M.view.read (Elt F) (M.view.writes (Elt F) f L))
  iapply (owns_intro (c : Thread nD τ) M fullShare _)
  iexact H

/-- The body's eight buffers, each at some contents. -/
def Own8 (c : Dev nD) (a2 : Memref sig .tc .vmem S256x6144 .f32) (a3 : Memref sig .tc .vmem S256x1 .i32) (a4 : Memref sig .tc .vmem S256x1 .f32) (a5 : Memref sig .tc .vmem S256x1 .f32) (a6 : Memref sig .tc .vmem S256x1 .f32) (a7 : Memref sig .tc .vmem S256x1 .f32) (a8 : Memref sig .tc .vmem S256x1 .f32) (a9 : Memref sig .tc .vmem S256x1 .f32) : sProp 𝕄 :=
  iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d)
    ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d))

set_option maxHeartbeats 1600000 in
/-- The body at any point that is not both a first and a last chunk, on whole memrefs at some contents: it runs, and
    returns each at some contents (the three cases of its two conditionals, each by its symbolic run). -/
theorem run_any (c : Dev nD) (i : grid0.Coords) (a2 : Memref sig .tc .vmem S256x6144 .f32) (h2 : a2.IsWhole) (a3 : Memref sig .tc .vmem S256x1 .i32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (a7 : Memref sig .tc .vmem S256x1 .f32) (h7 : a7.IsWhole) (a8 : Memref sig .tc .vmem S256x1 .f32) (h8 : a8.IsWhole) (a9 : Memref sig .tc .vmem S256x1 .f32) (h9 : a9.IsWhole)
    (hx : ¬(condFirst i ∧ condLast i)) (E : Set ℕ) (K : PUnit → sProp 𝕄) :
    iprop(Own8 (F := F) c a2 a3 a4 a5 a6 a7 a8 a9 ∗ (Own8 (F := F) c a2 a3 a4 a5 a6 a7 a8 a9 -∗ K ⟨⟩))
      ⊢ wp frame (wpE (defs₀ (F := F)) Variants.none c none) E (cc0_kernel i a2 h2 a3 h3 a4 h4 a5 h5 a6 h6 a7 h7 a8 h8 a9 h9) K := by
  unfold Own8
  by_cases hF : condFirst i
  · have hL : ¬condLast i := fun h => hx ⟨hF, h⟩
    iintro ⟨⟨⟨%x0, H0⟩, ⟨%x1, H1⟩, ⟨%x4, H4⟩, ⟨%x5, H5⟩, HS0, HS1, HS2, HS3⟩, Hk⟩
    iapply ((runFirst c i a2 h2 a3 h3 a4 h4 a5 h5 a6 h6 a7 h7 a8 h8 a9 h9 hF hL x0 x1).2.2.2.2 x4 x5 E K)
    isplitl [H0]; · iexact H0
    isplitl [H1]; · iexact H1
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H4, H5, HS0, HS1, HS2, HS3⟩
    iapply Hk
    isplitl [H0]; · iexists _; iexact H0
    isplitl [H1]; · iexists _; iexact H1
    isplitl [H4]; · iexists _; iexact H4
    isplitl [H5]; · iexists _; iexact H5
    isplitl [HS0]; · iapply (some_of_writes c a6 _); iexact HS0
    isplitl [HS1]; · iapply (some_of_writes c a7 _); iexact HS1
    isplitl [HS2]; · iapply (some_of_writes c a8 _); iexact HS2
    iapply (some_of_writes c a9 _); iexact HS3
  · by_cases hL : condLast i
    · iintro ⟨⟨⟨%x0, H0⟩, ⟨%x1, H1⟩, H4, H5, ⟨%s0, HS0⟩, ⟨%s1, HS1⟩, ⟨%s2, HS2⟩, ⟨%s3, HS3⟩⟩, Hk⟩
      iapply ((runLast c i a2 h2 a3 h3 a4 h4 a5 h5 a6 h6 a7 h7 a8 h8 a9 h9 hF hL x0 x1 s0 s1 s2 s3).2.2.2.2.2.2 E K)
      isplitl [H0]; · iexact H0
      isplitl [H1]; · iexact H1
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H4, H5, HS0, HS1, HS2, HS3⟩
      iapply Hk
      isplitl [H0]; · iexists _; iexact H0
      isplitl [H1]; · iexists _; iexact H1
      isplitl [H4]; · iapply (some_of_writes c a4 _); iexact H4
      isplitl [H5]; · iapply (some_of_writes c a5 _); iexact H5
      isplitl [HS0]; · iapply (some_of_writes c a6 _); iexact HS0
      isplitl [HS1]; · iapply (some_of_writes c a7 _); iexact HS1
      isplitl [HS2]; · iapply (some_of_writes c a8 _); iexact HS2
      iapply (some_of_writes c a9 _); iexact HS3
    · iintro ⟨⟨⟨%x0, H0⟩, ⟨%x1, H1⟩, ⟨%x4, H4⟩, ⟨%x5, H5⟩, ⟨%s0, HS0⟩, ⟨%s1, HS1⟩, ⟨%s2, HS2⟩, ⟨%s3, HS3⟩⟩, Hk⟩
      iapply ((runMid c i a2 h2 a3 h3 a4 h4 a5 h5 a6 h6 a7 h7 a8 h8 a9 h9 hF hL x0 x1 s0 s1 s2 s3).2.2.2.2 x4 x5 E K)
      isplitl [H0]; · iexact H0
      isplitl [H1]; · iexact H1
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H4, H5, HS0, HS1, HS2, HS3⟩
      iapply Hk
      isplitl [H0]; · iexists _; iexact H0
      isplitl [H1]; · iexists _; iexact H1
      isplitl [H4]; · iexists _; iexact H4
      isplitl [H5]; · iexists _; iexact H5
      isplitl [HS0]; · iapply (some_of_writes c a6 _); iexact HS0
      isplitl [HS1]; · iapply (some_of_writes c a7 _); iexact HS1
      isplitl [HS2]; · iapply (some_of_writes c a8 _); iexact HS2
      iapply (some_of_writes c a9 _); iexact HS3

variable (m : (ℓ : Loc nD τ sig) → Buf (Elt F) ℓ) (ρ : Dev nD → PrngReg)

/-! ## The pipeline's proof data -/

/-- Every window is forgotten: no claim proved here reads what a staging buffer or an output array holds. -/
def forgets0 : Fin 4 → Bool := fun _ => true

/-- The proof data of the one pipeline on core `c`: the arrays as the region finds them; what the body leaves in a
    window's buffer is not named; the invariant is the class's (the scratch buffers at some contents each, the generator
    register at some state); nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The class's invariant with the four scratch buffers as whole memrefs owned at some contents. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-! ## The body's two conditions over the grid -/

/-- The reset is taken at the points ≡ 0 (mod 21). -/
theorem hcondFirst : ∀ t : Fin cfg0.N, condFirst (grid0.coords t) ↔ t.val % 21 = 0 :=
  (by decide +kernel : ∀ t : Fin grid0.N, condFirst (grid0.coords t) ↔ t.val % 21 = 0)
/-- The epilogue at the points ≡ 20 (mod 21). -/
theorem hcondLast : ∀ t : Fin cfg0.N, condLast (grid0.coords t) ↔ t.val % 21 = 20 :=
  (by decide +kernel : ∀ t : Fin grid0.N, condLast (grid0.coords t) ↔ t.val % 21 = 20)
/-- No point is both. -/
theorem not_both (t : Fin cfg0.N) : ¬(condFirst (grid0.coords t) ∧ condLast (grid0.coords t)) := fun h => by
  have h0 := (hcondFirst t).mp h.1
  have h1 := (hcondLast t).mp h.2
  omega

/-! ## The body obligation -/

/-- What the body is called with at point `t`: the invariant, nothing owed, every window's current buffer at some contents, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- and what it returns: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

set_option maxHeartbeats 1600000 in
/-- The body at any point: the windows' buffers and the scratch buffers of the invariant, each at some contents, go in;
    the same come back; the generator register and the core's debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  iintro ⟨⟨⟨HS0, HS1, HS2, HS3⟩, Hr⟩, Ho, H0, H1, H2, H3⟩
  iapply (run_any c (grid0.coords t) _ _ _ _ _ _ _ _ _ _ _ _ _ _ _ _ (not_both t) Set.univ _)
  unfold Own8
  isplitl [H0 H1 H2 H3 HS0 HS1 HS2 HS3]
  · isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iexact HS3
  iintro ⟨H0, H1, H2, H3, HS0, HS1, HS2, HS3⟩
  isplitl [HS0 HS1 HS2 HS3 Hr]
  · isplitl [HS0 HS1 HS2 HS3]
    · isplitl [HS0]; · iexact HS0
      isplitl [HS1]; · iexact HS1
      isplitl [HS2]; · iexact HS2
      iexact HS3
    iexact Hr
  isplitl [Ho]; · iexact Ho
  isplitl [H0]; · iexact H0
  isplitl [H1]; · iexact H1
  isplitl [H2]; · iexact H2
  iexact H3

/-- The library's body obligation, at every point, every window forgotten. -/
theorem body_obligation (c : Dev nD) : BodyObligation (dats (F := F) m 0 c) (defs₀ (F := F)) Variants.none () Set.univ forgets0 := fun t => by
  rw [bigSep_W0, bigSep_W0]
  exact sound_body m c t

/-! ## The host operations after the region -/

/-- No host operation after the region writes `main_arg0`. -/
theorem nw_main_arg0 : ∀ op ∈ List.flatten ([hostOps1, hostOps1_1, hostOps1_2, hostOps1_3, hostOps1_4, hostOps1_5, hostOps1_6] : List (List (HloOp τ sig (Elt F)))), Proc.devRef .tc main_arg0 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg1`. -/
theorem nw_main_arg1 : ∀ op ∈ List.flatten ([hostOps1, hostOps1_1, hostOps1_2, hostOps1_3, hostOps1_4, hostOps1_5, hostOps1_6] : List (List (HloOp τ sig (Elt F)))), Proc.devRef .tc main_arg1 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg2`. -/
theorem nw_main_arg2 : ∀ op ∈ List.flatten ([hostOps1, hostOps1_1, hostOps1_2, hostOps1_3, hostOps1_4, hostOps1_5, hostOps1_6] : List (List (HloOp τ sig (Elt F)))), Proc.devRef .tc main_arg2 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg3`. -/
theorem nw_main_arg3 : ∀ op ∈ List.flatten ([hostOps1, hostOps1_1, hostOps1_2, hostOps1_3, hostOps1_4, hostOps1_5, hostOps1_6] : List (List (HloOp τ sig (Elt F)))), Proc.devRef .tc main_arg3 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No host operation after the region writes `main_arg4`. -/
theorem nw_main_arg4 : ∀ op ∈ List.flatten ([hostOps1, hostOps1_1, hostOps1_2, hostOps1_3, hostOps1_4, hostOps1_5, hostOps1_6] : List (List (HloOp τ sig (Elt F)))), Proc.devRef .tc main_arg4 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

open Classical in
/-- The buffers the host operations after the region write. -/
def T : Finset (Ref sig .tc) :=
  Finset.univ.filter fun b => ∃ ops ∈ ([hostOps1, hostOps1_1, hostOps1_2, hostOps1_3, hostOps1_4, hostOps1_5, hostOps1_6] : List (List (HloOp τ sig (Elt F)))), ∃ op ∈ ops, Proc.devRef .tc b ∈ op.writes

theorem hT : ∀ ops ∈ ([hostOps1, hostOps1_1, hostOps1_2, hostOps1_3, hostOps1_4, hostOps1_5, hostOps1_6] : List (List (HloOp τ sig (Elt F)))), ∀ op ∈ ops, ∀ b : Ref sig .tc,
    Proc.devRef .tc b ∈ op.writes → b ∈ T (F := F) := fun ops hops op hop b hb => by
  unfold T
  exact Finset.mem_filter.mpr ⟨Finset.mem_univ _, ops, hops, op, hop, hb⟩

/-- An argument array that no operation after the region writes is outside `T`. -/
theorem not_mem_T (b : Ref sig .tc)
    (h : ∀ op ∈ List.flatten ([hostOps1, hostOps1_1, hostOps1_2, hostOps1_3, hostOps1_4, hostOps1_5, hostOps1_6] : List (List (HloOp τ sig (Elt F)))), Proc.devRef .tc b ∉ op.writes) : b ∉ T (F := F) := fun hb => by
  unfold T at hb
  obtain ⟨-, ops, hops, op, hop, hw⟩ := Finset.mem_filter.mp hb
  exact h op (List.mem_flatten.mpr ⟨ops, hops, hop⟩) hw

/-! ## The run and the frame -/

set_option backward.isDefEq.respectTransparency.types false in
/-- At the compiled mesh, for any values, from any memory with zero counters: every weakly fair execution of @main on the
    TensorCores terminates, and in every final state every unscoped buffer that is no window's array and that no host
    operation after the region writes holds its region-entry contents. -/
theorem run_main : θ_run defs (onTc (τ := τ) (main (F := F))) (s₀ m ρ)
    (Pipeline.RDat.FramePostR (cfgs 0) (fun c => (dats m 0 c).toRForget forgets0) (T (F := F)) (V m)) :=
  Pipeline.RDat.θ_run_frame_around_T cfgs (0 : Fin 1) launch0 defs₀ Variants.none (fun c => (dats m 0 c).toRForget forgets0) (T (F := F)) m ρ main
    (hbody := fun c => (body_obligation m c).toRForget) (hshare := fun c => ((dats m 0 c).toRForget forgets0).share_full fun _ => rfl)
    (howed := fun _ _ => rfl) (V₀ := V0 m) (opss := [hostOps1, hostOps1_1, hostOps1_2, hostOps1_3, hostOps1_4, hostOps1_5, hostOps1_6])
    (hsub := sfx_sub) (hfresh := sfx_fresh) (hkeep := sfx_keeps) (hT := hT)
    (hmain := hmain m Variants.none) (hA := A_eq m) (hΦ := fun _ _ => rfl)

/-- THE FRAME: every weakly fair execution of @main terminates, nothing faulting, and the five argument arrays end as
    launched — no window stages one, no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), not_mem_T main_arg0 nw_main_arg0⟩)).trans (V_main_arg0 m c),
      ((h c).2 main_arg1 (Finset.mem_sdiff.mpr ⟨Pipeline.mem_restRefs_of main_arg1 (by decide) (by decide), not_mem_T main_arg1 nw_main_arg1⟩)).trans (V_main_arg1 m c),
      ((h c).2 main_arg2 (Finset.mem_sdiff.mpr ⟨Pipeline.mem_restRefs_of main_arg2 (by decide) (by decide), not_mem_T main_arg2 nw_main_arg2⟩)).trans (V_main_arg2 m c),
      ((h c).2 main_arg3 (Finset.mem_sdiff.mpr ⟨Pipeline.mem_restRefs_of main_arg3 (by decide) (by decide), not_mem_T main_arg3 nw_main_arg3⟩)).trans (V_main_arg3 m c),
      ((h c).2 main_arg4 (Finset.mem_sdiff.mpr ⟨Pipeline.mem_restRefs_of main_arg4 (by decide) (by decide), not_mem_T main_arg4 nw_main_arg4⟩)).trans (V_main_arg4 m c)⟩) (run_main m ρ)

/-- info: 'Cert.Kernel.BFrame.frame' depends on axioms: [propext, Classical.choice, Quot.sound] -/
#guard_msgs in #print axioms frame

end Cert.Kernel.BFrame

end
-- ==== Proof.KBody.lean ====
/-
  The kernel body's runs, case by case (at any float instance): what each staging and scratch buffer holds after the body
  as the pieces its stores wrote, found by running the body symbolically.
-/
import proofs.«430439_j8589934595_1_alg».proof.Proof.Gen.KernelIdeal.Frame
import proofs.«430439_j8589934595_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The kernel body on whole staging memrefs and whole scratch buffers, in each of the three cases the grid meets:
    the first chunk of a row block (the running state is reset, then updated), a middle chunk (updated), the last
    chunk (updated, then the two outputs written from it). Each statement hands the body its buffers at given
    contents and takes them back: the inputs as they were, each buffer the case stores into with its stores
    written, as a list of pieces (last first) that the run itself finds. -/

/-- The first conditional of the body (the reset of the running state) is taken exactly at the first chunk of a row block. -/
abbrev condFirst (i : grid0.Coords) : Prop := (Scalar.cmpi .ne (Scalar.extui (Scalar.cmpi .eq (BitVec.ofNat 32 (i 1).val) 0#32)) 0#32) = 1#1
/-- The second (the epilogue) exactly at the last chunk. -/
abbrev condLast (i : grid0.Coords) : Prop := k0_cond2 i = 1#1

set_option maxHeartbeats 4000000 in
/-- A middle chunk: the four scratch buffers updated, the outputs' buffers untouched. -/
noncomputable def runMid (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) :
    Σ' (LS0 : List (View.Piece (Elt F) S256x1 .f32)) (LS1 : List (View.Piece (Elt F) S256x1 .f32)) (LS2 : List (View.Piece (Elt F) S256x1 .f32)), { LS3 : List (View.Piece (Elt F) S256x1 .f32) //
      ∀ (xi4 xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare xi4 ∗ owns (c : Thread nD τ) arg5 fullShare xi5
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ owns (c : Thread nD τ) arg4 fullShare xi4 ∗ owns (c : Thread nD τ) arg5 fullShare xi5
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0_kernel_eq_skeleton]; unfold cc0_kernel_skel
    unfold owns
    iintro ⟨⟨%f0, %hf0, H0⟩, ⟨%f1, %hf1, H1⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg4.eq_unread hf4; obtain rfl := harg5.eq_unread hf5
    obtain rfl := harg6.eq_unread hfs0; obtain rfl := harg7.eq_unread hfs1
    obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [HS0]; · iexists _; iexact HS0
    isplitl [HS1]; · iexists _; iexact HS1
    isplitl [HS2]; · iexists _; iexact HS2
    iexists _; iexact HS3

set_option maxHeartbeats 4000000 in
/-- The first chunk: the four scratch buffers, found at anything, reset and then updated; the outputs' buffers untouched. -/
noncomputable def runFirst (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) :
    Σ' (LS0 : List (View.Piece (Elt F) S256x1 .f32)) (LS1 : List (View.Piece (Elt F) S256x1 .f32)) (LS2 : List (View.Piece (Elt F) S256x1 .f32)), { LS3 : List (View.Piece (Elt F) S256x1 .f32) //
      ∀ (xi4 xi5 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare xi4 ∗ owns (c : Thread nD τ) arg5 fullShare xi5
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi4 ∗ owns (c : Thread nD τ) arg5 fullShare xi5
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0_kernel_eq_skeleton]; unfold cc0_kernel_skel
    unfold owns
    iintro ⟨⟨%f0, %hf0, H0⟩, ⟨%f1, %hf1, H1⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1
    obtain rfl := harg4.eq_unread hf4; obtain rfl := harg5.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]
    · iexists _; isplitr; · ipureintro; exact harg5.read_unread _
      iexact H5
    isplitl [HS0]; · iexists _; iexact HS0
    isplitl [HS1]; · iexists _; iexact HS1
    isplitl [HS2]; · iexists _; iexact HS2
    iexists _; iexact HS3

set_option maxHeartbeats 4000000 in
/-- The last chunk: the four scratch buffers updated and the two outputs' buffers, found at anything, written. -/
noncomputable def runLast (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) :
    Σ' (L4 : List (View.Piece (Elt F) S256x1 .f32)) (L5 : List (View.Piece (Elt F) S256x1 .f32)) (LS0 : List (View.Piece (Elt F) S256x1 .f32)) (LS1 : List (View.Piece (Elt F) S256x1 .f32)) (LS2 : List (View.Piece (Elt F) S256x1 .f32)), { LS3 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg6.eq_unread hfs0; obtain rfl := harg7.eq_unread hfs1
    obtain rfl := harg8.eq_unread hfs2; obtain rfl := harg9.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Body

end
-- ==== Proof.KVals.lean ====
/-
  What the kernel body's runs leave in each buffer, as pure payload terms: each list of pieces a run found, read back
  through the buffer's view over any prior contents, is one payload of the skeleton applied to the contents the
  buffers had before the run. Every store of the body is a whole-buffer store at zero offsets, so the last piece of a
  list covers the buffer and the read-back is that piece's payload; every load is a whole-buffer load, so a load
  reads the contents (or, after a store in the same run, the stored payload).
-/
import proofs.«430439_j8589934595_1_alg».proof.Proof.KBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of every store and load of the body, as the constant function. -/
theorem hz00 : (![0, 0] : Fin 2 → Nat) = fun _ => 0 := funext fun a => by fin_cases a <;> rfl

/-! ## A middle chunk -/

/-- The pieces a middle chunk's run found for the buffer of the running maximum cover it. -/
theorem mid_cover0 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (y : S256x1.Idx) :
    ∃ pc ∈ (runMid c i arg2 harg2 arg3 harg3 arg4 harg4 arg5 harg5 arg6 harg6 arg7 harg7 arg8 harg8 arg9 harg9 hc0 hc1 x0 x1 xs0 xs1 xs2 xs3).1, y ∈ pc.1.set :=
  View.cover_of_tiledL (runMid c i arg2 harg2 arg3 harg3 arg4 harg4 arg5 harg5 arg6 harg6 arg7 harg7 arg8 harg8 arg9 harg9 hc0 hc1 x0 x1 xs0 xs1 xs2 xs3).1 S256x1.size (by sl_kernel_rfl) y

/-- What a middle chunk leaves in the buffer of the running maximum. -/
theorem mid_m (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (f : arg6.view.ty.Contents (Elt F)) :
    arg6.view.read (Elt F) (arg6.view.writes (Elt F) f (runMid c i arg2 harg2 arg3 harg3 arg4 harg4 arg5 harg5 arg6 harg6 arg7 harg7 arg8 harg8 arg9 harg9 hc0 hc1 x0 x1 xs0 xs1 xs2 xs3).1) = k0_pay2 (k0_pay14 i x0 xs0) := by
  rw [View.read_writes_eq_canon _ _ _ (mid_cover0 c i arg2 harg2 arg3 harg3 arg4 harg4 arg5 harg5 arg6 harg6 arg7 harg7 arg8 harg8 arg9 harg9 hc0 hc1 x0 x1 xs0 xs1 xs2 xs3)]
  unfold runMid
  dsimp only
  sl_unfold_words
  rw [View.canon_unit_zero hz00]
  simp only [View.readAt_eq_ld, harg2.read_unread, harg3.read_unread, harg6.read_unread, harg7.read_unread, harg8.read_unread, harg9.read_unread, View.ld_unit_zero (S := S256x1) hz00, View.ld_unit_zero (S := S256x6144) hz00]

/-- The pieces a middle chunk's run found for the buffer of the shifted sum cover it. -/
theorem mid_cover1 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (y : S256x1.Idx) :
    ∃ pc ∈ (runMid c i arg2 harg2 arg3 harg3 arg4 harg4 arg5 harg5 arg6 harg6 arg7 harg7 arg8 harg8 arg9 harg9 hc0 hc1 x0 x1 xs0 xs1 xs2 xs3).2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2 xs3).2.1 S256x1.size (by sl_kernel_rfl) y

/-- What a middle chunk leaves in the buffer of the shifted sum. -/
theorem mid_s (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (f : arg7.view.ty.Contents (Elt F)) :
    arg7.view.read (Elt F) (arg7.view.writes (Elt F) f (runMid c i arg2 harg2 arg3 harg3 arg4 harg4 arg5 harg5 arg6 harg6 arg7 harg7 arg8 harg8 arg9 harg9 hc0 hc1 x0 x1 xs0 xs1 xs2 xs3).2.1) = k0_pay17 i x0 xs0 xs0 xs1 := by
  rw [View.read_writes_eq_canon _ _ _ (mid_cover1 c i arg2 harg2 arg3 harg3 arg4 harg4 arg5 harg5 arg6 harg6 arg7 harg7 arg8 harg8 arg9 harg9 hc0 hc1 x0 x1 xs0 xs1 xs2 xs3)]
  unfold runMid
  dsimp only
  sl_unfold_words
  rw [View.canon_unit_zero hz00]
  simp only [View.readAt_eq_ld, harg2.read_unread, harg3.read_unread, harg6.read_unread, harg7.read_unread, harg8.read_unread, harg9.read_unread, View.ld_unit_zero (S := S256x1) hz00, View.ld_unit_zero (S := S256x6144) hz00]

/-- The pieces a middle chunk's run found for the buffer of the weighted sum cover it. -/
theorem mid_cover2 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (y : S256x1.Idx) :
    ∃ pc ∈ (runMid c i arg2 harg2 arg3 harg3 arg4 harg4 arg5 harg5 arg6 harg6 arg7 harg7 arg8 harg8 arg9 harg9 hc0 hc1 x0 x1 xs0 xs1 xs2 xs3).2.2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2 xs3).2.2.1 S256x1.size (by sl_kernel_rfl) y

/-- What a middle chunk leaves in the buffer of the weighted sum. -/
theorem mid_w (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (f : arg8.view.ty.Contents (Elt F)) :
    arg8.view.read (Elt F) (arg8.view.writes (Elt F) f (runMid c i arg2 harg2 arg3 harg3 arg4 harg4 arg5 harg5 arg6 harg6 arg7 harg7 arg8 harg8 arg9 harg9 hc0 hc1 x0 x1 xs0 xs1 xs2 xs3).2.2.1) = k0_pay1 (k0_pay18 i x0 xs0 xs0 xs2) (k0_pay19 i x0 xs0) := by
  rw [View.read_writes_eq_canon _ _ _ (mid_cover2 c i arg2 harg2 arg3 harg3 arg4 harg4 arg5 harg5 arg6 harg6 arg7 harg7 arg8 harg8 arg9 harg9 hc0 hc1 x0 x1 xs0 xs1 xs2 xs3)]
  unfold runMid
  dsimp only
  sl_unfold_words
  rw [View.canon_unit_zero hz00]
  simp only [View.readAt_eq_ld, harg2.read_unread, harg3.read_unread, harg6.read_unread, harg7.read_unread, harg8.read_unread, harg9.read_unread, View.ld_unit_zero (S := S256x1) hz00, View.ld_unit_zero (S := S256x6144) hz00]

/-- The pieces a middle chunk's run found for the buffer of the picked score cover it. -/
theorem mid_cover3 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (y : S256x1.Idx) :
    ∃ pc ∈ (runMid c i arg2 harg2 arg3 harg3 arg4 harg4 arg5 harg5 arg6 harg6 arg7 harg7 arg8 harg8 arg9 harg9 hc0 hc1 x0 x1 xs0 xs1 xs2 xs3).2.2.2.1, y ∈ pc.1.set :=
  View.cover_of_tiledL (runMid c i arg2 harg2 arg3 harg3 arg4 harg4 arg5 harg5 arg6 harg6 arg7 harg7 arg8 harg8 arg9 harg9 hc0 hc1 x0 x1 xs0 xs1 xs2 xs3).2.2.2.1 S256x1.size (by sl_kernel_rfl) y

/-- What a middle chunk leaves in the buffer of the picked score. -/
theorem mid_c (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : ¬condLast i)
    (x0 : Vec F S256x6144 .f32) (x1 : Vec F S256x1 .i32) (xs0 xs1 xs2 xs3 : Vec F S256x1 .f32) (f : arg9.view.ty.Contents (Elt F)) :
    arg9.view.read (Elt F) (arg9.view.writes (Elt F) f (runMid c i arg2 harg2 arg3 harg3 arg4 harg4 arg5 harg5 arg6 harg6 arg7 harg7 arg8 harg8 arg9 harg9 hc0 hc1 x0 x1 xs0 xs1 xs2 xs3).2.2.2.1) = k0_pay3 (k0_pay11 x0) (k0_pay12 i) x1 xs3 := by
  rw [View.read_writes_eq_canon _ _ _ (mid_cover3 c i arg2 harg2 arg3 harg3 arg4 harg4 arg5 harg5 arg6 harg6 arg7 harg7 arg8 harg8 arg9 harg9 hc0 hc1 x0 x1 xs0 xs1 xs2 xs3)]
  unfold runMid
  dsimp only
  sl_unfold_words
  rw [View.canon_unit_zero hz00]
  simp only [View.readAt_eq_ld, harg2.read_unread, harg3.read_unread, harg6.read_unread, harg7.read_unread, harg8.read_unread, harg9.read_unread, View.ld_unit_zero (S := S256x1) hz00, View.ld_unit_zero (S := S256x6144) hz00]

/-! ## The first chunk of a row block: each scratch buffer is reset, then updated -/

/-- The pieces the first chunk's run found for the buffer of the running maximum (the reset, then the update) cover it. -/
theorem first_cover0 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (y : S256x1.Idx) :
    ∃ pc ∈ (runFirst c i arg2 harg2 arg3 harg3 arg4 harg4 arg5 harg5 arg6 harg6 arg7 harg7 arg8 harg8 arg9 harg9 hc0 hc1 x0 x1).1, y ∈ pc.1.set :=
  View.cover_of_tiledL (runFirst c i arg2 harg2 arg3 harg3 arg4 harg4 arg5 harg5 arg6 harg6 arg7 harg7 arg8 harg8 arg9 harg9 hc0 hc1 x0 x1).1 S256x1.size (by sl_kernel_rfl) y

/-- What the first chunk leaves in the buffer of the running maximum: the update over the reset values. -/
theorem first_m (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (f : arg6.view.ty.Contents (Elt F)) :
    arg6.view.read (Elt F) (arg6.view.writes (Elt F) f (runFirst c i arg2 harg2 arg3 harg3 arg4 harg4 arg5 harg5 arg6 harg6 arg7 harg7 arg8 harg8 arg9 harg9 hc0 hc1 x0 x1).1) = k0_pay2 (k0_pay14 i x0 k0_pay7) := by
  rw [View.read_writes_eq_canon _ _ _ (first_cover0 c i arg2 harg2 arg3 harg3 arg4 harg4 arg5 harg5 arg6 harg6 arg7 harg7 arg8 harg8 arg9 harg9 hc0 hc1 x0 x1)]
  unfold runFirst
  dsimp only
  sl_unfold_words
  rw [View.canon_cons_unit_zero (S := S256x1) hz00]
  simp only [View.readAt_eq_ld, harg2.read_unread, harg3.read_unread, View.readCov_unit_zero (S := S256x1) _ hz00, View.ld_unit_zero (S := S256x1) hz00, View.ld_unit_zero (S := S256x6144) hz00]

/-- The pieces the first chunk's run found for the buffer of the shifted sum (the reset, then the update) cover it. -/
theorem first_cover1 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (y : S256x1.Idx) :
    ∃ pc ∈ (runFirst c i arg2 harg2 arg3 harg3 arg4 harg4 arg5 harg5 arg6 harg6 arg7 harg7 arg8 harg8 arg9 harg9 hc0 hc1 x0 x1).2.1, y ∈ pc.1.set :=
  View.cover_of_tiledL (runFirst c i arg2 harg2 arg3 harg3 arg4 harg4 arg5 harg5 arg6 harg6 arg7 harg7 arg8 harg8 arg9 harg9 hc0 hc1 x0 x1).2.1 S256x1.size (by sl_kernel_rfl) y

/-- What the first chunk leaves in the buffer of the shifted sum: the update over the reset values. -/
theorem first_s (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (f : arg7.view.ty.Contents (Elt F)) :
    arg7.view.read (Elt F) (arg7.view.writes (Elt F) f (runFirst c i arg2 harg2 arg3 harg3 arg4 harg4 arg5 harg5 arg6 harg6 arg7 harg7 arg8 harg8 arg9 harg9 hc0 hc1 x0 x1).2.1) = k0_pay17 i x0 k0_pay7 k0_pay7 k0_pay8 := by
  rw [View.read_writes_eq_canon _ _ _ (first_cover1 c i arg2 harg2 arg3 harg3 arg4 harg4 arg5 harg5 arg6 harg6 arg7 harg7 arg8 harg8 arg9 harg9 hc0 hc1 x0 x1)]
  unfold runFirst
  dsimp only
  sl_unfold_words
  rw [View.canon_cons_unit_zero (S := S256x1) hz00]
  simp only [View.readAt_eq_ld, harg2.read_unread, harg3.read_unread, View.readCov_unit_zero (S := S256x1) _ hz00, View.ld_unit_zero (S := S256x1) hz00, View.ld_unit_zero (S := S256x6144) hz00]

/-- The pieces the first chunk's run found for the buffer of the weighted sum (the reset, then the update) cover it. -/
theorem first_cover2 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (y : S256x1.Idx) :
    ∃ pc ∈ (runFirst c i arg2 harg2 arg3 harg3 arg4 harg4 arg5 harg5 arg6 harg6 arg7 harg7 arg8 harg8 arg9 harg9 hc0 hc1 x0 x1).2.2.1, y ∈ pc.1.set :=
  View.cover_of_tiledL (runFirst c i arg2 harg2 arg3 harg3 arg4 harg4 arg5 harg5 arg6 harg6 arg7 harg7 arg8 harg8 arg9 harg9 hc0 hc1 x0 x1).2.2.1 S256x1.size (by sl_kernel_rfl) y

/-- What the first chunk leaves in the buffer of the weighted sum: the update over the reset values. -/
theorem first_w (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (f : arg8.view.ty.Contents (Elt F)) :
    arg8.view.read (Elt F) (arg8.view.writes (Elt F) f (runFirst c i arg2 harg2 arg3 harg3 arg4 harg4 arg5 harg5 arg6 harg6 arg7 harg7 arg8 harg8 arg9 harg9 hc0 hc1 x0 x1).2.2.1) = k0_pay1 (k0_pay18 i x0 k0_pay7 k0_pay7 k0_pay9) (k0_pay19 i x0 k0_pay7) := by
  rw [View.read_writes_eq_canon _ _ _ (first_cover2 c i arg2 harg2 arg3 harg3 arg4 harg4 arg5 harg5 arg6 harg6 arg7 harg7 arg8 harg8 arg9 harg9 hc0 hc1 x0 x1)]
  unfold runFirst
  dsimp only
  sl_unfold_words
  rw [View.canon_cons_unit_zero (S := S256x1) hz00]
  simp only [View.readAt_eq_ld, harg2.read_unread, harg3.read_unread, View.readCov_unit_zero (S := S256x1) _ hz00, View.ld_unit_zero (S := S256x1) hz00, View.ld_unit_zero (S := S256x6144) hz00]

/-- The pieces the first chunk's run found for the buffer of the picked score (the reset, then the update) cover it. -/
theorem first_cover3 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (y : S256x1.Idx) :
    ∃ pc ∈ (runFirst c i arg2 harg2 arg3 harg3 arg4 harg4 arg5 harg5 arg6 harg6 arg7 harg7 arg8 harg8 arg9 harg9 hc0 hc1 x0 x1).2.2.2.1, y ∈ pc.1.set :=
  View.cover_of_tiledL (runFirst c i arg2 harg2 arg3 harg3 arg4 harg4 arg5 harg5 arg6 harg6 arg7 harg7 arg8 harg8 arg9 harg9 hc0 hc1 x0 x1).2.2.2.1 S256x1.size (by sl_kernel_rfl) y

/-- What the first chunk leaves in the buffer of the picked score: the update over the reset values. -/
theorem first_c (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : condFirst i) (hc1 : ¬condLast i)
    (x0 : Vec F S256x6144 .f32) (x1 : Vec F S256x1 .i32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 hc0 hc1 x0 x1).2.2.2.1) = k0_pay3 (k0_pay11 x0) (k0_pay12 i) x1 k0_pay10 := by
  rw [View.read_writes_eq_canon _ _ _ (first_cover3 c i arg2 harg2 arg3 harg3 arg4 harg4 arg5 harg5 arg6 harg6 arg7 harg7 arg8 harg8 arg9 harg9 hc0 hc1 x0 x1)]
  unfold runFirst
  dsimp only
  sl_unfold_words
  rw [View.canon_cons_unit_zero (S := S256x1) hz00]
  simp only [View.readAt_eq_ld, harg2.read_unread, harg3.read_unread, View.readCov_unit_zero (S := S256x1) _ hz00, View.ld_unit_zero (S := S256x1) hz00, View.ld_unit_zero (S := S256x6144) hz00]

/-! ## The last chunk: the scratch buffers updated as at a middle chunk, then the two outputs written from them -/

/-- The pieces the last chunk's run found for the buffer of the running maximum cover it. -/
theorem last_cover0 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (y : S256x1.Idx) :
    ∃ pc ∈ (runLast c i arg2 harg2 arg3 harg3 arg4 harg4 arg5 harg5 arg6 harg6 arg7 harg7 arg8 harg8 arg9 harg9 hc0 hc1 x0 x1 xs0 xs1 xs2 xs3).2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2 xs3).2.2.1 S256x1.size (by sl_kernel_rfl) y

/-- What the last chunk leaves in the buffer of the running maximum. -/
theorem last_m (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (f : arg6.view.ty.Contents (Elt F)) :
    arg6.view.read (Elt F) (arg6.view.writes (Elt F) f (runLast c i arg2 harg2 arg3 harg3 arg4 harg4 arg5 harg5 arg6 harg6 arg7 harg7 arg8 harg8 arg9 harg9 hc0 hc1 x0 x1 xs0 xs1 xs2 xs3).2.2.1) = k0_pay2 (k0_pay14 i x0 xs0) := by
  rw [View.read_writes_eq_canon _ _ _ (last_cover0 c i arg2 harg2 arg3 harg3 arg4 harg4 arg5 harg5 arg6 harg6 arg7 harg7 arg8 harg8 arg9 harg9 hc0 hc1 x0 x1 xs0 xs1 xs2 xs3)]
  unfold runLast
  dsimp only
  sl_unfold_words
  rw [View.canon_unit_zero hz00]
  simp only [View.readAt_eq_ld, harg2.read_unread, harg3.read_unread, harg6.read_unread, harg7.read_unread, harg8.read_unread, harg9.read_unread, View.readCov_unit_zero (S := S256x1) _ hz00, View.ld_unit_zero (S := S256x1) hz00, View.ld_unit_zero (S := S256x6144) hz00]

/-- The pieces the last chunk's run found for the buffer of the shifted sum cover it. -/
theorem last_cover1 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (y : S256x1.Idx) :
    ∃ pc ∈ (runLast c i arg2 harg2 arg3 harg3 arg4 harg4 arg5 harg5 arg6 harg6 arg7 harg7 arg8 harg8 arg9 harg9 hc0 hc1 x0 x1 xs0 xs1 xs2 xs3).2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2 xs3).2.2.2.1 S256x1.size (by sl_kernel_rfl) y

/-- What the last chunk leaves in the buffer of the shifted sum. -/
theorem last_s (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (f : arg7.view.ty.Contents (Elt F)) :
    arg7.view.read (Elt F) (arg7.view.writes (Elt F) f (runLast c i arg2 harg2 arg3 harg3 arg4 harg4 arg5 harg5 arg6 harg6 arg7 harg7 arg8 harg8 arg9 harg9 hc0 hc1 x0 x1 xs0 xs1 xs2 xs3).2.2.2.1) = k0_pay17 i x0 xs0 xs0 xs1 := by
  rw [View.read_writes_eq_canon _ _ _ (last_cover1 c i arg2 harg2 arg3 harg3 arg4 harg4 arg5 harg5 arg6 harg6 arg7 harg7 arg8 harg8 arg9 harg9 hc0 hc1 x0 x1 xs0 xs1 xs2 xs3)]
  unfold runLast
  dsimp only
  sl_unfold_words
  rw [View.canon_unit_zero hz00]
  simp only [View.readAt_eq_ld, harg2.read_unread, harg3.read_unread, harg6.read_unread, harg7.read_unread, harg8.read_unread, harg9.read_unread, View.readCov_unit_zero (S := S256x1) _ hz00, View.ld_unit_zero (S := S256x1) hz00, View.ld_unit_zero (S := S256x6144) hz00]

/-- The pieces the last chunk's run found for the buffer of the weighted sum cover it. -/
theorem last_cover2 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (y : S256x1.Idx) :
    ∃ pc ∈ (runLast c i arg2 harg2 arg3 harg3 arg4 harg4 arg5 harg5 arg6 harg6 arg7 harg7 arg8 harg8 arg9 harg9 hc0 hc1 x0 x1 xs0 xs1 xs2 xs3).2.2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2 xs3).2.2.2.2.1 S256x1.size (by sl_kernel_rfl) y

/-- What the last chunk leaves in the buffer of the weighted sum. -/
theorem last_w (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (f : arg8.view.ty.Contents (Elt F)) :
    arg8.view.read (Elt F) (arg8.view.writes (Elt F) f (runLast c i arg2 harg2 arg3 harg3 arg4 harg4 arg5 harg5 arg6 harg6 arg7 harg7 arg8 harg8 arg9 harg9 hc0 hc1 x0 x1 xs0 xs1 xs2 xs3).2.2.2.2.1) = k0_pay1 (k0_pay18 i x0 xs0 xs0 xs2) (k0_pay19 i x0 xs0) := by
  rw [View.read_writes_eq_canon _ _ _ (last_cover2 c i arg2 harg2 arg3 harg3 arg4 harg4 arg5 harg5 arg6 harg6 arg7 harg7 arg8 harg8 arg9 harg9 hc0 hc1 x0 x1 xs0 xs1 xs2 xs3)]
  unfold runLast
  dsimp only
  sl_unfold_words
  rw [View.canon_unit_zero hz00]
  simp only [View.readAt_eq_ld, harg2.read_unread, harg3.read_unread, harg6.read_unread, harg7.read_unread, harg8.read_unread, harg9.read_unread, View.readCov_unit_zero (S := S256x1) _ hz00, View.ld_unit_zero (S := S256x1) hz00, View.ld_unit_zero (S := S256x6144) hz00]

/-- The pieces the last chunk's run found for the buffer of the picked score cover it. -/
theorem last_cover3 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (y : S256x1.Idx) :
    ∃ pc ∈ (runLast c i arg2 harg2 arg3 harg3 arg4 harg4 arg5 harg5 arg6 harg6 arg7 harg7 arg8 harg8 arg9 harg9 hc0 hc1 x0 x1 xs0 xs1 xs2 xs3).2.2.2.2.2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2 xs3).2.2.2.2.2.1 S256x1.size (by sl_kernel_rfl) y

/-- What the last chunk leaves in the buffer of the picked score. -/
theorem last_c (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (f : arg9.view.ty.Contents (Elt F)) :
    arg9.view.read (Elt F) (arg9.view.writes (Elt F) f (runLast c i arg2 harg2 arg3 harg3 arg4 harg4 arg5 harg5 arg6 harg6 arg7 harg7 arg8 harg8 arg9 harg9 hc0 hc1 x0 x1 xs0 xs1 xs2 xs3).2.2.2.2.2.1) = k0_pay3 (k0_pay11 x0) (k0_pay12 i) x1 xs3 := by
  rw [View.read_writes_eq_canon _ _ _ (last_cover3 c i arg2 harg2 arg3 harg3 arg4 harg4 arg5 harg5 arg6 harg6 arg7 harg7 arg8 harg8 arg9 harg9 hc0 hc1 x0 x1 xs0 xs1 xs2 xs3)]
  unfold runLast
  dsimp only
  sl_unfold_words
  rw [View.canon_unit_zero hz00]
  simp only [View.readAt_eq_ld, harg2.read_unread, harg3.read_unread, harg6.read_unread, harg7.read_unread, harg8.read_unread, harg9.read_unread, View.readCov_unit_zero (S := S256x1) _ hz00, View.ld_unit_zero (S := S256x1) hz00, View.ld_unit_zero (S := S256x6144) hz00]

/-- The piece the last chunk's run found for the first output's buffer covers it. -/
theorem last_cover_out4 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (y : S256x1.Idx) :
    ∃ pc ∈ (runLast c i arg2 harg2 arg3 harg3 arg4 harg4 arg5 harg5 arg6 harg6 arg7 harg7 arg8 harg8 arg9 harg9 hc0 hc1 x0 x1 xs0 xs1 xs2 xs3).1, y ∈ pc.1.set :=
  View.cover_of_tiledL (runLast c i arg2 harg2 arg3 harg3 arg4 harg4 arg5 harg5 arg6 harg6 arg7 harg7 arg8 harg8 arg9 harg9 hc0 hc1 x0 x1 xs0 xs1 xs2 xs3).1 S256x1.size (by sl_kernel_rfl) y

/-- What the last chunk writes into the first output's buffer, from the updated running state. -/
theorem last_out4 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (f : arg4.view.ty.Contents (Elt F)) :
    arg4.view.read (Elt F) (arg4.view.writes (Elt F) f (runLast c i arg2 harg2 arg3 harg3 arg4 harg4 arg5 harg5 arg6 harg6 arg7 harg7 arg8 harg8 arg9 harg9 hc0 hc1 x0 x1 xs0 xs1 xs2 xs3).1) =
      k0_pay5 (k0_pay17 i x0 xs0 xs0 xs1) (k0_pay3 (k0_pay11 x0) (k0_pay12 i) x1 xs3) (k0_pay2 (k0_pay14 i x0 xs0)) := by
  rw [View.read_writes_eq_canon _ _ _ (last_cover_out4 c i arg2 harg2 arg3 harg3 arg4 harg4 arg5 harg5 arg6 harg6 arg7 harg7 arg8 harg8 arg9 harg9 hc0 hc1 x0 x1 xs0 xs1 xs2 xs3)]
  unfold runLast
  dsimp only
  sl_unfold_words
  rw [View.canon_unit_zero hz00]
  simp only [View.readAt_eq_ld, harg2.read_unread, harg3.read_unread, harg6.read_unread, harg7.read_unread, harg8.read_unread, harg9.read_unread, View.readCov_unit_zero (S := S256x1) _ hz00, View.ld_unit_zero (S := S256x1) hz00, View.ld_unit_zero (S := S256x6144) hz00]

/-- The piece the last chunk's run found for the second output's buffer covers it. -/
theorem last_cover_out5 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (y : S256x1.Idx) :
    ∃ pc ∈ (runLast c i arg2 harg2 arg3 harg3 arg4 harg4 arg5 harg5 arg6 harg6 arg7 harg7 arg8 harg8 arg9 harg9 hc0 hc1 x0 x1 xs0 xs1 xs2 xs3).2.1, y ∈ pc.1.set :=
  View.cover_of_tiledL (runLast c i arg2 harg2 arg3 harg3 arg4 harg4 arg5 harg5 arg6 harg6 arg7 harg7 arg8 harg8 arg9 harg9 hc0 hc1 x0 x1 xs0 xs1 xs2 xs3).2.1 S256x1.size (by sl_kernel_rfl) y

/-- What the last chunk writes into the second output's buffer, from the updated running state. -/
theorem last_out5 (c : Dev nD) (i : grid0.Coords) (arg2 : Memref sig .tc .vmem S256x6144 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (hc0 : ¬condFirst i) (hc1 : condLast i)
    (x0 : Vec F S256x6144 .f32) (x1 : Vec F S256x1 .i32) (xs0 xs1 xs2 xs3 : Vec F S256x1 .f32) (f : arg5.view.ty.Contents (Elt F)) :
    arg5.view.read (Elt F) (arg5.view.writes (Elt F) f (runLast c i arg2 harg2 arg3 harg3 arg4 harg4 arg5 harg5 arg6 harg6 arg7 harg7 arg8 harg8 arg9 harg9 hc0 hc1 x0 x1 xs0 xs1 xs2 xs3).2.1) =
      k0_pay6 (k0_pay17 i x0 xs0 xs0 xs1) (k0_pay2 (k0_pay14 i x0 xs0)) (k0_pay1 (k0_pay18 i x0 xs0 xs0 xs2) (k0_pay19 i x0 xs0)) (k0_pay17 i x0 xs0 xs0 xs1) := by
  rw [View.read_writes_eq_canon _ _ _ (last_cover_out5 c i arg2 harg2 arg3 harg3 arg4 harg4 arg5 harg5 arg6 harg6 arg7 harg7 arg8 harg8 arg9 harg9 hc0 hc1 x0 x1 xs0 xs1 xs2 xs3)]
  unfold runLast
  dsimp only
  sl_unfold_words
  rw [View.canon_unit_zero hz00]
  simp only [View.readAt_eq_ld, harg2.read_unread, harg3.read_unread, harg6.read_unread, harg7.read_unread, harg8.read_unread, harg9.read_unread, View.readCov_unit_zero (S := S256x1) _ hz00, View.ld_unit_zero (S := S256x1) hz00, View.ld_unit_zero (S := S256x6144) hz00]

end Cert.KernelIdeal.Body

end
-- ==== Proof.Spec.lean ====
/-
  One row of scores and its log-softmax quantities over the extended reals, and the chunked ("online")
  evaluation of the same quantities: a running maximum, the sum of exponentials shifted by it, the
  sum of exponentials weighted by the scores, and the score picked at a chosen column. Definitions
  only; the laws relating the chunked evaluation to the direct one are in Algebra.lean.
-/
import Idealize.ShloMosaic.PureOps.Ideal

noncomputable section

namespace Cert.RowSoftmax

open Idealize.ShloMosaic

/-- The number of columns of a row (the vocabulary), and the width of one chunk of columns. -/
abbrev NV : ℕ := 128256
abbrev TV : ℕ := 6144

/-- The largest score of the row (the supremum over all columns; the bottom element for no column). -/
def rowMax (x : Fin NV → EReal) : EReal := Finset.univ.sup x

/-- The sum over the row of the exponentials of the scores shifted by the largest. -/
def expSum (x : Fin NV → EReal) : EReal := ∑ j, Ideal.exp (x j - rowMax x)

/-- The log-softmax of the row at column `j`: the shifted score less the logarithm of the shifted sum. -/
def lsm (x : Fin NV → EReal) (j : Fin NV) : EReal := (x j - rowMax x) - Ideal.log (expSum x)

/-- The entropy of the row's softmax: minus the sum of probability times log-probability. -/
def entropy (x : Fin NV → EReal) : EReal := -(∑ j, Ideal.exp (lsm x j) * lsm x j)

/-- The running state of the chunked evaluation: maximum, shifted sum, weighted shifted sum, picked score. -/
structure Run where
  m : EReal
  s : EReal
  w : EReal
  c : EReal

/-- The columns below `n`. -/
def colsBelow (n : ℕ) : Finset (Fin NV) := Finset.univ.filter fun j => j.val < n

/-- The state is that of the columns below `n`: the maximum over them, the sums over them shifted by that
    maximum, and the score at the chosen column `ch` once it lies below `n` (zero before). -/
def Inv (x : Fin NV → EReal) (ch : ℕ) (n : ℕ) (st : Run) : Prop :=
  st.m = (colsBelow n).sup x
  ∧ st.s = ∑ j ∈ colsBelow n, Ideal.exp (x j - st.m)
  ∧ st.w = ∑ j ∈ colsBelow n, Ideal.exp (x j - st.m) * x j
  ∧ st.c = if h : ch < n ∧ ch < NV then x ⟨ch, h.2⟩ else 0

/-- One chunk's update, from the chunk's masked scores `y` (the score inside the row, the bottom element past its
    end), its raw scores `raw` and the chunk's first column `n`: the new maximum, the old sums rescaled by the
    exponential of the maximum's change plus the chunk's sums, and the picked score added where the column is `ch`. -/
def chunkStep (n : ℕ) (ch : ℕ) (y raw : Fin TV → EReal) (st : Run) : Run :=
  let mn := max st.m (Finset.univ.sup y)
  let alpha := Ideal.exp (st.m - mn)
  { m := mn
    s := alpha * st.s + ∑ col, Ideal.exp (y col - mn)
    w := alpha * st.w + ∑ col, Ideal.exp (y col - mn) * y col
    c := st.c + ∑ col : Fin TV, (if n + col.val = ch then raw col else 0) }

/-- The state before any column. -/
def start : Run := ⟨⊥, 0, 0, 0⟩

/-- What the last chunk's epilogue writes: the picked log-probability and the entropy, from the final state. -/
def outLogp (st : Run) : EReal := (st.c - st.m) - Ideal.log st.s
def outEnt (st : Run) : EReal := (st.m + Ideal.log st.s) - Ideal.div st.w st.s

end Cert.RowSoftmax

end
-- ==== Proof.KPay.lean ====
/-
  The kernel body's payloads read at an index, at the ideal instance (a float an extended real): the masked score of a
  lane, one chunk's update of a row's running state as the row specification's chunk step, the reset state, and the two
  outputs of the last chunk.
-/
import proofs.«430439_j8589934595_1_alg».proof.Proof.Gen.KernelIdeal.Skeleton
import proofs.«430439_j8589934595_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Pay

open Cert.KernelIdeal Cert.KernelIdeal.Gen Idealize.ShloMosaic Idealize.ShloMosaic.ValueIdx Cert.RowSoftmax

variable [hK : Cert.KernelIdeal.Facts]

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane's column number: the chunk's first column plus the lane, which does not wrap at 32 bits. -/
theorem pay12_apply (i : grid0.Coords) (r : Fin 256) (col : Fin 6144) :
    k0_pay12 i (ix2 r col) = BitVec.ofNat 32 (6144 * (i 1).val + col.val) := by
  unfold k0_pay12
  show IntOp.addi (iota .tc S256x6144 32 [1] iota_S256x6144_d1_w32 (ix2 r col)) (IntOp.muli (BitVec.ofNat 32 (i 1).val) 6144#32) = _
  rw [iota_single_apply]
  show BitVec.ofNat 32 col.val + BitVec.ofNat 32 (i 1).val * BitVec.ofNat 32 6144 = _
  rw [← BitVec.ofNat_mul, ← BitVec.ofNat_add, Nat.add_comm, Nat.mul_comm]

/-- A condition's bit is set exactly when the condition holds. -/
theorem ofBool_eq_one (b : Bool) : BitVec.ofBool b = 1#1 ↔ b = true := by cases b <;> decide

/-- The signed compare of a column number against the row's length is the comparison of naturals. -/
theorem slt_ofNat (n : ℕ) (hn : n < 2147483648) : IntOp.cmpi .slt (BitVec.ofNat 32 n) 128256#32 = 1#1 ↔ n < 128256 := by
  have h1 : (BitVec.ofNat 32 n).toInt = (n : ℤ) := by
    rw [BitVec.toInt_eq_toNat_of_lt (by rw [BitVec.toNat_ofNat]; omega), BitVec.toNat_ofNat]
    omega
  have h2 : (128256#32 : BitVec 32).toInt = (128256 : ℤ) := by decide
  unfold IntOp.cmpi
  show BitVec.ofBool ((BitVec.ofNat 32 n).slt 128256#32) = 1#1 ↔ _
  rw [ofBool_eq_one, BitVec.slt_iff_toInt_lt, h1, h2]
  omega

/-- The compare of a column number against a word for equality holds exactly when the word's value is that number. -/
theorem eq_ofNat (n : ℕ) (hn : n < 4294967296) (w : BitVec 32) : IntOp.cmpi .eq (BitVec.ofNat 32 n) w = 1#1 ↔ n = w.toNat := by
  unfold IntOp.cmpi
  show BitVec.ofBool (BitVec.ofNat 32 n == w) = 1#1 ↔ _
  rw [ofBool_eq_one, beq_iff_eq]
  constructor
  · intro h; rw [← h, BitVec.toNat_ofNat]; omega
  · intro h; rw [h, BitVec.ofNat_toNat, BitVec.setWidth_eq]

/-- the masked score of lane (r, col) at chunk k: the raw score inside the row, ⊥ past its end -/
def masked (k : ℕ) (x0 : Vec Ideal S256x6144 .f32) (r : Fin 256) (col : Fin 6144) : EReal :=
  if 6144 * k + col.val < 128256 then x0 (ix2 r col) else ⊥

/-- The name "neg_big" denotes the bottom element. -/
theorem neg_big : Named.named (F := Ideal) κ "neg_big" (φ := .f32) 0xF149F2CA#32 = (⊥ : EReal) :=
  IdealRules.named_const.ideal_named_scalar _ _ _ _ rfl

theorem pay11_eq (x0 : Vec Ideal S256x6144 .f32) : k0_pay11 x0 = x0 := by
  unfold k0_pay11
  exact shapeCast_self _ _

theorem pay13_apply (i : grid0.Coords) (x0 : Vec Ideal S256x6144 .f32) (r : Fin 256) (col : Fin 6144) :
    k0_pay13 (F := Ideal) i x0 (ix2 r col) = masked (i 1).val x0 r col := by
  have hk : (i 1).val < 21 := (i 1).isLt
  unfold k0_pay13 masked
  show Scalar.select (IntOp.cmpi .slt (k0_pay12 i (ix2 r col)) 128256#32) (k0_pay11 x0 (ix2 r col))
    (Named.named (F := Ideal) κ "neg_big" (φ := .f32) 0xF149F2CA#32) = _
  rw [pay12_apply, pay11_eq, neg_big]
  unfold Scalar.select
  exact if_congr (slt_ofNat _ (by have := col.isLt; omega)) rfl rfl

/-- The index over row `r` with lane `k` put back on the reduced axis is `(r, k)`. -/
theorem lift_eq (h : S256x6144.Reduces [1] S256) (r : Fin 256) (k : Fin 6144) : h.lift (ix1 r) k = ix2 r k := by
  funext c; apply Fin.ext
  match c with
  | ⟨0, _⟩ => rfl
  | ⟨1, _⟩ => rfl

/-- A row's lane sum is the sum over its 6144 lanes. -/
theorem rowSum_apply (v : FVec Ideal S256x6144 .f32) (h : S256x6144.Reduces [1] S256) (hφ : FKind.Formats .f32)
    (hacc : (0x00000000#32 : BitVec 32) = FKind.add.neutral .f32 hφ) (r : Fin 256) :
    multiReduction .add [1] S256 v 0x00000000#32 h hφ hacc (ix1 r) = ∑ col : Fin 6144, v (ix2 r col) := by
  refine (Ideal.multiReduction_add_single v 0x00000000#32 h hφ hacc (ix1 r)).trans ?_
  exact Finset.sum_congr rfl fun k _ => congrArg v (lift_eq h r k)

/-- The pattern of minus infinity denotes the bottom element. -/
theorem ofBits_neg_inf : Ideal.ofBits .f32 0xFF800000#32 = (⊥ : EReal) := by simp [Ideal.ofBits, Ideal.ieee]

/-- A row's lane maximum is the supremum over its 6144 lanes. -/
theorem rowMax_apply (v : FVec Ideal S256x6144 .f32) (h : S256x6144.Reduces [1] S256) (hφ : FKind.Formats .f32)
    (hacc : (0xFF800000#32 : BitVec 32) = FKind.maximumf.neutral .f32 hφ) (r : Fin 256) :
    multiReduction .maximumf [1] S256 v 0xFF800000#32 h hφ hacc (ix1 r) = Finset.univ.sup fun col : Fin 6144 => v (ix2 r col) := by
  refine (Ideal.multiReduction_maximumf_single v 0xFF800000#32 h hφ hacc (ix1 r)).trans ?_
  show (Finset.univ : Finset (Fin 6144)).fold max (Ideal.ofBits .f32 0xFF800000#32) (v ∘ h.lift (ix1 r)) = _
  rw [ofBits_neg_inf, show (v ∘ h.lift (ix1 r)) = fun col : Fin 6144 => v (ix2 r col) from funext fun k => congrArg v (lift_eq h r k)]
  rfl

section Step
variable (i : grid0.Coords) (x0 : Vec Ideal S256x6144 .f32) (M : Vec Ideal S256x1 .f32) (r : Fin 256)

/-- The new running maximum of row `r`: the old one against the chunk's largest masked score. -/
theorem pay14_apply : k0_pay14 i x0 M (ix2 r 0)
    = max (M (ix2 r 0)) (Finset.univ.sup fun col : Fin 6144 => masked (i 1).val x0 r col) := by
  unfold k0_pay14
  refine congrArg (max (M (ix2 r 0))) ?_
  refine (shapeCast_a_a1_apply _ _ r 0).trans ?_
  refine (rowMax_apply _ _ _ _ r).trans ?_
  exact congrArg (Finset.univ.sup) (funext fun col => pay13_apply i x0 r col)

/-- The rescaling factor of row `r`: the exponential of the old maximum less the new. -/
theorem pay15_apply : k0_pay15 i x0 M M (ix2 r 0) = Ideal.exp (M (ix2 r 0) - k0_pay14 i x0 M (ix2 r 0)) := rfl

/-- The lane's exponential: of its masked score less the row's new maximum. -/
theorem pay16_apply (col : Fin 6144) : k0_pay16 i x0 M (ix2 r col)
    = Ideal.exp (masked (i 1).val x0 r col - k0_pay14 i x0 M (ix2 r 0)) := by
  unfold k0_pay16
  show Ideal.exp (k0_pay13 i x0 (ix2 r col) - broadcastTo S256x6144 (k0_pay14 i x0 M) broadcasts_S256x1_S256x6144 (ix2 r col)) = _
  rw [broadcastTo_a1_ab_apply, pay13_apply]

/-- The new shifted sum of row `r`. -/
theorem pay17_apply (S : Vec Ideal S256x1 .f32) : k0_pay17 i x0 M M S (ix2 r 0)
    = Ideal.exp (M (ix2 r 0) - k0_pay14 i x0 M (ix2 r 0)) * S (ix2 r 0)
      + ∑ col : Fin 6144, Ideal.exp (masked (i 1).val x0 r col - k0_pay14 i x0 M (ix2 r 0)) := by
  unfold k0_pay17
  refine (congrFun (shapeCast_self _ _) (ix2 r 0)).trans ?_
  refine congrArg (k0_pay15 i x0 M M (ix2 r 0) * S (ix2 r 0) + ·) ?_
  refine (shapeCast_a_a1_apply _ _ r 0).trans ?_
  refine (rowSum_apply _ _ _ _ r).trans ?_
  exact Finset.sum_congr rfl fun col _ => pay16_apply i x0 M r col

/-- The new weighted sum of row `r`. -/
theorem pay1_apply (W : Vec Ideal S256x1 .f32) : k0_pay1 (k0_pay18 i x0 M M W) (k0_pay19 i x0 M) (ix2 r 0)
    = Ideal.exp (M (ix2 r 0) - k0_pay14 i x0 M (ix2 r 0)) * W (ix2 r 0)
      + ∑ col : Fin 6144, Ideal.exp (masked (i 1).val x0 r col - k0_pay14 i x0 M (ix2 r 0)) * masked (i 1).val x0 r col := by
  unfold k0_pay1
  refine (congrFun (shapeCast_self _ _) (ix2 r 0)).trans ?_
  refine congrArg (k0_pay15 i x0 M M (ix2 r 0) * W (ix2 r 0) + ·) ?_
  unfold k0_pay19
  refine (shapeCast_a_a1_apply _ _ r 0).trans ?_
  refine (rowSum_apply _ _ _ _ r).trans ?_
  exact Finset.sum_congr rfl fun col _ => congrArg₂ (· * ·) (pay16_apply i x0 M r col) (pay13_apply i x0 r col)

/-- The new picked score of row `r`: the raw score added at the lane whose column is the chosen one. -/
theorem pay3_apply (x1 : Vec Ideal S256x1 .i32) (C : Vec Ideal S256x1 .f32) :
    k0_pay3 (k0_pay11 x0) (k0_pay12 i) x1 C (ix2 r 0)
    = C (ix2 r 0) + ∑ col : Fin 6144, (if 6144 * (i 1).val + col.val = (x1 (ix2 r 0)).toNat then x0 (ix2 r col) else 0) := by
  have hk : (i 1).val < 21 := (i 1).isLt
  unfold k0_pay3
  refine (congrFun (shapeCast_self _ _) (ix2 r 0)).trans ?_
  refine congrArg (C (ix2 r 0) + ·) ?_
  refine (shapeCast_a_a1_apply _ _ r 0).trans ?_
  refine (rowSum_apply _ _ _ _ r).trans ?_
  refine Finset.sum_congr rfl fun col _ => ?_
  show Scalar.select (IntOp.cmpi .eq (k0_pay12 i (ix2 r col))
      (broadcastTo S256x6144 (shapeCast S256x1 x1 shapeCasts_S256x1_S256x1) broadcasts_S256x1_S256x6144 (ix2 r col)))
      (k0_pay11 x0 (ix2 r col)) (Ideal.ofBits .f32 0x00000000#32) = _
  rw [broadcastTo_a1_ab_apply, shapeCast_self, pay12_apply, pay11_eq, Ideal.ofBits_zero_f32]
  unfold Scalar.select
  exact if_congr (eq_ofNat _ (by have := col.isLt; omega) _) rfl rfl

end Step

/-- one middle-chunk update of row r is Spec's chunkStep -/
theorem step_apply (i : grid0.Coords) (x0 : Vec Ideal S256x6144 .f32) (x1 : Vec Ideal S256x1 .i32) (M S W C : Vec Ideal S256x1 .f32) (r : Fin 256)
    (hch : 0 ≤ (x1 (ix2 r 0)).toInt ∧ (x1 (ix2 r 0)).toInt < 128256) :
    (⟨k0_pay2 (k0_pay14 i x0 M) (ix2 r 0), k0_pay17 i x0 M M S (ix2 r 0), k0_pay1 (k0_pay18 i x0 M M W) (k0_pay19 i x0 M) (ix2 r 0),
        k0_pay3 (k0_pay11 x0) (k0_pay12 i) x1 C (ix2 r 0)⟩ : Run)
      = chunkStep (6144 * (i 1).val) (x1 (ix2 r 0)).toNat (fun col => masked (i 1).val x0 r col) (fun col => x0 (ix2 r col))
          ⟨M (ix2 r 0), S (ix2 r 0), W (ix2 r 0), C (ix2 r 0)⟩ := by
  have h2 : k0_pay2 (k0_pay14 i x0 M) (ix2 r 0) = k0_pay14 i x0 M (ix2 r 0) := by
    unfold k0_pay2
    exact congrFun (shapeCast_self _ _) (ix2 r 0)
  rw [h2, pay17_apply, pay1_apply, pay3_apply, pay14_apply]
  rfl

/-- The state the first chunk resets a row to is the state before any column. -/
theorem reset_apply (r : Fin 256) : (⟨k0_pay7 (F := Ideal) (ix2 r 0), k0_pay8 (F := Ideal) (ix2 r 0), k0_pay9 (F := Ideal) (ix2 r 0),
    k0_pay10 (F := Ideal) (ix2 r 0)⟩ : Run) = start := by
  have h7 : k0_pay7 (F := Ideal) (ix2 r 0) = (⊥ : EReal) := by
    unfold k0_pay7
    exact (congrFun (shapeCast_self _ _) (ix2 r 0)).trans neg_big
  have h8 : k0_pay8 (F := Ideal) (ix2 r 0) = (0 : EReal) := by
    unfold k0_pay8
    exact (congrFun (shapeCast_self _ _) (ix2 r 0)).trans Ideal.ofBits_zero_f32
  have h9 : k0_pay9 (F := Ideal) (ix2 r 0) = (0 : EReal) := by
    unfold k0_pay9
    exact (congrFun (shapeCast_self _ _) (ix2 r 0)).trans Ideal.ofBits_zero_f32
  have h10 : k0_pay10 (F := Ideal) (ix2 r 0) = (0 : EReal) := by
    unfold k0_pay10
    exact (congrFun (shapeCast_self _ _) (ix2 r 0)).trans Ideal.ofBits_zero_f32
  rw [h7, h8, h9, h10]
  rfl

/-- The last chunk's first output: the picked log-probability of the final state. -/
theorem out_logp_apply (S' C' M' : Vec Ideal S256x1 .f32) (W' : EReal) (r : Fin 256) :
    k0_pay5 S' C' M' (ix2 r 0) = outLogp ⟨M' (ix2 r 0), S' (ix2 r 0), W', C' (ix2 r 0)⟩ := rfl

/-- The last chunk's second output: the entropy of the final state. -/
theorem out_ent_apply (S' M' W' : Vec Ideal S256x1 .f32) (C' : EReal) (r : Fin 256) :
    k0_pay6 S' M' W' S' (ix2 r 0) = outEnt ⟨M' (ix2 r 0), S' (ix2 r 0), W' (ix2 r 0), C'⟩ := rfl

end Cert.KernelIdeal.Pay

end
-- ==== Proof.KBlock.lean ====
/-
  How the pipeline's windows read their arrays: index arithmetic only.

  The grid has 8 × 21 points; point t has coordinates (t / 21, t % 21). Window 0 stages the
  [2048, 128256] array in [256, 6144] blocks at block index (t / 21, t % 21); its last column block
  overhangs the array (128256 = 20 · 6144 + 5376). Window 1 stages the [2048, 1] integer array in
  [256, 1] blocks at (t / 21, 0); windows 2 and 3 are the two [2048, 1] outputs in [256, 1] blocks at
  (t / 21, 0), written back at the points t ≡ 20 (mod 21). The two staged arrays are host operations'
  results: a reshape of the first argument, and a slice, a pad and a reshape of the second.
-/
import proofs.«430439_j8589934595_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.Blocks

open Cert.KernelIdeal Cert.KernelIdeal.Gen Idealize.ShloMosaic Idealize.ShloMosaic.ValueIdx
open Idealize.ShloMosaic.TcCoe Idealize.ShloMosaic.Rounds
open Idealize.ShloMosaic.Pipeline (Dat)

variable {F : FTy → Type} [FloatOps F] [Named F]

variable (m : (ℓ : Loc nD τ sig) → Buf (Elt F) ℓ)

/-! ## The grid's coordinates -/

/-- Point `t`'s first coordinate is `t / 21`. -/
theorem coord0 : ∀ t : Fin cfg0.N, ((grid0.coords t) 0).val = t.val / 21 :=
  (by decide +kernel : ∀ t : Fin grid0.N, ((grid0.coords t) 0).val = t.val / 21)

/-- Point `t`'s second coordinate is `t % 21`. -/
theorem coord1 : ∀ t : Fin cfg0.N, ((grid0.coords t) 1).val = t.val % 21 :=
  (by decide +kernel : ∀ t : Fin grid0.N, ((grid0.coords t) 1).val = t.val % 21)

/-! ## The staged arrays as the region finds them -/

/-- The [2048, 128256] array is the first argument reshaped: row `R` is row `R % 1024` of batch `R / 1024`. -/
theorem V_v3_apply (c : Dev nD) (R : Fin 2048) (j : Fin 128256) :
    (V m c main_v3 : S2048x128256.Idx → F .f32) (ix2 R j)
      = (m ((c : Thread nD τ).loc main_arg0) : S2x1024x128256.Idx → F .f32)
          (ix3 ⟨R.val / 1024, by omega⟩ ⟨R.val % 1024, by omega⟩ j) := by
  have e : (V m c main_v3 : S2048x128256.Idx → F .f32)
      = shapeCast S2048x128256 (m ((c : Thread nD τ).loc main_arg0) : S2x1024x128256.Idx → F .f32) shapeCasts_S2x1024x128256_S2048x128256 := by
    dsimp only [Gen.V, Gen.V0]
    simp only [Gen.hostOps0, Gen.hostOps0_1, Gen.hostOps0_2, List.flatten_cons, List.flatten_nil, List.append_nil,
      List.cons_append, List.nil_append]
    after_results
    rfl
  rw [e]
  refine shapeCast_apply _ _ _ _ ?_
  show (S2x1024x128256.rowMajor (ix3 (⟨R.val / 1024, by omega⟩ : Fin 2) (⟨R.val % 1024, by omega⟩ : Fin 1024) j)).val
    = (S2048x128256.rowMajor (ix2 R j)).val
  rw [Shape.rowMajor_val_three, Shape.rowMajor_val_two]
  show ((R.val / 1024) * 1024 + R.val % 1024) * 128256 + j.val = R.val * 128256 + j.val
  have := Nat.div_add_mod R.val 1024
  have h2 : R.val / 1024 * 1024 + R.val % 1024 = R.val := by omega
  rw [h2]

/-- The [2048, 1] integer array is the second argument shifted one column left within each batch, the last column
    of each batch zero, then reshaped: row `R` reads column `R % 1024 + 1` of batch `R / 1024`, or zero past the end. -/
theorem V_v2_apply (c : Dev nD) (R : Fin 2048) :
    (V m c main_v2 : S2048x1.Idx → BitVec 32) (ix2 R 0)
      = if h : R.val % 1024 + 1 < 1024 then
          (m ((c : Thread nD τ).loc main_arg1) : S2x1024.Idx → BitVec 32) (ix2 ⟨R.val / 1024, by omega⟩ ⟨R.val % 1024 + 1, h⟩)
        else 0#32 := by
  have e : (V m c main_v2 : S2048x1.Idx → BitVec 32)
      = shapeCast S2048x1
          (pad S2x1024 ![0, 0] ![0, 1] ![0, 0]
            (extractStridedSlice S2x1023 ![0, 1] (m ((c : Thread nD τ).loc main_arg1) : S2x1024.Idx → BitVec 32) slices_S2x1024_S2x1023_0_1)
            (id (constantI S_ 32 0#32)) pads_S2x1023_S2x1024_000_010 h_S_)
          shapeCasts_S2x1024_S2048x1 := by
    dsimp only [Gen.V, Gen.V0]
    simp only [Gen.hostOps0, Gen.hostOps0_1, Gen.hostOps0_2, List.flatten_cons, List.flatten_nil, List.append_nil,
      List.cons_append, List.nil_append]
    after_results
    rfl
  rw [e]
  refine (shapeCast_apply _ _ _ (ix2 (⟨R.val / 1024, by omega⟩ : Fin 2) (⟨R.val % 1024, by omega⟩ : Fin 1024)) ?_).trans ?_
  · show (S2x1024.rowMajor (ix2 (⟨R.val / 1024, by omega⟩ : Fin 2) (⟨R.val % 1024, by omega⟩ : Fin 1024))).val
      = (S2048x1.rowMajor (ix2 R (0 : Fin 1))).val
    rw [Shape.rowMajor_val_two, Shape.rowMajor_val_two]
    show (R.val / 1024) * 1024 + R.val % 1024 = R.val * 1 + 0
    omega
  · by_cases h : R.val % 1024 + 1 < 1024
    · rw [dif_pos h]
      refine (pad_apply_of_inside _ _ _ _ _ _ _ _ (ix2 (⟨R.val / 1024, by omega⟩ : Fin 2) (⟨R.val % 1024, by omega⟩ : Fin 1023)) ?_).trans ?_
      · intro a
        match a with
        | ⟨0, _⟩ => show R.val / 1024 = 0 + (R.val / 1024) * (0 + 1); omega
        | ⟨1, _⟩ => show R.val % 1024 = 0 + (R.val % 1024) * (0 + 1); omega
      · refine extractStridedSlice_apply _ _ _ _ _ ?_
        intro a
        match a with
        | ⟨0, _⟩ => show R.val / 1024 = 0 + R.val / 1024; omega
        | ⟨1, _⟩ => show R.val % 1024 + 1 = 1 + R.val % 1024; omega
    · rw [dif_neg h]
      refine (pad_apply_of_not_inside _ _ _ _ _ _ _ _ (1 : Fin 2) ?_).trans rfl
      show ¬(0 ≤ R.val % 1024 ∧ (R.val % 1024 - 0) % (0 + 1) = 0 ∧ (R.val % 1024 - 0) / (0 + 1) < 1023)
      omega

/-! ## The input windows' blocks -/

/-- The block index maps and the sizes the transfers move, decided over the grid: window 0's block at point `t` is
    (t / 21, t % 21), all 256 of its rows inside the array and, of its 6144 columns, all but at the last column block
    (t % 21 = 20), where 5376 are; windows 1, 2 and 3's block is (t / 21, 0). -/
theorem idx_facts : ∀ t : Fin cfg0.N,
    win0_0.index t (0 : Fin 2) = t.val / 21 ∧ win0_0.index t (1 : Fin 2) = t.val % 21
    ∧ win0_0.xsize (grid0.coords t) (0 : Fin 2) = 256
    ∧ win0_0.xsize (grid0.coords t) (1 : Fin 2) = (if t.val % 21 = 20 then 5376 else 6144)
    ∧ win0_1.index t (0 : Fin 2) = t.val / 21 ∧ win0_1.index t (1 : Fin 2) = 0
    ∧ win0_2.index t (0 : Fin 2) = t.val / 21 ∧ win0_2.index t (1 : Fin 2) = 0
    ∧ win0_3.index t (0 : Fin 2) = t.val / 21 ∧ win0_3.index t (1 : Fin 2) = 0 :=
  (by decide +kernel : ∀ t : Fin grid0.N, _)

/-- Inside the array, window 0's staging buffer just fetched at point `t` holds the array's entry: row
    `256 · (t / 21) + r`, column `6144 · (t % 21) + col`. -/
theorem blk0_apply (c : Dev nD) (t : Fin cfg0.N) (d : S256x6144.Idx → F .f32) (r : Fin 256) (col : Fin 6144)
    (h : 6144 * (t.val % 21) + col.val < 128256) :
    win0_0.fill (grid0.coords t) d (iblk m c 0 t) (ix2 r col)
      = (V m c main_v3 : S2048x128256.Idx → F .f32)
          (ix2 ⟨256 * (t.val / 21) + r.val, by have := t.isLt; have : cfg0.N = 168 := rfl; omega⟩ ⟨6144 * (t.val % 21) + col.val, h⟩) := by
  obtain ⟨i0, i1, x0, x1, -⟩ := idx_facts t
  have hm : win0_0.moved (grid0.coords t) (ix2 r col) = true := by
    rw [Pipeline.Window.moved_iff]
    intro a
    match a with
    | ⟨0, _⟩ => show r.val < win0_0.xsize (grid0.coords t) (0 : Fin 2); rw [x0]; exact r.isLt
    | ⟨1, _⟩ => show col.val < win0_0.xsize (grid0.coords t) (1 : Fin 2); rw [x1]; have := col.isLt; split <;> omega
  unfold Pipeline.Window.fill
  rw [dif_pos hm]
  unfold iblk
  rw [View.read_apply]
  show V m c main_v3 _ = V m c main_v3 _
  congr 1
  funext a
  apply Fin.ext
  match a with
  | ⟨0, _⟩ => show win0_0.index t (0 : Fin 2) * 256 + 1 * r.val = 256 * (t.val / 21) + r.val; rw [i0]; omega
  | ⟨1, _⟩ => show win0_0.index t (1 : Fin 2) * 6144 + 1 * col.val = 6144 * (t.val % 21) + col.val; rw [i1]; omega

/-- Window 1's block at point `t` is rows `256 · (t / 21) + r` of the [2048, 1] integer array. -/
theorem blk1_apply (c : Dev nD) (t : Fin cfg0.N) (r : Fin 256) :
    (iblk m c 1 t : S256x1.Idx → BitVec 32) (ix2 r 0)
      = (V m c main_v2 : S2048x1.Idx → BitVec 32)
          (ix2 ⟨256 * (t.val / 21) + r.val, by have := t.isLt; have : cfg0.N = 168 := rfl; omega⟩ 0) := by
  obtain ⟨-, -, -, -, i0, i1, -⟩ := idx_facts t
  unfold iblk
  rw [View.read_apply]
  show V m c main_v2 _ = V m c main_v2 _
  congr 1
  funext a
  apply Fin.ext
  match a with
  | ⟨0, _⟩ => show win0_1.index t (0 : Fin 2) * 256 + 1 * r.val = 256 * (t.val / 21) + r.val; rw [i0]; omega
  | ⟨1, _⟩ => show win0_1.index t (1 : Fin 2) * 1 + 1 * 0 = 0; rw [i1]

/-- Window 0 is fetched at every point: what the body finds in its staging buffer is the block's part inside the
    array, and `d` past the array's end. -/
theorem before0 (c : Dev nD) (dat : Dat τ (Elt F) Unit ℕ (UR sig nD τ) ℕ cfg0 c)
    (hA : dat.A 0 = V m c (Pipeline.arrRef spec0 0)) (t : Fin cfg0.N) (d) :
    dat.before 0 t d = win0_0.fill (grid0.coords t) d (iblk m c 0 t) := by
  unfold Dat.before
  rw [if_pos (fetch0_0 t)]
  unfold Dat.fetched Dat.blockOf iblk
  rw [hA]
  try rfl

/-! ## The output windows' blocks, and the arrays they fill -/

/-- Output window 2's block at point `t` reads rows `256 · (t / 21) + r` of its [2048, 1] array. -/
theorem outblk2_apply (t : Fin cfg0.N) (G : S2048x1.Idx → F .f32) (r : Fin 256) :
    (((cfg0.win 2).blk t).view.read (Elt F) G : S256x1.Idx → F .f32) (ix2 r 0)
      = G (ix2 ⟨256 * (t.val / 21) + r.val, by have := t.isLt; have : cfg0.N = 168 := rfl; omega⟩ 0) := by
  obtain ⟨-, -, -, -, -, -, i0, i1, -⟩ := idx_facts t
  rw [View.read_apply]
  refine congrArg G ?_
  funext a
  apply Fin.ext
  match a with
  | ⟨0, _⟩ => show win0_2.index t (0 : Fin 2) * 256 + 1 * r.val = 256 * (t.val / 21) + r.val; rw [i0]; omega
  | ⟨1, _⟩ => show win0_2.index t (1 : Fin 2) * 1 + 1 * 0 = 0; rw [i1]

/-- Output window 3's likewise. -/
theorem outblk3_apply (t : Fin cfg0.N) (G : S2048x1.Idx → F .f32) (r : Fin 256) :
    (((cfg0.win 3).blk t).view.read (Elt F) G : S256x1.Idx → F .f32) (ix2 r 0)
      = G (ix2 ⟨256 * (t.val / 21) + r.val, by have := t.isLt; have : cfg0.N = 168 := rfl; omega⟩ 0) := by
  obtain ⟨-, -, -, -, -, -, -, -, i0, i1⟩ := idx_facts t
  rw [View.read_apply]
  refine congrArg G ?_
  funext a
  apply Fin.ext
  match a with
  | ⟨0, _⟩ => show win0_3.index t (0 : Fin 2) * 256 + 1 * r.val = 256 * (t.val / 21) + r.val; rw [i0]; omega
  | ⟨1, _⟩ => show win0_3.index t (1 : Fin 2) * 1 + 1 * 0 = 0; rw [i1]

/-- An index of output window 2's array is in point `t`'s block iff each coordinate is in the block's range. -/
theorem mem_blk2 (t : Fin cfg0.N) (i : S2048x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v4_0).slice (win0_2.rect t)).set ↔ _
  rw [View.set_slice_whole, Rect.mem_set_unit]
  exact Iff.rfl

/-- Output window 3's likewise. -/
theorem mem_blk3 (t : Fin cfg0.N) (i : S2048x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v4_1).slice (win0_3.rect t)).set ↔ _
  rw [View.set_slice_whole, Rect.mem_set_unit]
  exact Iff.rfl

/-- The last point of row block `q`. -/
abbrev lastOf (q : Nat) (hq : q < 8) : Fin cfg0.N := ⟨21 * q + 20, by have : cfg0.N = 168 := rfl; omega⟩

/-- Every row of output window 2's array is in the block written back at the last point of its row block,
    `21 · (row / 256) + 20`. -/
theorem cover2 (i : S2048x1.Idx) :
    ∃ t : Fin cfg0.N, (cfg0.win 2).flush t = true ∧ i ∈ ((cfg0.win 2).blk t).view.set := by
  have hi0 : (i 0).val < 2048 := (i 0).isLt
  have hi1 : (i 1).val < 1 := (i 1).isLt
  have hq : (i 0).val / 256 < 8 := by omega
  refine ⟨lastOf ((i 0).val / 256) hq, (flush0_2 _).mpr (by show (21 * ((i 0).val / 256) + 20) % 21 = 20; omega), ?_⟩
  obtain ⟨-, -, -, -, -, -, i0, i1, -⟩ := idx_facts (lastOf ((i 0).val / 256) hq)
  rw [mem_blk2]
  intro a
  match a with
  | ⟨0, _⟩ =>
    show win0_2.index (lastOf ((i 0).val / 256) hq) (0 : Fin 2) * 256 ≤ (i 0).val
      ∧ (i 0).val < win0_2.index (lastOf ((i 0).val / 256) hq) (0 : Fin 2) * 256 + 256
    rw [i0]
    show (21 * ((i 0).val / 256) + 20) / 21 * 256 ≤ (i 0).val ∧ (i 0).val < (21 * ((i 0).val / 256) + 20) / 21 * 256 + 256
    omega
  | ⟨1, _⟩ =>
    show win0_2.index (lastOf ((i 0).val / 256) hq) (1 : Fin 2) * 1 ≤ (i 1).val
      ∧ (i 1).val < win0_2.index (lastOf ((i 0).val / 256) hq) (1 : Fin 2) * 1 + 1
    rw [i1]; omega

/-- Output window 3's likewise. -/
theorem cover3 (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  have hq : (i 0).val / 256 < 8 := by omega
  refine ⟨lastOf ((i 0).val / 256) hq, (flush0_3 _).mpr (by show (21 * ((i 0).val / 256) + 20) % 21 = 20; omega), ?_⟩
  obtain ⟨-, -, -, -, -, -, -, -, i0, i1⟩ := idx_facts (lastOf ((i 0).val / 256) hq)
  rw [mem_blk3]
  intro a
  match a with
  | ⟨0, _⟩ =>
    show win0_3.index (lastOf ((i 0).val / 256) hq) (0 : Fin 2) * 256 ≤ (i 0).val
      ∧ (i 0).val < win0_3.index (lastOf ((i 0).val / 256) hq) (0 : Fin 2) * 256 + 256
    rw [i0]
    show (21 * ((i 0).val / 256) + 20) / 21 * 256 ≤ (i 0).val ∧ (i 0).val < (21 * ((i 0).val / 256) + 20) / 21 * 256 + 256
    omega
  | ⟨1, _⟩ =>
    show win0_3.index (lastOf ((i 0).val / 256) hq) (1 : Fin 2) * 1 ≤ (i 1).val
      ∧ (i 1).val < win0_3.index (lastOf ((i 0).val / 256) hq) (1 : Fin 2) * 1 + 1
    rw [i1]; omega

/-- If every point that writes window 2's block back (t ≡ 20 mod 21) writes its block of one whole-array contents
    `G`, the array ends holding `G`: the blocks written back cover it. -/
theorem final2 (c : Dev nD) (dat : Dat τ (Elt F) Unit ℕ (UR sig nD τ) ℕ cfg0 c) (G : S2048x1.Idx → F .f32)
    (h : ∀ t : Fin cfg0.N, t.val % 21 = 20 →
      (cfg0.win 2).cut (grid0.coords t) (dat.after 2 t) = ((cfg0.win 2).blk t).view.read (Elt F) G) :
    dat.arrAt 2 cfg0.N = G :=
  dat.arrAt_eq_of_cover 2 G (fun t hf => h t ((flush0_2 t).mp hf)) cover2

/-- Window 3's likewise. -/
theorem final3 (c : Dev nD) (dat : Dat τ (Elt F) Unit ℕ (UR sig nD τ) ℕ cfg0 c) (G : S2048x1.Idx → F .f32)
    (h : ∀ t : Fin cfg0.N, t.val % 21 = 20 →
      (cfg0.win 3).cut (grid0.coords t) (dat.after 3 t) = ((cfg0.win 3).blk t).view.read (Elt F) G) :
    dat.arrAt 3 cfg0.N = G :=
  dat.arrAt_eq_of_cover 3 G (fun t hf => h t ((flush0_3 t).mp hf)) cover3

/-- Output window 2 is not cut: what a write-back at point `t` writes is all of the staging buffer's contents `f`,
    and if row `r` of `f` is row `256 · (t / 21) + r` of `G`, that is point `t`'s block of `G`. -/
theorem cut2_eq (t : Fin cfg0.N) (f : S256x1.Idx → F .f32) (G : S2048x1.Idx → F .f32)
    (h : ∀ r : Fin 256, f (ix2 r 0)
      = G (ix2 ⟨256 * (t.val / 21) + r.val, by have := t.isLt; have : cfg0.N = 168 := rfl; omega⟩ 0)) :
    (cfg0.win 2).cut (grid0.coords t) f = ((cfg0.win 2).blk t).view.read (Elt F) G := by
  have key : (fun j : S256x1.Idx => f j) = (((cfg0.win 2).blk t).view.read (Elt F) G : S256x1.Idx → F .f32) := by
    funext j
    obtain ⟨r, z, rfl⟩ : ∃ (r : Fin 256) (z : Fin 1), j = ix2 r z := ⟨j 0, j 1, eq_ix2 j⟩
    obtain rfl : z = 0 := Fin.ext (by omega)
    exact (h r).trans (outblk2_apply t G r).symm
  exact key

/-- Output window 3's likewise. -/
theorem cut3_eq (t : Fin cfg0.N) (f : S256x1.Idx → F .f32) (G : S2048x1.Idx → F .f32)
    (h : ∀ r : Fin 256, f (ix2 r 0)
      = G (ix2 ⟨256 * (t.val / 21) + r.val, by have := t.isLt; have : cfg0.N = 168 := rfl; omega⟩ 0)) :
    (cfg0.win 3).cut (grid0.coords t) f = ((cfg0.win 3).blk t).view.read (Elt F) G := by
  have key : (fun j : S256x1.Idx => f j) = (((cfg0.win 3).blk t).view.read (Elt F) G : S256x1.Idx → F .f32) := by
    funext j
    obtain ⟨r, z, rfl⟩ : ∃ (r : Fin 256) (z : Fin 1), j = ix2 r z := ⟨j 0, j 1, eq_ix2 j⟩
    obtain rfl : z = 0 := Fin.ext (by omega)
    exact (h r).trans (outblk3_apply t G r).symm
  exact key

end Cert.KernelIdeal.Blocks

end
-- ==== Proof.Rows.lean ====
/-
  The certificate's quantities row by row: the scores of position (b, t), the column chosen there (the next
  position's token; column 0 at the last position), and the two arrays the kernel and the reference both
  compute — the log-softmax at the chosen column and the entropy of the softmax, for every position.
-/
import proofs.«430439_j8589934595_1_alg».proof.Proof.Spec
import Idealize.ShloMosaic.Lib.ValueIdx

noncomputable section

namespace Cert.RowSoftmax

open Idealize.ShloMosaic Idealize.ShloMosaic.ValueIdx

/-- The shapes of the scores and of the per-position arrays. -/
abbrev Sx : Shape := ⟨3, ![2, 1024, 128256]⟩
abbrev Sp : Shape := ⟨2, ![2, 1024]⟩

/-- The scores of position `(b, t)`. -/
def scores (a0 : Sx.Idx → EReal) (b : Fin 2) (t : Fin 1024) : Fin NV → EReal := fun j => a0 (ix3 b t j)

/-- The column chosen at position `(b, t)`: the token at `t + 1`, read as a natural number; 0 at the last position. -/
def chosen (a1 : Sp.Idx → BitVec 32) (b : Fin 2) (t : Fin 1024) : ℕ :=
  if h : t.val + 1 < 1024 then (a1 (ix2 b ⟨t.val + 1, h⟩)).toNat else 0

/-- The log-softmax of a row at a column given as a natural number (0 outside the row, which no use reaches). -/
def lsmAt (x : Fin NV → EReal) (ch : ℕ) : EReal := if h : ch < NV then lsm x ⟨ch, h⟩ else 0

/-- The log-probability of the chosen column, per position. -/
def logpSpec (a0 : Sx.Idx → EReal) (a1 : Sp.Idx → BitVec 32) : Sp.Idx → EReal :=
  fun j => lsmAt (scores a0 (j 0) (j 1)) (chosen a1 (j 0) (j 1))

/-- The entropy of the softmax, per position. -/
def entSpec (a0 : Sx.Idx → EReal) : Sp.Idx → EReal :=
  fun j => entropy (scores a0 (j 0) (j 1))

end Cert.RowSoftmax

end
-- ==== Proof.Algebra.lean ====
/-
  The laws of the chunked evaluation of a row's log-softmax quantities (Spec.lean): the empty state, one
  chunk's update, and the epilogue, for a row of finite scores.
-/
import proofs.«430439_j8589934595_1_alg».proof.Proof.Spec

noncomputable section

namespace Cert.RowSoftmax

open Idealize.ShloMosaic

/-! ### Finite sums and suprema of real scores inside the extended reals -/

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Changing the shift of a weighted sum of shifted exponentials from `a` to `b` multiplies it by `exp (a - b)`. -/
private theorem rescale {ι : Type*} (x w : ι → EReal) (xr g : ι → ℝ) (hx : ∀ j, x j = (xr j : EReal))
    (hw : ∀ j, w j = (g j : EReal)) (A : Finset ι) (a b : ℝ) :
    Ideal.exp ((a : EReal) - b) * ∑ j ∈ A, Ideal.exp (x j - a) * w j
      = ∑ j ∈ A, Ideal.exp (x j - b) * w j := by
  simp only [hx, hw, ← EReal.coe_sub, Ideal.exp_coe, ← EReal.coe_mul, ← coe_sum]
  congr 1
  rw [Finset.mul_sum]
  refine Finset.sum_congr rfl fun j _ => ?_
  rw [← mul_assoc, ← Real.exp_add]
  congr 2
  ring

/-- The same without weights. -/
private theorem rescale_one {ι : Type*} (x : ι → EReal) (xr : ι → ℝ) (hx : ∀ j, x j = (xr j : EReal))
    (A : Finset ι) (a b : ℝ) :
    Ideal.exp ((a : EReal) - b) * ∑ j ∈ A, Ideal.exp (x j - a) = ∑ j ∈ A, Ideal.exp (x j - b) := by
  have h := rescale x (fun _ => 1) xr (fun _ => 1) hx (fun _ => EReal.coe_one.symm) A a b
  simp only [mul_one] at h
  exact h

/-- The supremum of finitely many real scores, over a nonempty set of columns, is a real. -/
private theorem sup_coe_real {ι : Type*} (x : ι → EReal) (hx : ∀ j, ∃ r : ℝ, x j = (r : EReal))
    (S : Finset ι) (hS : S.Nonempty) : ∃ r : ℝ, S.sup x = (r : EReal) := by
  obtain ⟨i, _, hi⟩ := Finset.exists_mem_eq_sup S hS x
  obtain ⟨r, hr⟩ := hx i
  exact ⟨r, hi.trans hr⟩

/-- The entropy identity for real scores: with `S` the sum of the shifted exponentials and `W` their sum weighted
    by the scores, `M + log S - W / S` is minus the sum of probability times log-probability. -/
private theorem entropy_real {ι : Type*} (A : Finset ι) (xr : ι → ℝ) (M S W : ℝ)
    (hS : S = ∑ j ∈ A, Real.exp (xr j - M)) (hW : W = ∑ j ∈ A, Real.exp (xr j - M) * xr j) (hpos : 0 < S) :
    M + Real.log S - W * (1 / S)
      = -∑ j ∈ A, Real.exp (xr j - M - Real.log S) * (xr j - M - Real.log S) := by
  have h1 : ∀ j ∈ A, Real.exp (xr j - M - Real.log S) * (xr j - M - Real.log S)
      = Real.exp (xr j - M) * xr j / S - (M + Real.log S) * (Real.exp (xr j - M) / S) := by
    intro j _
    rw [Real.exp_sub (xr j - M), Real.exp_log hpos]
    ring
  rw [Finset.sum_congr rfl h1, Finset.sum_sub_distrib, ← Finset.sum_div, ← Finset.mul_sum, ← Finset.sum_div, ← hS,
    ← hW, div_self hpos.ne']
  ring

/-! ### The columns of one chunk -/

/-- The columns of the row that the chunk starting at `n` covers. -/
private def chunkCols (n : ℕ) : Finset (Fin NV) := Finset.univ.filter fun j => n ≤ j.val ∧ j.val < n + TV

private theorem colsBelow_add (n : ℕ) : colsBelow (n + TV) = colsBelow n ∪ chunkCols n := by
  ext j
  simp only [colsBelow, chunkCols, Finset.mem_union, Finset.mem_filter, Finset.mem_univ, true_and]
  omega

private theorem disjoint_cols (n : ℕ) : Disjoint (colsBelow n) (chunkCols n) := by
  rw [Finset.disjoint_left]
  intro j hj hj'
  simp only [colsBelow, chunkCols, Finset.mem_filter, Finset.mem_univ, true_and] at hj hj'
  omega

/-- The supremum of the chunk's masked scores is the supremum of the row's scores over the chunk's columns. -/
private theorem sup_chunk (x : Fin NV → EReal) (n : ℕ) (y : Fin TV → EReal)
    (hy : ∀ col : Fin TV, y col = if h : n + col.val < NV then x ⟨n + col.val, h⟩ else ⊥) :
    Finset.univ.sup y = (chunkCols n).sup x := by
  apply le_antisymm
  · refine Finset.sup_le fun col _ => ?_
    rw [hy col]
    split_ifs with h
    · exact Finset.le_sup (f := x)
        (Finset.mem_filter.2 ⟨Finset.mem_univ _, Nat.le_add_right _ _, Nat.add_lt_add_left col.isLt _⟩)
    · exact bot_le
  · refine Finset.sup_le fun j hj => ?_
    have hj2 := (Finset.mem_filter.1 hj).2
    have hlt : j.val - n < TV := by omega
    have hj' : n + (j.val - n) < NV := by have := j.isLt; omega
    have e : y ⟨j.val - n, hlt⟩ = x j := by
      rw [hy, dif_pos hj']
      congr 1
      apply Fin.ext
      show n + (j.val - n) = j.val
      omega
    rw [← e]
    exact Finset.le_sup (Finset.mem_univ _)

/-- A sum over the chunk of a function of the masked score that vanishes at the bottom element is the sum over the
    chunk's columns of the function of the row's score. -/
private theorem sum_chunk (x : Fin NV → EReal) (n : ℕ) (y : Fin TV → EReal)
    (hy : ∀ col : Fin TV, y col = if h : n + col.val < NV then x ⟨n + col.val, h⟩ else ⊥)
    (G : EReal → EReal) (hG : G ⊥ = 0) :
    ∑ col, G (y col) = ∑ j ∈ chunkCols n, G (x j) := by
  classical
  have h1 : ∑ col, G (y col)
      = ∑ col ∈ Finset.univ.filter (fun col : Fin TV => n + col.val < NV), G (y col) := by
    symm
    apply Finset.sum_subset (Finset.filter_subset _ _)
    intro col _ hcol
    have hc : ¬ n + col.val < NV := fun h => hcol (Finset.mem_filter.2 ⟨Finset.mem_univ _, h⟩)
    rw [hy, dif_neg hc, hG]
  rw [h1]
  refine Finset.sum_bij (fun col hcol => ⟨n + col.val, (Finset.mem_filter.1 hcol).2⟩) ?_ ?_ ?_ ?_
  · intro col hcol
    exact Finset.mem_filter.2 ⟨Finset.mem_univ _, Nat.le_add_right _ _, Nat.add_lt_add_left col.isLt _⟩
  · intro a ha b hb hab
    have h2 : n + a.val = n + b.val := congrArg Fin.val hab
    apply Fin.ext
    omega
  · intro j hj
    have hj2 := (Finset.mem_filter.1 hj).2
    have hlt : j.val - n < TV := by omega
    refine ⟨⟨j.val - n, hlt⟩, Finset.mem_filter.2 ⟨Finset.mem_univ _, ?_⟩, ?_⟩
    · show n + (j.val - n) < NV
      have := j.isLt
      omega
    · apply Fin.ext
      show n + (j.val - n) = j.val
      omega
  · intro col hcol
    rw [hy, dif_pos (Finset.mem_filter.1 hcol).2]

/-! ### The laws -/

/-- Before any column the state is the starting one. -/
theorem inv_start (x : Fin NV → EReal) (ch : ℕ) : Inv x ch 0 start := by
  have h0 : colsBelow 0 = ∅ := by
    ext j
    simp only [colsBelow, Finset.mem_filter, Finset.mem_univ, true_and, Nat.not_lt_zero, Finset.notMem_empty]
  refine ⟨?_, ?_, ?_, ?_⟩
  · rw [h0, Finset.sup_empty]; rfl
  · rw [h0, Finset.sum_empty]; rfl
  · rw [h0, Finset.sum_empty]; rfl
  · rw [dif_neg (fun h => Nat.not_lt_zero _ h.1)]; rfl

/-- One chunk: from the state of the columns below `n` (a multiple of the chunk width, inside the row) to that of
    the columns below `n + TV`, when the chunk's masked scores are the row's inside the row and bottom past its end,
    and its raw scores are the row's inside the row (anything past its end), the chosen column inside the row. -/
theorem inv_step (x : Fin NV → EReal) (hx : ∀ j, ∃ r : ℝ, x j = (r : EReal)) (ch : ℕ) (hch : ch < NV) (n : ℕ) (hn : n < NV)
    (st : Run) (h : Inv x ch n st) (y raw : Fin TV → EReal)
    (hy : ∀ col : Fin TV, y col = if h : n + col.val < NV then x ⟨n + col.val, h⟩ else ⊥)
    (hraw : ∀ col : Fin TV, ∀ h : n + col.val < NV, raw col = x ⟨n + col.val, h⟩) :
    Inv x ch (n + TV) (chunkStep n ch y raw st) := by
  classical
  obtain ⟨hm, hs, hw, hc⟩ := h
  choose xr hxr using hx
  have hx : ∀ j, ∃ r : ℝ, x j = (r : EReal) := fun j => ⟨xr j, hxr j⟩
  have hTV : 0 < TV := by decide
  have hM : max st.m (Finset.univ.sup y) = (colsBelow (n + TV)).sup x := by
    rw [sup_chunk x n y hy, hm, colsBelow_add, Finset.sup_union]
  have hne : (colsBelow (n + TV)).Nonempty :=
    ⟨⟨n, hn⟩, Finset.mem_filter.2 ⟨Finset.mem_univ _, Nat.lt_add_of_pos_right hTV⟩⟩
  obtain ⟨b, hb⟩ := sup_coe_real x hx _ hne
  rw [← hM] at hb
  have ks : Ideal.exp (st.m - (b : EReal)) * st.s = ∑ j ∈ colsBelow n, Ideal.exp (x j - (b : EReal)) := by
    rw [hs]
    rcases (colsBelow n).eq_empty_or_nonempty with hA | hA
    · rw [hA, Finset.sum_empty, Finset.sum_empty, mul_zero]
    · obtain ⟨a, ha⟩ := sup_coe_real x hx _ hA
      rw [hm, ha]
      exact rescale_one x xr hxr _ a b
  have kw : Ideal.exp (st.m - (b : EReal)) * st.w = ∑ j ∈ colsBelow n, Ideal.exp (x j - (b : EReal)) * x j := by
    rw [hw]
    rcases (colsBelow n).eq_empty_or_nonempty with hA | hA
    · rw [hA, Finset.sum_empty, Finset.sum_empty, mul_zero]
    · obtain ⟨a, ha⟩ := sup_coe_real x hx _ hA
      rw [hm, ha]
      exact rescale x x xr xr hxr hxr _ a b
  unfold Inv
  dsimp only [chunkStep]
  refine ⟨hM, ?_, ?_, ?_⟩
  · rw [hb, sum_chunk x n y hy (fun t => Ideal.exp (t - (b : EReal))) (by simp), colsBelow_add,
      Finset.sum_union (disjoint_cols n), ks]
  · rw [hb, sum_chunk x n y hy (fun t => Ideal.exp (t - (b : EReal)) * t) (by simp), colsBelow_add,
      Finset.sum_union (disjoint_cols n), kw]
  · rw [hc]
    by_cases h1 : ch < n
    · rw [dif_pos ⟨h1, hch⟩, dif_pos ⟨Nat.lt_add_right _ h1, hch⟩, Finset.sum_eq_zero, add_zero]
      intro col _
      rw [if_neg]
      omega
    · by_cases h2 : ch < n + TV
      · have hlt : ch - n < TV := by omega
        have hlt' : n + (ch - n) < NV := by omega
        rw [dif_neg (fun h => h1 h.1), dif_pos ⟨h2, hch⟩, zero_add, Finset.sum_eq_single ⟨ch - n, hlt⟩]
        · rw [if_pos (show n + (ch - n) = ch by omega), hraw _ hlt']
          congr 1
          apply Fin.ext
          show n + (ch - n) = ch
          omega
        · intro col _ hne
          rw [if_neg]
          intro h
          apply hne
          apply Fin.ext
          show col.val = ch - n
          omega
        · intro h
          exact absurd (Finset.mem_univ _) h
      · rw [dif_neg (fun h => h1 h.1), dif_neg (fun h => h2 h.1), zero_add, Finset.sum_eq_zero]
        intro col _
        rw [if_neg]
        have := col.isLt
        omega

/-- After every column the epilogue's first value is the log-softmax at the chosen column, -/
theorem outLogp_eq (x : Fin NV → EReal) (hx : ∀ j, ∃ r : ℝ, x j = (r : EReal)) (ch : ℕ) (hch : ch < NV) (n : ℕ) (hn : NV ≤ n)
    (st : Run) (h : Inv x ch n st) : outLogp st = lsm x ⟨ch, hch⟩ := by
  obtain ⟨hm, hs, hw, hc⟩ := h
  have hU : colsBelow n = Finset.univ := Finset.filter_true_of_mem fun j _ => lt_of_lt_of_le j.isLt hn
  rw [hU] at hm hs
  unfold outLogp lsm expSum rowMax
  rw [hc, dif_pos ⟨lt_of_lt_of_le hch hn, hch⟩, hs, hm]

/-- and its second the entropy. -/
theorem outEnt_eq (x : Fin NV → EReal) (hx : ∀ j, ∃ r : ℝ, x j = (r : EReal)) (ch : ℕ) (hch : ch < NV) (n : ℕ) (hn : NV ≤ n)
    (st : Run) (h : Inv x ch n st) : outEnt st = entropy x := by
  classical
  obtain ⟨hm, hs, hw, hc⟩ := h
  have hU : colsBelow n = Finset.univ := Finset.filter_true_of_mem fun j _ => lt_of_lt_of_le j.isLt hn
  rw [hU] at hm hs hw
  choose xr hxr using hx
  have hne : (Finset.univ : Finset (Fin NV)).Nonempty := ⟨⟨0, by decide⟩, Finset.mem_univ _⟩
  obtain ⟨M, hMr⟩ := sup_coe_real x (fun j => ⟨xr j, hxr j⟩) _ hne
  have hM : st.m = (M : EReal) := hm.trans hMr
  have hrow : rowMax x = (M : EReal) := hMr
  obtain ⟨S, hSd⟩ : ∃ S : ℝ, S = ∑ j, Real.exp (xr j - M) := ⟨_, rfl⟩
  obtain ⟨W, hWd⟩ : ∃ W : ℝ, W = ∑ j, Real.exp (xr j - M) * xr j := ⟨_, rfl⟩
  have hpos : 0 < S := by
    rw [hSd]
    exact Finset.sum_pos (fun j _ => Real.exp_pos _) hne
  have hsum : ∑ j, Ideal.exp (x j - (M : EReal)) = (S : EReal) := by
    rw [hSd, coe_sum]
    refine Finset.sum_congr rfl fun j _ => ?_
    rw [hxr, ← EReal.coe_sub, Ideal.exp_coe]
  have hS : st.s = (S : EReal) := by rw [hs, hM, hsum]
  have hW : st.w = (W : EReal) := by
    rw [hw, hM, hWd, coe_sum]
    refine Finset.sum_congr rfl fun j _ => ?_
    rw [hxr, ← EReal.coe_sub, Ideal.exp_coe, ← EReal.coe_mul]
  have hexp : expSum x = (S : EReal) := by
    unfold expSum
    rw [hrow, hsum]
  have hlogS : Ideal.log (S : EReal) = (Real.log S : EReal) := by
    rw [Ideal.log_coe, if_neg (not_le.2 hpos)]
  have hlsm : ∀ j, lsm x j = ((xr j - M - Real.log S : ℝ) : EReal) := by
    intro j
    unfold lsm
    rw [hrow, hexp, hlogS, hxr, ← EReal.coe_sub, ← EReal.coe_sub]
  unfold outEnt entropy
  rw [hM, hS, hW, hlogS, Ideal.div_coe hpos.ne', ← EReal.coe_add, ← EReal.coe_mul, ← EReal.coe_sub]
  simp only [hlsm, Ideal.exp_coe, ← EReal.coe_mul, ← coe_sum, ← EReal.coe_neg]
  rw [EReal.coe_eq_coe_iff]
  exact entropy_real Finset.univ xr M S W hSd hWd hpos

end Cert.RowSoftmax

end
-- ==== Proof.KData.lean ====
/-
  The idealized kernel program's run with its values: the proof data of the one pipeline (what every staging buffer
  holds after the body at each grid point, and the invariant that carries the four scratch buffers — running maximum,
  shifted sum, weighted sum, picked score of each of the block's 256 rows — from one chunk of columns to the next),
  and the launch.
-/
import proofs.«430439_j8589934595_1_alg».proof.Proof.KVals
import proofs.«430439_j8589934595_1_alg».proof.Proof.KPay
import proofs.«430439_j8589934595_1_alg».proof.Proof.KBlock
import proofs.«430439_j8589934595_1_alg».proof.Proof.Rows
import proofs.«430439_j8589934595_1_alg».proof.Proof.Algebra
import Idealize.ShloMosaic.Lib.Pipeline.FrameSuffix

set_option maxRecDepth 16384

noncomputable section

namespace Cert.KernelIdeal.Data

open Cert.KernelIdeal Cert.KernelIdeal.Gen Cert.KernelIdeal.Body Cert.RowSoftmax
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The rows -/

/-- The scores and the token ids as launched. -/
abbrev A0 (c : Dev nD) : Sx.Idx → EReal := m ((c : Thread nD τ).loc main_arg0)
abbrev A1 (c : Dev nD) : Sp.Idx → BitVec 32 := m ((c : Thread nD τ).loc main_arg1)

/-- Row `R` of the 2048 rows of scores (position `(R / 1024, R % 1024)`), and its chosen column. -/
def rowX (c : Dev nD) (R : ℕ) : Fin NV → EReal := scores (A0 m c) ⟨R / 1024 % 2, Nat.mod_lt _ (by norm_num)⟩ ⟨R % 1024, Nat.mod_lt _ (by norm_num)⟩
def rowCh (c : Dev nD) (R : ℕ) : ℕ := chosen (A1 m c) ⟨R / 1024 % 2, Nat.mod_lt _ (by norm_num)⟩ ⟨R % 1024, Nat.mod_lt _ (by norm_num)⟩

/-- The two result columns, row by row: the log-softmax at the chosen column and the entropy. -/
def G2 (c : Dev nD) : S2048x1.Idx → EReal := fun j => lsmAt (rowX m c (j 0).val) (rowCh m c (j 0).val)
def G3 (c : Dev nD) : S2048x1.Idx → EReal := fun j => entropy (rowX m c (j 0).val)

/-! ## The invariant -/

/-- The scratch operands. -/
abbrev sc0 : Memref sig .tc .vmem S256x1 .f32 := Memref.whole cc0_scratch0
abbrev sc1 : Memref sig .tc .vmem S256x1 .f32 := Memref.whole cc0_scratch1
abbrev sc2 : Memref sig .tc .vmem S256x1 .f32 := Memref.whole cc0_scratch2
abbrev sc3 : Memref sig .tc .vmem S256x1 .f32 := Memref.whole cc0_scratch3

/-- Before grid point `n` (chunk `n % 21` of row block `n / 21`): at a block's first chunk nothing is known of the
    scratch; otherwise each of the block's rows holds the state of its columns below `6144 · (n % 21)`. -/
def InvAt (c : Dev nD) (n : ℕ) (M S W C : Vec Ideal S256x1 .f32) : Prop :=
  n % 21 = 0 ∨ ∀ r : Fin 256, Inv (rowX m c (256 * (n / 21) + r.val)) (rowCh m c (256 * (n / 21) + r.val)) (6144 * (n % 21))
    ⟨M (ix2 r 0), S (ix2 r 0), W (ix2 r 0), C (ix2 r 0)⟩

/-- The region's invariant before point `n`: the four scratch buffers at contents in `InvAt`, and the generator register. -/
def PhiI (c : Dev nD) (n : ℕ) : sProp 𝕄 :=
  iprop(∃ M S W C, ⌜InvAt m c n M S W C⌝ ∗ (owns (c : Thread nD τ) sc0 fullShare M ∗ owns (c : Thread nD τ) sc1 fullShare S
    ∗ owns (c : Thread nD τ) sc2 fullShare W ∗ owns (c : Thread nD τ) sc3 fullShare C) ∗ (∃ r, prngReg c r))

/-- The class's invariant with the scratch operands as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The proof data -/

/-- After the body at point `t`: the scores' buffer at its block (filled out with zeros past the array's end, where
    nothing is stated), the token ids' at its block, the two outputs' at the block of the result columns. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => fun j => G2 m c (ix2 ⟨(256 * (t.val / 21) + (j 0).val) % 2048, Nat.mod_lt _ (by norm_num)⟩ 0)
    | ⟨3, _⟩ => fun j => G3 m c (ix2 ⟨(256 * (t.val / 21) + (j 0).val) % 2048, Nat.mod_lt _ (by norm_num)⟩ 0)
  Φ t := PhiI m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) (fun _ => (0 : EReal)) (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t = fun j : S256x1.Idx => G2 m c (ix2 ⟨(256 * (t.val / 21) + (j 0).val) % 2048, Nat.mod_lt _ (by norm_num)⟩ 0) := rfl
theorem after_3 (c : Dev nD) (t : Fin cfg0.N) : (dats m 0 c).after 3 t = fun j : S256x1.Idx => G3 m c (ix2 ⟨(256 * (t.val / 21) + (j 0).val) % 2048, Nat.mod_lt _ (by norm_num)⟩ 0) := rfl

/-- What the launch hands the region is the invariant before the first point. -/
theorem hin (c : Dev nD) : Pipeline.ΦA spec0 c ⊢ (dats m 0 c).Φ 0 := by
  rw [show (dats m 0 c).Φ 0 = PhiI m c 0 from rfl, PhiA_eq]; unfold PhiI
  iintro ⟨⟨⟨%d0, H0⟩, ⟨%d1, H1⟩, ⟨%d2, H2⟩, ⟨%d3, H3⟩⟩, Hg⟩
  iexists d0, d1, d2, d3
  isplitr; · ipureintro; exact Or.inl rfl
  isplitl [H0 H1 H2 H3]
  · isplitl [H0]; · iexact H0
    isplitl [H1]; · iexact H1
    isplitl [H2]; · iexact H2
    iexact H3
  iexact Hg

/-- After the last point the invariant gives the class's back. -/
theorem hout (c : Dev nD) : (dats m 0 c).Φ (Fin.last cfg0.N) ⊢ Pipeline.ΦA spec0 c := by
  rw [show (dats m 0 c).Φ (Fin.last cfg0.N) = PhiI m c (Fin.last cfg0.N).val from rfl, PhiA_eq]; unfold PhiI
  iintro ⟨%M, %S, %W, %C, -, ⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

/-- The state after a chunk, as the body's payloads. -/
abbrev stM (i : grid0.Coords) (x0 : Vec Ideal S256x6144 .f32) (M : Vec Ideal S256x1 .f32) : Vec Ideal S256x1 .f32 := k0_pay2 (k0_pay14 i x0 M)
abbrev stS (i : grid0.Coords) (x0 : Vec Ideal S256x6144 .f32) (M S : Vec Ideal S256x1 .f32) : Vec Ideal S256x1 .f32 := k0_pay17 i x0 M M S
abbrev stW (i : grid0.Coords) (x0 : Vec Ideal S256x6144 .f32) (M W : Vec Ideal S256x1 .f32) : Vec Ideal S256x1 .f32 := k0_pay1 (k0_pay18 i x0 M M W) (k0_pay19 i x0 M)
abbrev stC (i : grid0.Coords) (x0 : Vec Ideal S256x6144 .f32) (x1 : Vec Ideal S256x1 .i32) (C : Vec Ideal S256x1 .f32) : Vec Ideal S256x1 .f32 := k0_pay3 (k0_pay11 x0) (k0_pay12 i) x1 C

/-! ## The rows' facts, from the precondition -/

variable (hx : ∀ (c : Dev nD) (i : Sx.Idx), ∃ r : ℝ, A0 m c i = (r : EReal))
variable (hids : ∀ (c : Dev nD) (b : Fin 2) (t : Fin 1024), 1 ≤ t.val → 0 ≤ (A1 m c (ix2 b t)).toInt ∧ (A1 m c (ix2 b t)).toInt < 128256)

include hx in
theorem rowX_real (c : Dev nD) (R : ℕ) : ∀ j, ∃ r : ℝ, rowX m c R j = (r : EReal) := fun j => hx c _

theorem toNat_lt_of_toInt (x : BitVec 32) (h : 0 ≤ x.toInt ∧ x.toInt < 128256) : x.toNat < 128256 := by
  have h1 := BitVec.toInt_eq_toNat_cond x
  have h2 := x.isLt
  split_ifs at h1 <;> omega

include hids in
theorem rowCh_lt (c : Dev nD) (R : ℕ) : rowCh m c R < NV := by
  unfold rowCh chosen
  split
  · exact toNat_lt_of_toInt _ (hids c _ _ (by simp))
  · norm_num

theorem N168 (t : Fin cfg0.N) : t.val < 168 := lt_of_lt_of_eq t.isLt N_0

/-- Inside the array the scores' buffer holds the row's score. -/
theorem x0_apply (c : Dev nD) (t : Fin cfg0.N) (d : S256x6144.Idx → EReal) (r : Fin 256) (col : Fin 6144) (h : 6144 * (t.val % 21) + col.val < NV) :
    (win0_0.fill (grid0.coords t) d (iblk m c 0 t) : S256x6144.Idx → EReal) (ix2 r col)
      = rowX m c (256 * (t.val / 21) + r.val) ⟨6144 * (t.val % 21) + col.val, h⟩ := by
  have ht := N168 t
  rw [Blocks.blk0_apply m c t d r col h, Blocks.V_v3_apply]
  unfold rowX scores
  have e0 : (256 * (t.val / 21) + r.val) / 1024 % 2 = (256 * (t.val / 21) + r.val) / 1024 := by have := r.isLt; omega
  congr 1
  funext a
  match a with
  | ⟨0, _⟩ => exact Fin.ext e0.symm
  | ⟨1, _⟩ => rfl
  | ⟨2, _⟩ => rfl

/-- The token ids' buffer holds the rows' chosen columns. -/
theorem x1_apply (c : Dev nD) (t : Fin cfg0.N) (r : Fin 256) :
    ((iblk m c 1 t : S256x1.Idx → BitVec 32) (ix2 r 0)).toNat = rowCh m c (256 * (t.val / 21) + r.val) := by
  have ht := N168 t
  rw [Blocks.blk1_apply m c t r, Blocks.V_v2_apply]
  unfold rowCh chosen
  have e0 : (256 * (t.val / 21) + r.val) / 1024 % 2 = (256 * (t.val / 21) + r.val) / 1024 := by have := r.isLt; omega
  by_cases hl : (256 * (t.val / 21) + r.val) % 1024 + 1 < 1024
  · rw [dif_pos hl, dif_pos hl]
    congr 2
    funext a
    match a with
    | ⟨0, _⟩ => exact Fin.ext e0.symm
    | ⟨1, _⟩ => rfl
  · rw [dif_neg hl, dif_neg hl]; rfl

/-- The masked and raw lanes of row `r` at point `t` are the row's, as one chunk's update wants them. -/
theorem masked_row (c : Dev nD) (t : Fin cfg0.N) (d : S256x6144.Idx → EReal) (r : Fin 256) (col : Fin 6144) :
    Pay.masked (t.val % 21) (win0_0.fill (grid0.coords t) d (iblk m c 0 t)) r col
      = if h : 6144 * (t.val % 21) + col.val < NV then rowX m c (256 * (t.val / 21) + r.val) ⟨6144 * (t.val % 21) + col.val, h⟩ else ⊥ := by
  unfold Pay.masked
  by_cases h : 6144 * (t.val % 21) + col.val < NV
  · rw [dif_pos h, if_pos h]; exact x0_apply m c t d r col h
  · rw [dif_neg h, if_neg h]

include hx hids in
/-- One chunk's update of the whole block, row by row. -/
theorem step_row (c : Dev nD) (t : Fin cfg0.N) (d : S256x6144.Idx → EReal) (M S W C : Vec Ideal S256x1 .f32) (r : Fin 256) (st : Run)
    (hst : (⟨M (ix2 r 0), S (ix2 r 0), W (ix2 r 0), C (ix2 r 0)⟩ : Run) = st)
    (hI : Inv (rowX m c (256 * (t.val / 21) + r.val)) (rowCh m c (256 * (t.val / 21) + r.val)) (6144 * (t.val % 21)) st) :
    Inv (rowX m c (256 * (t.val / 21) + r.val)) (rowCh m c (256 * (t.val / 21) + r.val)) (6144 * (t.val % 21) + TV)
      ⟨stM (grid0.coords t) (win0_0.fill (grid0.coords t) d (iblk m c 0 t)) M (ix2 r 0),
       stS (grid0.coords t) (win0_0.fill (grid0.coords t) d (iblk m c 0 t)) M S (ix2 r 0),
       stW (grid0.coords t) (win0_0.fill (grid0.coords t) d (iblk m c 0 t)) M W (ix2 r 0),
       stC (grid0.coords t) (win0_0.fill (grid0.coords t) d (iblk m c 0 t)) (iblk m c 1 t) C (ix2 r 0)⟩ := by
  have ht := N168 t
  have hk : ((grid0.coords t) 1).val = t.val % 21 := Blocks.coord1 t
  have hch : rowCh m c (256 * (t.val / 21) + r.val) < NV := rowCh_lt m hids c _
  have hch' : rowCh m c (256 * (t.val / 21) + r.val) < 128256 := hch
  have hx1 := x1_apply m c t r
  have hlt : ((iblk m c 1 t : S256x1.Idx → BitVec 32) (ix2 r 0)).toNat < 128256 := hx1 ▸ hch'
  have e := Pay.step_apply (grid0.coords t) (win0_0.fill (grid0.coords t) d (iblk m c 0 t)) (iblk m c 1 t) M S W C r
    (by
      have h1 := BitVec.toInt_eq_toNat_cond ((iblk m c 1 t : S256x1.Idx → BitVec 32) (ix2 r 0))
      constructor <;> (split_ifs at h1 <;> omega))
  unfold stM stS stW stC
  rw [e, hst, hk, hx1]
  exact inv_step _ (rowX_real m hx c _) _ hch _ (by show 6144 * (t.val % 21) < 128256; omega) _ hI _ _ (fun col => masked_row m c t d r col) (fun col h => x0_apply m c t d r col h)

/-! ## The invariant from point to point, and the outputs at a block's last chunk -/

include hx hids in
theorem inv_mid (c : Dev nD) (t : Fin cfg0.N) (h0 : t.val % 21 ≠ 0) (h20 : t.val % 21 ≠ 20) (d : S256x6144.Idx → EReal)
    (M S W C : Vec Ideal S256x1 .f32) (hI : InvAt m c t.val M S W C) :
    InvAt m c (t.val + 1) (stM (grid0.coords t) (win0_0.fill (grid0.coords t) d (iblk m c 0 t)) M) (stS (grid0.coords t) (win0_0.fill (grid0.coords t) d (iblk m c 0 t)) M S) (stW (grid0.coords t) (win0_0.fill (grid0.coords t) d (iblk m c 0 t)) M W) (stC (grid0.coords t) (win0_0.fill (grid0.coords t) d (iblk m c 0 t)) (iblk m c 1 t) C) := by
  rcases hI with h | hI
  · exact absurd h h0
  · right; intro r
    have h1 : (t.val + 1) % 21 = t.val % 21 + 1 := by omega
    have h2 : (t.val + 1) / 21 = t.val / 21 := by omega
    rw [h1, h2, Nat.mul_succ]
    exact step_row m hx hids c t d M S W C r _ rfl (hI r)

include hx hids in
theorem inv_first (c : Dev nD) (t : Fin cfg0.N) (h0 : t.val % 21 = 0) (d : S256x6144.Idx → EReal) :
    InvAt m c (t.val + 1) (stM (grid0.coords t) (win0_0.fill (grid0.coords t) d (iblk m c 0 t)) (k0_pay7 (F := Ideal))) (stS (grid0.coords t) (win0_0.fill (grid0.coords t) d (iblk m c 0 t)) (k0_pay7 (F := Ideal)) (k0_pay8 (F := Ideal))) (stW (grid0.coords t) (win0_0.fill (grid0.coords t) d (iblk m c 0 t)) (k0_pay7 (F := Ideal)) (k0_pay9 (F := Ideal))) (stC (grid0.coords t) (win0_0.fill (grid0.coords t) d (iblk m c 0 t)) (iblk m c 1 t) (k0_pay10 (F := Ideal))) := by
  right; intro r
  have h1 : (t.val + 1) % 21 = 1 := by omega
  have h2 : (t.val + 1) / 21 = t.val / 21 := by omega
  have e : 6144 * 1 = 6144 * (t.val % 21) + TV := by rw [h0]; norm_num [TV]
  rw [h1, h2, e]
  exact step_row m hx hids c t d (k0_pay7 (F := Ideal)) (k0_pay8 (F := Ideal)) (k0_pay9 (F := Ideal)) (k0_pay10 (F := Ideal)) r start (Pay.reset_apply r) (by rw [h0]; exact inv_start _ _)

theorem inv_last (c : Dev nD) (t : Fin cfg0.N) (h20 : t.val % 21 = 20) (M S W C : Vec Ideal S256x1 .f32) : InvAt m c (t.val + 1) M S W C :=
  Or.inl (by omega)

include hx hids in
theorem out2_last (c : Dev nD) (t : Fin cfg0.N) (h20 : t.val % 21 = 20) (d : S256x6144.Idx → EReal)
    (M S W C : Vec Ideal S256x1 .f32) (hI : InvAt m c t.val M S W C) :
    k0_pay5 (stS (grid0.coords t) (win0_0.fill (grid0.coords t) d (iblk m c 0 t)) M S) (stC (grid0.coords t) (win0_0.fill (grid0.coords t) d (iblk m c 0 t)) (iblk m c 1 t) C) (stM (grid0.coords t) (win0_0.fill (grid0.coords t) d (iblk m c 0 t)) M) = (dats m 0 c).after 2 t := by
  have ht := N168 t
  rcases hI with h | hI
  · omega
  rw [after_2]; funext j
  obtain ⟨r, q, rfl⟩ : ∃ (r : Fin 256) (q : Fin 1), j = ix2 r q := ⟨j 0, j 1, eq_ix2 j⟩
  obtain rfl : q = 0 := Subsingleton.elim _ _
  have hR : 256 * (t.val / 21) + r.val < 2048 := by have := r.isLt; omega
  have hst := step_row m hx hids c t d M S W C r _ rfl (hI r)
  rw [Pay.out_logp_apply _ _ _ (stW (grid0.coords t) (win0_0.fill (grid0.coords t) d (iblk m c 0 t)) M W (ix2 r 0)) r,
    outLogp_eq _ (rowX_real m hx c _) _ (rowCh_lt m hids c _) _ (by rw [h20]; norm_num [NV, TV]) _ hst]
  show _ = lsmAt (rowX m c ((256 * (t.val / 21) + r.val) % 2048)) (rowCh m c ((256 * (t.val / 21) + r.val) % 2048))
  rw [Nat.mod_eq_of_lt hR]; unfold lsmAt; rw [dif_pos (rowCh_lt m hids c _)]

include hx hids in
theorem out3_last (c : Dev nD) (t : Fin cfg0.N) (h20 : t.val % 21 = 20) (d : S256x6144.Idx → EReal)
    (M S W C : Vec Ideal S256x1 .f32) (hI : InvAt m c t.val M S W C) :
    k0_pay6 (stS (grid0.coords t) (win0_0.fill (grid0.coords t) d (iblk m c 0 t)) M S) (stM (grid0.coords t) (win0_0.fill (grid0.coords t) d (iblk m c 0 t)) M) (stW (grid0.coords t) (win0_0.fill (grid0.coords t) d (iblk m c 0 t)) M W) (stS (grid0.coords t) (win0_0.fill (grid0.coords t) d (iblk m c 0 t)) M S) = (dats m 0 c).after 3 t := by
  have ht := N168 t
  rcases hI with h | hI
  · omega
  rw [after_3]; funext j
  obtain ⟨r, q, rfl⟩ : ∃ (r : Fin 256) (q : Fin 1), j = ix2 r q := ⟨j 0, j 1, eq_ix2 j⟩
  obtain rfl : q = 0 := Subsingleton.elim _ _
  have hR : 256 * (t.val / 21) + r.val < 2048 := by have := r.isLt; omega
  have hst := step_row m hx hids c t d M S W C r _ rfl (hI r)
  rw [Pay.out_ent_apply _ _ _ (stC (grid0.coords t) (win0_0.fill (grid0.coords t) d (iblk m c 0 t)) (iblk m c 1 t) C (ix2 r 0)) r,
    outEnt_eq _ (rowX_real m hx c _) _ (rowCh_lt m hids c _) _ (by rw [h20]; norm_num [NV, TV]) _ hst]
  show _ = entropy (rowX m c ((256 * (t.val / 21) + r.val) % 2048))
  rw [Nat.mod_eq_of_lt hR]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-- The two conditionals in closed form over the grid. -/
theorem hcondFirst : ∀ t : Fin cfg0.N, condFirst (grid0.coords t) ↔ t.val % 21 = 0 :=
  (by decide +kernel : ∀ t : Fin grid0.N, condFirst (grid0.coords t) ↔ t.val % 21 = 0)
theorem hcondLast : ∀ t : Fin cfg0.N, condLast (grid0.coords t) ↔ t.val % 21 = 20 :=
  (by decide +kernel : ∀ t : Fin grid0.N, condLast (grid0.coords t) ↔ t.val % 21 = 20)
/-- The outputs are idle (nothing stored) away from a block's last chunk, live there. -/
theorem idle2 : ∀ t : Fin cfg0.N, t.val % 21 ≠ 20 → cfg0.idle 2 (grid0.coords t) = true := by decide +kernel
theorem idle3 : ∀ t : Fin cfg0.N, t.val % 21 ≠ 20 → cfg0.idle 3 (grid0.coords t) = true := by decide +kernel
theorem live2 : ∀ t : Fin cfg0.N, t.val % 21 = 20 → cfg0.idle 2 (grid0.coords t) = false := by decide +kernel
theorem live3 : ∀ t : Fin cfg0.N, t.val % 21 = 20 → cfg0.idle 3 (grid0.coords t) = false := by decide +kernel

/-- The scores' buffer as the body finds it: just fetched — the block inside the array, anything past its end. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
/-- The token ids' buffer holds its block at every point. -/
theorem before_1 (c : Dev nD) (t : Fin cfg0.N) (d) : (dats m 0 c).before 1 t d = iblk m c 1 t :=
  before0_1_of m (dats m 0 c) (A_eq m c 1) (after_1 m c) t d

/-- What the windows' buffers are left at, by the kind of point. -/
theorem leaves_0 (c : Dev nD) (t : Fin cfg0.N) : (dats m 0 c).leaves 0 t
    = iprop(∃ d, owns (c : Thread nD τ) (st0_0 t) fullShare (win0_0.fill (grid0.coords t) d (win0_0.cut (grid0.coords t) ((dats m 0 c).after 0 t)))) := rfl
theorem leaves_1 (c : Dev nD) (t : Fin cfg0.N) : (dats m 0 c).leaves 1 t = owns (c : Thread nD τ) (st0_1 t) fullShare ((dats m 0 c).after 1 t) := rfl
theorem leaves_2_idle (c : Dev nD) (t : Fin cfg0.N) (h : t.val % 21 ≠ 20) : (dats m 0 c).leaves 2 t
    = iprop(∃ d, owns (c : Thread nD τ) (st0_2 t) fullShare ((dats m 0 c).before 2 t d)) :=
  Dat.leaves_idle (dats m 0 c) 2 t (idle2 t h) (by rw [Bool.eq_false_iff, Ne, flush0_2 t]; exact h)
theorem leaves_3_idle (c : Dev nD) (t : Fin cfg0.N) (h : t.val % 21 ≠ 20) : (dats m 0 c).leaves 3 t
    = iprop(∃ d, owns (c : Thread nD τ) (st0_3 t) fullShare ((dats m 0 c).before 3 t d)) :=
  Dat.leaves_idle (dats m 0 c) 3 t (idle3 t h) (by rw [Bool.eq_false_iff, Ne, flush0_3 t]; exact h)
theorem leaves_2_live (c : Dev nD) (t : Fin cfg0.N) (h : t.val % 21 = 20) : (dats m 0 c).leaves 2 t
    = owns (c : Thread nD τ) (st0_2 t) fullShare ((dats m 0 c).after 2 t) := by
  unfold Dat.leaves; rw [live2 t h]
theorem leaves_3_live (c : Dev nD) (t : Fin cfg0.N) (h : t.val % 21 = 20) : (dats m 0 c).leaves 3 t
    = owns (c : Thread nD τ) (st0_3 t) fullShare ((dats m 0 c).after 3 t) := by
  unfold Dat.leaves; rw [live3 t h]

include hx hids in
theorem sound_mid (c : Dev nD) (t : Fin cfg0.N) (h0 : t.val % 21 ≠ 0) (h20 : t.val % 21 ≠ 20) :
    bodyPre m c t ⊢ wp frame (wpE (defs₀ (F := Ideal)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiI m c (t.val + 1) from rfl, show (dats m 0 c).Φ t.castSucc = PhiI m c t.val from rfl]
  rw [leaves_0, leaves_1, leaves_2_idle m c t h20, leaves_3_idle m c t h20, after_0, after_1]
  unfold PhiI
  iintro ⟨⟨%M, %S, %W, %C, %hI, ⟨HS0, HS1, HS2, HS3⟩, Hg⟩, Ho, ⟨%d0, H0⟩, ⟨%d1, H1⟩, ⟨%d2, H2⟩, ⟨%d3, H3⟩⟩
  iapply ((runMid c (grid0.coords t) _ _ _ _ _ _ _ _ _ _ _ _ _ _ _ _ (fun h => h0 ((hcondFirst t).mp h)) (fun h => h20 ((hcondLast t).mp h)) (win0_0.fill (grid0.coords t) d0 (iblk m c 0 t)) (iblk m c 1 t) M S W C).2.2.2.2 _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, ⟨%e0, HS0⟩, ⟨%e1, HS1⟩, ⟨%e2, HS2⟩, ⟨%e3, HS3⟩⟩
  isplitl [HS0 HS1 HS2 HS3 Hg]
  · iexists _, _, _, _
    isplitr; · ipureintro; exact inv_mid m hx hids c t h0 h20 d0 M S W C hI
    isplitl [HS0 HS1 HS2 HS3]
    · isplitl [HS0]
      · unfold owns; iexists _; isplitr
        swap; · iexact HS0
        ipureintro; exact mid_m c (grid0.coords t) _ _ _ _ _ _ _ _ _ _ _ _ _ _ _ _ (fun h => h0 ((hcondFirst t).mp h)) (fun h => h20 ((hcondLast t).mp h)) (win0_0.fill (grid0.coords t) d0 (iblk m c 0 t)) (iblk m c 1 t) M S W C _
      isplitl [HS1]
      · unfold owns; iexists _; isplitr
        swap; · iexact HS1
        ipureintro; exact mid_s c (grid0.coords t) _ _ _ _ _ _ _ _ _ _ _ _ _ _ _ _ (fun h => h0 ((hcondFirst t).mp h)) (fun h => h20 ((hcondLast t).mp h)) (win0_0.fill (grid0.coords t) d0 (iblk m c 0 t)) (iblk m c 1 t) M S W C _
      isplitl [HS2]
      · unfold owns; iexists _; isplitr
        swap; · iexact HS2
        ipureintro; exact mid_w c (grid0.coords t) _ _ _ _ _ _ _ _ _ _ _ _ _ _ _ _ (fun h => h0 ((hcondFirst t).mp h)) (fun h => h20 ((hcondLast t).mp h)) (win0_0.fill (grid0.coords t) d0 (iblk m c 0 t)) (iblk m c 1 t) M S W C _
      · unfold owns; iexists _; isplitr
        swap; · iexact HS3
        ipureintro; exact mid_c c (grid0.coords t) _ _ _ _ _ _ _ _ _ _ _ _ _ _ _ _ (fun h => h0 ((hcondFirst t).mp h)) (fun h => h20 ((hcondLast t).mp h)) (win0_0.fill (grid0.coords t) d0 (iblk m c 0 t)) (iblk m c 1 t) M S W C _
    iexact Hg
  isplitl [Ho]; · iexact Ho
  isplitl [H0]
  · iexists d0; rw [Window.cut_fill]; iexact H0
  isplitl [H1]; · iexact H1
  isplitl [H2]; · iexists _; iexact H2
  iexists _; iexact H3

include hx hids in
theorem sound_first (c : Dev nD) (t : Fin cfg0.N) (h0 : t.val % 21 = 0) :
    bodyPre m c t ⊢ wp frame (wpE (defs₀ (F := Ideal)) Variants.none c none) Set.univ (bodyAt0 t) (fun _ => bodyPost m c t) := by
  have h20 : t.val % 21 ≠ 20 := by omega
  unfold bodyPre bodyPost bodyAt0
  simp only [before_0, before_1]
  rw [show (dats m 0 c).owesAt () t.succ = (dats m 0 c).owesAt () t.castSucc from rfl]
  rw [show (dats m 0 c).Φ t.succ = PhiI m c (t.val + 1) from rfl, show (dats m 0 c).Φ t.castSucc = PhiI m c t.val from rfl]
  rw [leaves_0, leaves_1, leaves_2_idle m c t h20, leaves_3_idle m c t h20, after_0, after_1]
  unfold PhiI
  iintro ⟨⟨%M, %S, %W, %C, -, ⟨HS0, HS1, HS2, HS3⟩, Hg⟩, Ho, ⟨%d0, H0⟩, ⟨%d1, H1⟩, ⟨%d2, H2⟩, ⟨%d3, H3⟩⟩
  iapply ((runFirst c (grid0.coords t) _ _ _ _ _ _ _ _ _ _ _ _ _ _ _ _ ((hcondFirst t).mpr h0) (fun h => h20 ((hcondLast t).mp h)) (win0_0.fill (grid0.coords t) d0 (iblk m c 0 t)) (iblk m c 1 t)).2.2.2.2 _ _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  isplitl [HS3]; · iexists _; iexact HS3
  iintro ⟨H0, H1, H2, H3, ⟨%e0, HS0⟩, ⟨%e1, HS1⟩, ⟨%e2, HS2⟩, ⟨%e3, HS3⟩⟩
  isplitl [HS0 HS1 HS2 HS3 Hg]
  · iexists _, _, _, _
    isplitr; · ipureintro; exact inv_first m hx hids c t h0 d0
    isplitl [HS0 HS1 HS2 HS3]
    · isplitl [HS0]
      · unfold owns; iexists _; isplitr
        swap; · iexact HS0
        ipureintro; exact first_m c (grid0.coords t) _ _ _ _ _ _ _ _ _ _ _ _ _ _ _ _ ((hcondFirst t).mpr h0) (fun h => h20 ((hcondLast t).mp h)) (win0_0.fill (grid0.coords t) d0 (iblk m c 0 t)) (iblk m c 1 t) _
      isplitl [HS1]
      · unfold owns; iexists _; isplitr
        swap; · iexact HS1
        ipureintro; exact first_s c (grid0.coords t) _ _ _ _ _ _ _ _ _ _ _ _ _ _ _ _ ((hcondFirst t).mpr h0) (fun h => h20 ((hcondLast t).mp h)) (win0_0.fill (grid0.coords t) d0 (iblk m c 0 t)) (iblk m c 1 t) _
      isplitl [HS2]
      · unfold owns; iexists _; isplitr
        swap; · iexact HS2
        ipureintro; exact first_w c (grid0.coords t) _ _ _ _ _ _ _ _ _ _ _ _ _ _ _ _ ((hcondFirst t).mpr h0) (fun h => h20 ((hcondLast t).mp h)) (win0_0.fill (grid0.coords t) d0 (iblk m c 0 t)) (iblk m c 1 t) _
      · unfold owns; iexists _; isplitr
        swap; · iexact HS3
        ipureintro; exact first_c c (grid0.coords t) _ _ _ _ _ _ _ _ _ _ _ _ _ _ _ _ ((hcondFirst t).mpr h0) (fun h => h20 ((hcondLast t).mp h)) (win0_0.fill (grid0.coords t) d0 (iblk m c 0 t)) (iblk m c 1 t) _
    iexact Hg
  isplitl [Ho]; · iexact Ho
  isplitl [H0]
  · iexists d0; rw [Window.cut_fill]; iexact H0
  isplitl [H1]; · iexact H1
  isplitl [H2]; · iexists _; iexact H2
  iexists _; iexact H3

include hx hids in
theorem sound_last (c : Dev nD) (t : Fin cfg0.N) (h20 : t.val % 21 = 20) :
    bodyPre m c t ⊢ wp frame (wpE (defs₀ (F := Ideal)) Variants.none c none) Set.univ (bodyAt0 t) (fun _ => bodyPost m c t) := by
  have h0 : t.val % 21 ≠ 0 := by omega
  unfold bodyPre bodyPost bodyAt0
  simp only [before_0, before_1]
  rw [show (dats m 0 c).owesAt () t.succ = (dats m 0 c).owesAt () t.castSucc from rfl]
  rw [show (dats m 0 c).Φ t.succ = PhiI m c (t.val + 1) from rfl, show (dats m 0 c).Φ t.castSucc = PhiI m c t.val from rfl]
  rw [leaves_0, leaves_1, leaves_2_live m c t h20, leaves_3_live m c t h20, after_0, after_1]
  unfold PhiI
  iintro ⟨⟨%M, %S, %W, %C, %hI, ⟨HS0, HS1, HS2, HS3⟩, Hg⟩, Ho, ⟨%d0, H0⟩, ⟨%d1, H1⟩, ⟨%d2, H2⟩, ⟨%d3, H3⟩⟩
  iapply ((runLast c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C).2.2.2.2.2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  iintro ⟨H0, H1, ⟨%e4, H2⟩, ⟨%e5, H3⟩, ⟨%e0, HS0⟩, ⟨%e1, HS1⟩, ⟨%e2, HS2⟩, ⟨%e3, HS3⟩⟩
  isplitl [HS0 HS1 HS2 HS3 Hg]
  · iexists (stM (grid0.coords t) (win0_0.fill (grid0.coords t) d0 (iblk m c 0 t)) M), (stS (grid0.coords t) (win0_0.fill (grid0.coords t) d0 (iblk m c 0 t)) M S), (stW (grid0.coords t) (win0_0.fill (grid0.coords t) d0 (iblk m c 0 t)) M W), (stC (grid0.coords t) (win0_0.fill (grid0.coords t) d0 (iblk m c 0 t)) (iblk m c 1 t) C)
    isplitr; · ipureintro; exact inv_last m c t h20 _ _ _ _
    isplitl [HS0 HS1 HS2 HS3]
    · isplitl [HS0]
      · unfold owns; iexists _; isplitr
        swap; · iexact HS0
        ipureintro; exact last_m c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C _
      isplitl [HS1]
      · unfold owns; iexists _; isplitr
        swap; · iexact HS1
        ipureintro; exact last_s c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C _
      isplitl [HS2]
      · unfold owns; iexists _; isplitr
        swap; · iexact HS2
        ipureintro; exact last_w c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C _
      · unfold owns; iexists _; isplitr
        swap; · iexact HS3
        ipureintro; exact last_c c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C _
    iexact Hg
  isplitl [Ho]; · iexact Ho
  isplitl [H0]
  · iexists d0; rw [Window.cut_fill]; iexact H0
  isplitl [H1]; · iexact H1
  isplitl [H2]
  · unfold owns; iexists _; isplitr
    swap; · iexact H2
    ipureintro; exact (last_out4 c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C _).trans (out2_last m hx hids c t h20 d0 M S W C hI)
  · unfold owns; iexists _; isplitr
    swap; · iexact H3
    ipureintro; exact (last_out5 c (grid0.coords t) _ _ _ _ _ _ _ _ _ _ _ _ _ _ _ _ (fun h => h0 ((hcondFirst t).mp h)) ((hcondLast t).mpr h20) (win0_0.fill (grid0.coords t) d0 (iblk m c 0 t)) (iblk m c 1 t) M S W C _).trans (out3_last m hx hids c t h20 d0 M S W C hI)

include hx hids in
theorem sound_body (c : Dev nD) (t : Fin cfg0.N) :
    bodyPre m c t ⊢ wp frame (wpE (defs₀ (F := Ideal)) Variants.none c none) Set.univ (bodyAt0 t) (fun _ => bodyPost m c t) := by
  by_cases h0 : t.val % 21 = 0
  · exact sound_first m hx hids c t h0
  · by_cases h20 : t.val % 21 = 20
    · exact sound_last m hx hids c t h20
    · exact sound_mid m hx hids c t h0 h20

include hx hids in
theorem body_obligation (c : Dev nD) : BodyObligationLoose (dats m 0 c) (defs₀ (F := Ideal)) Variants.none () Set.univ := fun t => by
  rw [bigSep_W0, bigSep_W0]
  exact sound_body m hx hids c t

/-! ## The run -/

include hx hids in
set_option backward.isDefEq.respectTransparency.types false in
theorem run_main : θ_run defs (onTc (τ := τ) (main (F := Ideal))) (s₀ m ρ) (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around_track cfgs (dats m) (0 : Fin 1) launch0 defs₀ Variants.none m ρ main
    (hbody := fun c => body_obligation m hx hids c) (hshare := fun c => (dats m 0 c).share_full fun _ => rfl)
    (howed := fun _ _ => rfl) (V₀ := V0 m) (opss := [hostOps1, hostOps1_1, hostOps1_2, hostOps1_3, hostOps1_4, hostOps1_5, hostOps1_6]) (hsub := sfx_sub) (hfresh := sfx_fresh) (hkeep := sfx_keeps)
    (hmain := hmain m Variants.none) (hA := A_eq m) (hin := hin m) (hout := hout m)

/-! ## The result columns after the run -/

/-- After every write-back the first output array is the log-softmax column, -/
theorem final_2 (c : Dev nD) : ((dats m 0 c).arrAt 2 cfg0.N : S2048x1.Idx → EReal) = G2 m c :=
  Blocks.final2 (F := Ideal) c (dats m 0 c) (G2 m c) (fun t _ => by
    rw [after_2]
    refine Blocks.cut2_eq (F := Ideal) t (fun j : S256x1.Idx => G2 m c (ix2 ⟨(256 * (t.val / 21) + (j 0).val) % 2048, Nat.mod_lt _ (by norm_num)⟩ 0)) (G2 m c) (fun r => ?_)
    have ht := N168 t
    have hR : 256 * (t.val / 21) + r.val < 2048 := by have := r.isLt; omega
    show G2 m c (ix2 ⟨(256 * (t.val / 21) + r.val) % 2048, _⟩ 0) = G2 m c (ix2 ⟨256 * (t.val / 21) + r.val, _⟩ 0)
    congr 2; exact Fin.ext (Nat.mod_eq_of_lt hR))

/-- and the second the entropy column. -/
theorem final_3 (c : Dev nD) : ((dats m 0 c).arrAt 3 cfg0.N : S2048x1.Idx → EReal) = G3 m c :=
  Blocks.final3 (F := Ideal) c (dats m 0 c) (G3 m c) (fun t _ => by
    rw [after_3]
    refine Blocks.cut3_eq (F := Ideal) t (fun j : S256x1.Idx => G3 m c (ix2 ⟨(256 * (t.val / 21) + (j 0).val) % 2048, Nat.mod_lt _ (by norm_num)⟩ 0)) (G3 m c) (fun r => ?_)
    have ht := N168 t
    have hR : 256 * (t.val / 21) + r.val < 2048 := by have := r.isLt; omega
    show G3 m c (ix2 ⟨(256 * (t.val / 21) + r.val) % 2048, _⟩ 0) = G3 m c (ix2 ⟨256 * (t.val / 21) + r.val, _⟩ 0)
    congr 2; exact Fin.ext (Nat.mod_eq_of_lt hR))

include hx hids in
/-- The frame of the idealized kernel program: it runs to the end, nothing faults, its arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hx hids)

end Cert.KernelIdeal.Data

end
-- ==== Proof.KTail.lean ====
/-
  The kernel program's host operations after its one region, as functions of what the region leaves: the two
  per-token arrays it writes (log-probability and entropy, each [2048, 1]) recast to [2, 1024], then the
  clipped-ratio loss, the slice of the log-probabilities, and the two masked entropy averages computed from them
  and from the old log-probabilities, the advantages and the label mask.
-/
import proofs.«430439_j8589934595_1_alg».proof.Proof.Gen.KernelIdeal.Frame
import Idealize.ShloMosaic.Lib.StableHlo.Run

noncomputable section

namespace Cert.KernelIdeal.Tail

open Idealize.ShloMosaic Idealize.ShloMosaic.TcCoe Idealize.SL.Sem
open Idealize.ShloMosaic.StableHlo
open Cert.KernelIdeal Cert.KernelIdeal.Facts₀ Cert.KernelIdeal.Facts
open Cert.KernelIdeal.Gen (hostOps1 hostOps1_1 hostOps1_2 hostOps1_3 hostOps1_4 hostOps1_5 hostOps1_6 V0 V launch0 V_main_arg2 V_main_arg3 V_main_arg4)

variable {F : FTy → Type} [FloatOps F] [Named F] [hK : Cert.KernelIdeal.Facts]

/-- A per-token array [2048, 1] recast to [2, 1024]. -/
def lpOf (g : FVec F S2048x1 .f32) : FVec F S2x1024 .f32 :=
  shapeCast S2x1024 g shapeCasts_S2048x1_S2x1024

/-- The loss: minus the lesser of the advantage-weighted probability ratio and its clipped form, averaged over the
    labelled positions. -/
def kout0 (lp : FVec F S2x1024 .f32) (a2 : FVec F S2x1023 .f32) (a3 : FVec F S2 .f32) (a4 : FVec F S2x1024 .f32) :
    FVec F S_ .f32 :=
  let cst : FVec F S_ .f32 := constant S_ .f32 0x00000000#32
  let p0 : FVec F S_ .f32 := id cst
  let v7 : FVec F S2x1024 .f32 := pad S2x1024 ![0, 0] ![0, 1] ![0, 0] a2 p0 pads_S2x1023_S2x1024_000_010 h_S_
  let v8 : FVec F S2x1024 .f32 := subf lp v7
  let v9 : FVec F S2x1024 .f32 := Host.exp v8
  let v10 : FVec F S2x1 .f32 := broadcastInDim S2x1 ![0] bcast_S2_S2x1_0 a3
  let v11 : FVec F S2x1024 .f32 := broadcastInDim S2x1024 ![0, 1] bcast_S2x1_S2x1024_0_1 v10
  let v12 : FVec F S2x1024 .f32 := mulf v9 v11
  let cst_0 : FVec F S_ .f32 := constant S_ .f32 0x3F4CCCCD#32
  let cst_1 : FVec F S_ .f32 := constant S_ .f32 0x3FA66666#32
  let c0 : FVec F S_ .f32 := id cst_0
  let c1 : FVec F S2x1024 .f32 := broadcastInDim S2x1024 ![] bcast_S_S2x1024 c0
  let c2 : FVec F S2x1024 .f32 := maximumf c1 v9
  let c3 : FVec F S_ .f32 := id cst_1
  let c4 : FVec F S2x1024 .f32 := broadcastInDim S2x1024 ![] bcast_S_S2x1024 c3
  let v13 : FVec F S2x1024 .f32 := minimumf c4 c2
  let v14 : FVec F S2x1024 .f32 := broadcastInDim S2x1024 ![0, 1] bcast_S2x1_S2x1024_0_1 v10
  let v15 : FVec F S2x1024 .f32 := mulf v13 v14
  let v16 : FVec F S2x1024 .f32 := minimumf v12 v15
  let v17 : FVec F S2x1024 .f32 := Host.negf v16
  let v18 : FVec F S2x1023 .f32 := extractStridedSlice S2x1023 ![0, 0] v17 slices_S2x1024_S2x1023_0_0
  let v21 : FVec F S2x1023 .f32 := extractStridedSlice S2x1023 ![0, 1] a4 slices_S2x1024_S2x1023_0_1
  let cst_9 : FVec F S_ .f32 := constant S_ .f32 0x00000000#32
  let v43 : FVec F S_ .f32 := Host.reduceAdd v21 cst_9 reducesTo_S2x1023_S_d0_1 h_S_
  let v44 : FVec F S2x1023 .f32 := mulf v18 v21
  let cst_10 : FVec F S_ .f32 := constant S_ .f32 0x00000000#32
  let v45 : FVec F S_ .f32 := Host.reduceAdd v44 cst_10 reducesTo_S2x1023_S_d0_1 h_S_
  Host.divf v45 v43

/-- The log-probabilities of every position but the last. -/
def kout1 (lp : FVec F S2x1024 .f32) : FVec F S2x1023 .f32 :=
  extractStridedSlice S2x1023 ![0, 0] lp slices_S2x1024_S2x1023_0_0

/-- The entropy averaged over each row's labelled positions. -/
def kout2 (ent : FVec F S2x1024 .f32) (a4 : FVec F S2x1024 .f32) : FVec F S2 .f32 :=
  let v20 : FVec F S2x1023 .f32 := extractStridedSlice S2x1023 ![0, 0] ent slices_S2x1024_S2x1023_0_0
  let v21 : FVec F S2x1023 .f32 := extractStridedSlice S2x1023 ![0, 1] a4 slices_S2x1024_S2x1023_0_1
  let v22 : FVec F S2x1023 .f32 := mulf v20 v21
  let cst_2 : FVec F S_ .f32 := constant S_ .f32 0x00000000#32
  let v23 : FVec F S2 .f32 := Host.reduceAdd v22 cst_2 reducesTo_S2x1023_S2_d1 h_S_
  let cst_3 : FVec F S_ .f32 := constant S_ .f32 0x00000000#32
  let v24 : FVec F S2 .f32 := Host.reduceAdd v21 cst_3 reducesTo_S2x1023_S2_d1 h_S_
  Host.divf v23 v24

/-- The entropy averaged over each row's labelled positions whose running count of labels lies in [4, 100]. -/
def kout3 (ent : FVec F S2x1024 .f32) (a4 : FVec F S2x1024 .f32) : FVec F S2 .f32 :=
  let v20 : FVec F S2x1023 .f32 := extractStridedSlice S2x1023 ![0, 0] ent slices_S2x1024_S2x1023_0_0
  let v21 : FVec F S2x1023 .f32 := extractStridedSlice S2x1023 ![0, 1] a4 slices_S2x1024_S2x1023_0_1
  let cst_4 : FVec F S_ .f32 := constant S_ .f32 0x3F800000#32
  let v26 : FVec F S2x1023 .f32 := broadcastInDim S2x1023 ![] bcast_S_S2x1023 cst_4
  let v27 : IVec S2x1023 1 := cmpf .oeq v21 v26
  let v28 : IVec S2x1023 32 := extui 32 v27 natLt_1_32
  let cc : IVec S_ 32 := constantI S_ 32 0#32
  let cv0 : IVec S_ 32 := broadcastInDim S_ ![] bcast_S_S_ cc
  let v29 : IVec S2x1023 32 := Host.reduceWindow IntOp.addi ![1, 1023] ![1, 1] ![0, 1022] ![0, 0] v28 cv0
    reduceWindows_S2x1023_S2x1023_w1s1p0_0_w1023s1p1022_0 h_S_
  let c_5 : IVec S_ 32 := constantI S_ 32 4#32
  let v30 : IVec S2x1023 32 := broadcastInDim S2x1023 ![] bcast_S_S2x1023 c_5
  let v31 : IVec S2x1023 1 := cmpi .sge v29 v30
  let v32 : IVec S2x1023 1 := andi v27 v31
  let c_6 : IVec S_ 32 := constantI S_ 32 100#32
  let v33 : IVec S2x1023 32 := broadcastInDim S2x1023 ![] bcast_S_S2x1023 c_6
  let v34 : IVec S2x1023 1 := cmpi .sle v29 v33
  let v35 : IVec S2x1023 1 := andi v32 v34
  let v36 : FVec F S2x1023 .f32 := uitofp .f32 v35
  let v37 : FVec F S2x1023 .f32 := mulf v20 v36
  let cst_7 : FVec F S_ .f32 := constant S_ .f32 0x00000000#32
  let v38 : FVec F S2 .f32 := Host.reduceAdd v37 cst_7 reducesTo_S2x1023_S2_d1 h_S_
  let v39 : IVec S2x1023 32 := extui 32 v35 natLt_1_32
  let c_8 : IVec S_ 32 := constantI S_ 32 0#32
  let v40 : IVec S2 32 := Host.reduce IntOp.addi v39 c_8 reducesTo_S2x1023_S2_d1 h_S_
  let v41 : FVec F S2 .f32 := sitofp .f32 v40
  Host.divf v38 v41

variable (m : (ℓ : Loc nD τ sig) → Buf (Elt F) ℓ)

/-- What the region leaves in the arrays of its two output windows, read through the buffers after the region. -/
theorem arr2_read (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_v4_0)
      = (dats 0 c).arrAt 2 cfg0.N :=
  Pipeline.withArrays_arr spec0 launch0.win.arr_inj c _ _ 2

theorem arr3_read (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_v4_1)
      = (dats 0 c).arrAt 3 cfg0.N :=
  Pipeline.withArrays_arr spec0 launch0.win.arr_inj c _ _ 3

/-- The second result: the slice of the recast log-probabilities. -/
theorem tail_v19 (dats : (p : Fin 1) → (c : Dev nD) → Pipeline.Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_v19
      = kout1 (lpOf ((dats 0 c).arrAt 2 cfg0.N)) := by
  unfold Pipeline.afterTail₀
  dsimp only
  simp only [hostOps1, hostOps1_1, hostOps1_2, hostOps1_3, hostOps1_4, hostOps1_5, hostOps1_6, List.flatten_cons, List.flatten_nil,
    List.append_nil, List.cons_append, List.nil_append]
  after_results
  rw [arr2_read m dats c]
  rfl

/-- An argument no window stages and no host operation writes is read as launched. -/
theorem arg2_read (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

theorem arg3_read (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

theorem arg4_read (dats : (p : Fin 1) → (c : Dev nD) → Pipeline.Dat τ (Elt F) Unit ℕ (UR sig nD τ) ℕ (cfgs p) c) (c : Dev nD) :
    Pipeline.withArrays (cfgs 0).spec c (V0 m c) (fun w => (dats 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)

set_option maxHeartbeats 4000000 in
/-- The third result: the masked entropy average, from the recast entropies and the label mask. -/
theorem tail_v25 (dats : (p : Fin 1) → (c : Dev nD) → Pipeline.Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_v25
      = kout2 (lpOf ((dats 0 c).arrAt 3 cfg0.N)) (m ((c : Thread nD τ).loc main_arg4)) := by
  unfold Pipeline.afterTail₀
  dsimp only
  simp only [hostOps1, hostOps1_1, hostOps1_2, hostOps1_3, hostOps1_4, hostOps1_5, hostOps1_6, List.flatten_cons, List.flatten_nil,
    List.append_nil, List.cons_append, List.nil_append]
  after_results_simp
  rw [arr3_read m dats c, arg4_read m dats c]
  rfl

set_option maxHeartbeats 4000000 in
/-- The fourth result: the entropy average over the labelled positions inside the count window. -/
theorem tail_v42 (dats : (p : Fin 1) → (c : Dev nD) → Pipeline.Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_v42
      = kout3 (lpOf ((dats 0 c).arrAt 3 cfg0.N)) (m ((c : Thread nD τ).loc main_arg4)) := by
  unfold Pipeline.afterTail₀
  dsimp only
  simp only [hostOps1, hostOps1_1, hostOps1_2, hostOps1_3, hostOps1_4, hostOps1_5, hostOps1_6, List.flatten_cons, List.flatten_nil,
    List.append_nil, List.cons_append, List.nil_append]
  after_results_simp
  simp only [TRef.ofBuf, TRef.toBuf, cast_eq]
  rw [arr3_read m dats c, arg4_read m dats c]
  rfl

set_option maxHeartbeats 4000000 in
/-- The first result: the loss, from the recast log-probabilities, the old log-probabilities, the advantages and the
    label mask. -/
theorem tail_v46 (dats : (p : Fin 1) → (c : Dev nD) → Pipeline.Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6] c main_v46
      = kout0 (lpOf ((dats 0 c).arrAt 2 cfg0.N)) (m ((c : Thread nD τ).loc main_arg2)) (m ((c : Thread nD τ).loc main_arg3))
          (m ((c : Thread nD τ).loc main_arg4)) := by
  unfold Pipeline.afterTail₀
  dsimp only
  simp only [hostOps1, hostOps1_1, hostOps1_2, hostOps1_3, hostOps1_4, hostOps1_5, hostOps1_6, List.flatten_cons, List.flatten_nil,
    List.append_nil, List.cons_append, List.nil_append]
  after_results_simp
  simp only [TRef.ofBuf, TRef.toBuf, cast_eq]
  rw [arr2_read m dats c, arg2_read m dats c, arg3_read m dats c, arg4_read m dats c]
  rfl

end Cert.KernelIdeal.Tail

end
-- ==== Proof.KReshape.lean ====
/-
  The per-row results laid out per position: the column of 2048 row results, recast as the 2 × 1024 array of positions,
  reads row 1024·b + t at position (b, t); so a column holding each row's picked log-probability, or its entropy, is the
  specification's array.
-/
import proofs.«430439_j8589934595_1_alg».proof.Proof.Gen.KernelIdeal
import proofs.«430439_j8589934595_1_alg».proof.KernelIdeal
import proofs.«430439_j8589934595_1_alg».proof.Proof.Rows
import Idealize.ShloMosaic.Lib.ValueIdx
import Idealize.ShloMosaic.Lib.Pipeline.Value
import Idealize.ShloMosaic.Lib.ValueLayout

noncomputable section

namespace Cert.KernelIdeal.Reshape

open Cert.KernelIdeal Idealize.ShloMosaic Idealize.ShloMosaic.ValueIdx Cert.RowSoftmax

variable [hK : Cert.KernelIdeal.Facts]

/-- A column `[a·b, 1]` recast as `[a, b]` reads, at `(p, q)`, the column's entry `b·p + q`: here for 2 × 1024. -/
theorem reshapeAt {α : Type} (g : S2048x1.Idx → α) (h : S2048x1.ShapeCasts S2x1024) (b : Fin 2) (t : Fin 1024) :
    shapeCast S2x1024 g h (ix2 b t) = g (ix2 ⟨1024 * b.val + t.val, by omega⟩ 0) :=
  shapeCast_apply g h _ _ (by
    rw [Shape.rowMajor_val_two, Shape.rowMajor_val_two]
    show (1024 * b.val + t.val) * 1 + 0 = b.val * 1024 + t.val
    omega)

/-- The same of a column of extended reals, at the program's own shape fact. -/
theorem reshape_apply (g : FVec Ideal S2048x1 .f32) (b : Fin 2) (t : Fin 1024) :
    (shapeCast S2x1024 g Cert.KernelIdeal.Facts₀.shapeCasts_S2048x1_S2x1024 : S2x1024.Idx → EReal) (ix2 b t)
      = g (ix2 ⟨1024 * b.val + t.val, by omega⟩ 0) :=
  reshapeAt g _ b t

/-- The scores of row `R` of the 2048: those of position `(R / 1024, R % 1024)`. -/
def rowX (a0 : Cert.RowSoftmax.Sx.Idx → EReal) (R : ℕ) : Fin 128256 → EReal :=
  Cert.RowSoftmax.scores a0 ⟨R / 1024 % 2, Nat.mod_lt _ (by norm_num)⟩ ⟨R % 1024, Nat.mod_lt _ (by norm_num)⟩

/-- The column chosen in row `R` of the 2048: that of position `(R / 1024, R % 1024)`. -/
def rowCh (a1 : Cert.RowSoftmax.Sp.Idx → BitVec 32) (R : ℕ) : ℕ :=
  Cert.RowSoftmax.chosen a1 ⟨R / 1024 % 2, Nat.mod_lt _ (by norm_num)⟩ ⟨R % 1024, Nat.mod_lt _ (by norm_num)⟩

/-- Row `1024·b + t` is position `(b, t)`: its scores … -/
theorem rowX_at (a0 : Cert.RowSoftmax.Sx.Idx → EReal) (b : Fin 2) (t : Fin 1024) :
    rowX a0 (1024 * b.val + t.val) = scores a0 b t := by
  have hb : (⟨(1024 * b.val + t.val) / 1024 % 2, Nat.mod_lt _ (by norm_num)⟩ : Fin 2) = b :=
    Fin.ext (by show (1024 * b.val + t.val) / 1024 % 2 = b.val; omega)
  have ht : (⟨(1024 * b.val + t.val) % 1024, Nat.mod_lt _ (by norm_num)⟩ : Fin 1024) = t :=
    Fin.ext (by show (1024 * b.val + t.val) % 1024 = t.val; omega)
  unfold rowX
  rw [hb, ht]

/-- … and its chosen column. -/
theorem rowCh_at (a1 : Cert.RowSoftmax.Sp.Idx → BitVec 32) (b : Fin 2) (t : Fin 1024) :
    rowCh a1 (1024 * b.val + t.val) = chosen a1 b t := by
  have hb : (⟨(1024 * b.val + t.val) / 1024 % 2, Nat.mod_lt _ (by norm_num)⟩ : Fin 2) = b :=
    Fin.ext (by show (1024 * b.val + t.val) / 1024 % 2 = b.val; omega)
  have ht : (⟨(1024 * b.val + t.val) % 1024, Nat.mod_lt _ (by norm_num)⟩ : Fin 1024) = t :=
    Fin.ext (by show (1024 * b.val + t.val) % 1024 = t.val; omega)
  unfold rowCh
  rw [hb, ht]

/-- A column holding each row's log-softmax at its chosen column, recast per position, is the specification's array. -/
theorem logp_reshape (a0 : Cert.RowSoftmax.Sx.Idx → EReal) (a1 : Cert.RowSoftmax.Sp.Idx → BitVec 32) (g : FVec Ideal S2048x1 .f32)
    (hg : ∀ j : S2048x1.Idx, g j = Cert.RowSoftmax.lsmAt (rowX a0 (j 0).val) (rowCh a1 (j 0).val)) :
    shapeCast S2x1024 g Cert.KernelIdeal.Facts₀.shapeCasts_S2048x1_S2x1024 = Cert.RowSoftmax.logpSpec a0 a1 := by
  funext j
  obtain ⟨b, t, rfl⟩ : ∃ (b : Fin 2) (t : Fin 1024), j = ix2 b t := ⟨j 0, j 1, eq_ix2 j⟩
  refine (reshape_apply g b t).trans ?_
  rw [hg]
  show lsmAt (rowX a0 (1024 * b.val + t.val)) (rowCh a1 (1024 * b.val + t.val)) = lsmAt (scores a0 b t) (chosen a1 b t)
  rw [rowX_at, rowCh_at]

/-- A column holding each row's entropy, recast per position, is the specification's array. -/
theorem ent_reshape (a0 : Cert.RowSoftmax.Sx.Idx → EReal) (g : FVec Ideal S2048x1 .f32)
    (hg : ∀ j : S2048x1.Idx, g j = Cert.RowSoftmax.entropy (rowX a0 (j 0).val)) :
    shapeCast S2x1024 g Cert.KernelIdeal.Facts₀.shapeCasts_S2048x1_S2x1024 = Cert.RowSoftmax.entSpec a0 := by
  funext j
  obtain ⟨b, t, rfl⟩ : ∃ (b : Fin 2) (t : Fin 1024), j = ix2 b t := ⟨j 0, j 1, eq_ix2 j⟩
  refine (reshape_apply g b t).trans ?_
  rw [hg]
  show entropy (rowX a0 (1024 * b.val + t.val)) = entropy (scores a0 b t)
  rw [rowX_at]

end Cert.KernelIdeal.Reshape

end
-- ==== Proof.KValue.lean ====
/-
  The idealized kernel program's results: each of its four result buffers ends at the shared host chain applied to the
  per-position log-probabilities and entropies (Rows.lean's two arrays), the arguments unchanged.
-/
import proofs.«430439_j8589934595_1_alg».proof.Proof.KData
import proofs.«430439_j8589934595_1_alg».proof.Proof.KTail
import proofs.«430439_j8589934595_1_alg».proof.Proof.KReshape

set_option maxRecDepth 16384

noncomputable section

namespace Cert.KernelIdeal.Value

open Cert.KernelIdeal Cert.KernelIdeal.Gen Cert.KernelIdeal.Data Cert.RowSoftmax
open Idealize.ShloMosaic Idealize.ShloMosaic.TcCoe Idealize.ShloMosaic.ValueIdx
open Idealize.SL.Sem

variable (m : (ℓ : Loc nD τ sig) → Buf (Elt Ideal) ℓ) (ρ : Dev nD → PrngReg)
variable (hx : ∀ (c : Dev nD) (i : Sx.Idx), ∃ r : ℝ, A0 m c i = (r : EReal))
variable (hids : ∀ (c : Dev nD) (b : Fin 2) (t : Fin 1024), 1 ≤ t.val → 0 ≤ (A1 m c (ix2 b t)).toInt ∧ (A1 m c (ix2 b t)).toInt < 128256)

/-- The first result column, re-laid per position, is the log-probability array; -/
theorem lp_eq (c : Dev nD) : Tail.lpOf (F := Ideal) ((dats m 0 c).arrAt 2 cfg0.N) = logpSpec (A0 m c) (A1 m c) := by
  rw [show ((dats m 0 c).arrAt 2 cfg0.N : S2048x1.Idx → EReal) = G2 m c from final_2 m c]
  exact Reshape.logp_reshape (A0 m c) (A1 m c) (G2 m c) (fun j => rfl)

/-- the second the entropy array. -/
theorem ent_eq (c : Dev nD) : Tail.lpOf (F := Ideal) ((dats m 0 c).arrAt 3 cfg0.N) = entSpec (A0 m c) := by
  rw [show ((dats m 0 c).arrAt 3 cfg0.N : S2048x1.Idx → EReal) = G3 m c from final_3 m c]
  exact Reshape.ent_reshape (A0 m c) (G3 m c) (fun j => rfl)

include hx hids in
theorem run : θ_run defs (onTc (τ := τ) (main (F := Ideal))) ⟨m, fun _ => 0, ρ⟩ (fun r => ∀ c : Dev nD,
      (r.2.mem ((c.tc : Thread nD τ).loc main_v46) = Tail.kout0 (F := Ideal) (logpSpec (A0 m c) (A1 m c)) (m ((c.tc : Thread nD τ).loc main_arg2)) (m ((c.tc : Thread nD τ).loc main_arg3)) (m ((c.tc : Thread nD τ).loc main_arg4))
        ∧ r.2.mem ((c.tc : Thread nD τ).loc main_v19) = Tail.kout1 (F := Ideal) (logpSpec (A0 m c) (A1 m c))
        ∧ r.2.mem ((c.tc : Thread nD τ).loc main_v25) = Tail.kout2 (F := Ideal) (entSpec (A0 m c)) (m ((c.tc : Thread nD τ).loc main_arg4))
        ∧ r.2.mem ((c.tc : Thread nD τ).loc main_v42) = Tail.kout3 (F := Ideal) (entSpec (A0 m c)) (m ((c.tc : Thread nD τ).loc main_arg4)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))) :=
  (θ_run defs _ _).mono (fun r h c =>
    ⟨⟨((h c).2 main_v46 (Pipeline.mem_restRefs_of main_v46 (by decide) (by decide))).trans ((Tail.tail_v46 m (dats m) c).trans (by rw [lp_eq])),
      ((h c).2 main_v19 (Pipeline.mem_restRefs_of main_v19 (by decide) (by decide))).trans ((Tail.tail_v19 m (dats m) c).trans (by rw [lp_eq])),
      ((h c).2 main_v25 (Pipeline.mem_restRefs_of main_v25 (by decide) (by decide))).trans ((Tail.tail_v25 m (dats m) c).trans (by rw [ent_eq])),
      ((h c).2 main_v42 (Pipeline.mem_restRefs_of main_v42 (by decide) (by decide))).trans ((Tail.tail_v42 m (dats m) c).trans (by rw [ent_eq]))⟩,
     ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩⟩)
    (run_main m ρ hx hids)

end Cert.KernelIdeal.Value

end
-- ==== Proof.RefTerms.lean ====
/-
  The values the reference program computes, as terms over its inputs: the next-token indices (the token array
  shifted left by one position, the last column filled with 0), the log-softmax of the scores along the
  vocabulary axis, the log-probability picked at those indices, and the entropy of the softmax — each the
  program's own operations applied in its own order.
-/
import proofs.«430439_j8589934595_1_alg».proof.ReferenceIdeal
import proofs.«430439_j8589934595_1_alg».proof.Proof.Gen.ReferenceIdeal

noncomputable section

namespace Cert.ReferenceIdeal.RefRun

open Idealize.ShloMosaic Idealize.SL.Sem
open Cert.ReferenceIdeal Cert.ReferenceIdeal.Facts₀ Cert.ReferenceIdeal.Facts

variable {F : FTy → Type} [FloatOps F] [hR : Cert.ReferenceIdeal.Facts]

/-- The next-token indices: columns 1 … 1023 of the tokens, then one column of the constant 0 appended. -/
def idsTerm (a1 : IVec S2x1024 32) : IVec S2x1024 32 :=
  let v0 : IVec S2x1023 32 := extractStridedSlice S2x1023 ![0, 1] a1 slices_S2x1024_S2x1023_0_1
  let c : IVec S_ 32 := constantI S_ 32 0#32
  let p0 : IVec S_ 32 := id c
  pad S2x1024 ![0, 0] ![0, 1] ![0, 0] v0 p0 pads_S2x1023_S2x1024_000_010 h_S_

/-- The log-softmax along the vocabulary axis: the scores less their row maximum, less the logarithm of the
    row sum of the exponentials of that difference. -/
def lsmTerm (a0 : FVec F S2x1024x128256 .f32) : FVec F S2x1024x128256 .f32 :=
  let cst : FVec F S_ .f32 := constant S_ .f32 0xFF800000#32
  let v0 : FVec F S2x1024 .f32 := Host.reduce FloatOps.maximumf a0 cst reducesTo_S2x1024x128256_S2x1024_d2 h_S_
  let cst_0 : FVec F S_ .f32 := constant S_ .f32 0xFF800000#32
  let v1 : FVec F S2x1024 .f32 := broadcastInDim S2x1024 ![] bcast_S_S2x1024 cst_0
  let v2 : FVec F S2x1024 .f32 := maximumf v1 v0
  let v3 : FVec F S2x1024x1 .f32 := broadcastInDim S2x1024x1 ![0, 1] bcast_S2x1024_S2x1024x1_0_1 v2
  let v4 : FVec F S2x1024x128256 .f32 := broadcastInDim S2x1024x128256 ![0, 1, 2] bcast_S2x1024x1_S2x1024x128256_0_1_2 v3
  let v5 : FVec F S2x1024x128256 .f32 := subf a0 v4
  let v6 : FVec F S2x1024x128256 .f32 := Host.exp v5
  let cst_1 : FVec F S_ .f32 := constant S_ .f32 0x00000000#32
  let v7 : FVec F S2x1024 .f32 := Host.reduceAdd v6 cst_1 reducesTo_S2x1024x128256_S2x1024_d2 h_S_
  let v8 : FVec F S2x1024x1 .f32 := broadcastInDim S2x1024x1 ![0, 1] bcast_S2x1024_S2x1024x1_0_1 v7
  let v9 : FVec F S2x1024x1 .f32 := Host.log v8
  let v10 : FVec F S2x1024x128256 .f32 := broadcastInDim S2x1024x128256 ![0, 1, 2] bcast_S2x1024x1_S2x1024x128256_0_1_2 v9
  subf v5 v10

/-- The value picked along the vocabulary axis at the given indices (a negative index counted from the end, an
    index outside the axis answered by the not-a-number constant). -/
def takeTerm (x : FVec F S2x1024x128256 .f32) (i : IVec S2x1024x1 32) : FVec F S2x1024x1 .f32 :=
  let c : IVec S_ 32 := constantI S_ 32 0#32
  let v0 : IVec S2x1024x1 32 := broadcastInDim S2x1024x1 ![] bcast_S_S2x1024x1 c
  let v1 : IVec S2x1024x1 1 := cmpi .slt i v0
  let c_0 : IVec S_ 32 := constantI S_ 32 128256#32
  let v2 : IVec S2x1024x1 32 := broadcastInDim S2x1024x1 ![] bcast_S_S2x1024x1 c_0
  let v3 : IVec S2x1024x1 32 := addi i v2
  let v4 : IVec S2x1024x1 32 := select v1 v3 i
  let v5 : IVec S2x1024x1x1 32 := shapeCast S2x1024x1x1 v4 shapeCasts_S2x1024x1_S2x1024x1x1
  let c_1 : IVec S1 32 := constantI S1 32 128255#32
  let c_2 : IVec S_ 32 := constantI S_ 32 0#32
  let v6 : IVec S2x1024x1x1 32 := broadcastInDim S2x1024x1x1 ![] bcast_S_S2x1024x1x1 c_2
  let v7 : IVec S2x1024x1x1 1 := cmpi .sge v5 v6
  let v8 : IVec S1x1x1x1 32 := broadcastInDim S1x1x1x1 ![3] bcast_S1_S1x1x1x1_3 c_1
  let v9 : IVec S2x1024x1x1 32 := broadcastInDim S2x1024x1x1 ![0, 1, 2, 3] bcast_S1x1x1x1_S2x1024x1x1_0_1_2_3 v8
  let v10 : IVec S2x1024x1x1 1 := cmpi .sle v5 v9
  let v11 : IVec S2x1024x1x1 1 := andi v7 v10
  let c_3 : IVec S_ 1 := constantI S_ 1 1#1
  let v12 : IVec S2x1024x1 1 := Host.reduce IntOp.andi v11 c_3 reducesTo_S2x1024x1x1_S2x1024x1_d3 h_S_
  let v13 : FVec F S2x1024x1 .f32 := Host.gather gather_S2x1024x128256_S2x1024x1x1_S2x1024x1_n_2_01_01_2_3_111 x v5
  let cst : FVec F S_ .f32 := constant S_ .f32 0x7FC00000#32
  let v14 : FVec F S2x1024x1 .f32 := broadcastInDim S2x1024x1 ![] bcast_S_S2x1024x1 cst
  select v12 v13 v14

/-- The log-probability of the next token, per position. -/
def lpTerm (a0 : FVec F S2x1024x128256 .f32) (a1 : IVec S2x1024 32) : FVec F S2x1024 .f32 :=
  let v4 : IVec S2x1024x1 32 := broadcastInDim S2x1024x1 ![0, 1] bcast_S2x1024_S2x1024x1_0_1 (idsTerm a1)
  let v5 : FVec F S2x1024x1 .f32 := takeTerm (lsmTerm a0) v4
  shapeCast S2x1024 v5 shapeCasts_S2x1024x1_S2x1024

/-- The entropy of the softmax, per position: minus the row sum of probability times log-probability. -/
def entTerm (a0 : FVec F S2x1024x128256 .f32) : FVec F S2x1024 .f32 :=
  let v17 : FVec F S2x1024x128256 .f32 := Host.exp (lsmTerm a0)
  let v18 : FVec F S2x1024x128256 .f32 := mulf v17 (lsmTerm a0)
  let cst_2 : FVec F S_ .f32 := constant S_ .f32 0x00000000#32
  let v19 : FVec F S2x1024 .f32 := Host.reduceAdd v18 cst_2 reducesTo_S2x1024x128256_S2x1024_d2 h_S_
  Host.negf v19

end Cert.ReferenceIdeal.RefRun

end
-- ==== Proof.RefRun.lean ====
/-
  The run of the reference program read back: @main (two windows of statements, six calls of module-local functions
  unfolded at their call sites) is a straight line of 108 tensor operations; every weakly fair execution of it
  terminates with the four result buffers at the operations' composed terms of the arguments' launch contents and
  the five argument buffers unchanged. The composed terms are stated through the per-token log-probabilities and
  entropies (`lpTerm`, `entTerm`) and four functions of those (`out0` … `out3`), each the program's own operations
  applied in its own order.
-/
import proofs.«430439_j8589934595_1_alg».proof.ReferenceIdeal
import proofs.«430439_j8589934595_1_alg».proof.Proof.Gen.ReferenceIdeal
import proofs.«430439_j8589934595_1_alg».proof.Proof.RefTerms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [hR : Cert.ReferenceIdeal.Facts]

set_option Elab.async false

/-! ## The tail of the program as functions of the per-token log-probabilities and entropies -/

/-- The old log-probabilities (one per position but the last) with one column of the constant 0 appended. -/
def oldTerm (a2 : FVec F S2x1023 .f32) : FVec F S2x1024 .f32 :=
  let cst : FVec F S_ .f32 := constant S_ .f32 0x00000000#32
  let p0 : FVec F S_ .f32 := id cst
  pad S2x1024 ![0, 0] ![0, 1] ![0, 0] a2 p0 pads_S2x1023_S2x1024_000_010 h_S_

/-- The loss: with r = exp (lp - old) the probability ratio and A the per-row advantage spread along the
    row, minus the smaller of r * A and (r clipped to [0.8, 1.3]) * A, restricted to positions 0 … 1022,
    weighted by the mask (columns 1 … 1023 of a4) and summed over everything, divided by the mask's sum. -/
def out0 (lp : FVec F S2x1024 .f32) (a2 : FVec F S2x1023 .f32) (a3 : FVec F S2 .f32) (a4 : FVec F S2x1024 .f32) :
    FVec F S_ .f32 :=
  let v2 : FVec F S2x1024 .f32 := oldTerm a2
  let v7 : FVec F S2x1024 .f32 := subf lp v2
  let v8 : FVec F S2x1024 .f32 := Host.exp v7
  let v9 : FVec F S2x1 .f32 := broadcastInDim S2x1 ![0] bcast_S2_S2x1_0 a3
  let v10 : FVec F S2x1024 .f32 := broadcastInDim S2x1024 ![0, 1] bcast_S2x1_S2x1024_0_1 v9
  let v11 : FVec F S2x1024 .f32 := mulf v8 v10
  let cst_0 : FVec F S_ .f32 := constant S_ .f32 0x3F4CCCCD#32
  let cst_1 : FVec F S_ .f32 := constant S_ .f32 0x3FA66666#32
  let k0 : FVec F S_ .f32 := id cst_0
  let k1 : FVec F S2x1024 .f32 := broadcastInDim S2x1024 ![] bcast_S_S2x1024 k0
  let k2 : FVec F S2x1024 .f32 := maximumf k1 v8
  let k3 : FVec F S_ .f32 := id cst_1
  let k4 : FVec F S2x1024 .f32 := broadcastInDim S2x1024 ![] bcast_S_S2x1024 k3
  let v12 : FVec F S2x1024 .f32 := minimumf k4 k2
  let v13 : FVec F S2x1024 .f32 := broadcastInDim S2x1024 ![0, 1] bcast_S2x1_S2x1024_0_1 v9
  let v14 : FVec F S2x1024 .f32 := mulf v12 v13
  let v15 : FVec F S2x1024 .f32 := minimumf v11 v14
  let v16 : FVec F S2x1024 .f32 := Host.negf v15
  let v21 : FVec F S2x1023 .f32 := extractStridedSlice S2x1023 ![0, 0] v16 slices_S2x1024_S2x1023_0_0
  let v24 : FVec F S2x1023 .f32 := extractStridedSlice S2x1023 ![0, 1] a4 slices_S2x1024_S2x1023_0_1
  let cst_10 : FVec F S_ .f32 := constant S_ .f32 0x00000000#32
  let v46 : FVec F S_ .f32 := Host.reduceAdd v24 cst_10 reducesTo_S2x1023_S_d0_1 h_S_
  let v47 : FVec F S2x1023 .f32 := mulf v21 v24
  let cst_11 : FVec F S_ .f32 := constant S_ .f32 0x00000000#32
  let v48 : FVec F S_ .f32 := Host.reduceAdd v47 cst_11 reducesTo_S2x1023_S_d0_1 h_S_
  Host.divf v48 v46

/-- The log-probabilities at positions 0 … 1022. -/
def out1 (lp : FVec F S2x1024 .f32) : FVec F S2x1023 .f32 :=
  extractStridedSlice S2x1023 ![0, 0] lp slices_S2x1024_S2x1023_0_0

/-- The masked mean entropy per row: the entropies at positions 0 … 1022 times the mask (columns 1 … 1023 of
    a4), summed along the row, divided by the row sum of the mask. -/
def out2 (ent : FVec F S2x1024 .f32) (a4 : FVec F S2x1024 .f32) : FVec F S2 .f32 :=
  let v23 : FVec F S2x1023 .f32 := extractStridedSlice S2x1023 ![0, 0] ent slices_S2x1024_S2x1023_0_0
  let v24 : FVec F S2x1023 .f32 := extractStridedSlice S2x1023 ![0, 1] a4 slices_S2x1024_S2x1023_0_1
  let v25 : FVec F S2x1023 .f32 := mulf v23 v24
  let cst_3 : FVec F S_ .f32 := constant S_ .f32 0x00000000#32
  let v26 : FVec F S2 .f32 := Host.reduceAdd v25 cst_3 reducesTo_S2x1023_S2_d1 h_S_
  let cst_4 : FVec F S_ .f32 := constant S_ .f32 0x00000000#32
  let v27 : FVec F S2 .f32 := Host.reduceAdd v24 cst_4 reducesTo_S2x1023_S2_d1 h_S_
  Host.divf v26 v27

/-- The mean entropy per row over a band of positions: those where the mask equals 1 and the running count of
    such positions along the row (this one included) lies between 4 and 100; the entropies there summed, divided
    by the number of such positions. -/
def out3 (ent : FVec F S2x1024 .f32) (a4 : FVec F S2x1024 .f32) : FVec F S2 .f32 :=
  let v23 : FVec F S2x1023 .f32 := extractStridedSlice S2x1023 ![0, 0] ent slices_S2x1024_S2x1023_0_0
  let v24 : FVec F S2x1023 .f32 := extractStridedSlice S2x1023 ![0, 1] a4 slices_S2x1024_S2x1023_0_1
  let cst_5 : FVec F S_ .f32 := constant S_ .f32 0x3F800000#32
  let v29 : FVec F S2x1023 .f32 := broadcastInDim S2x1023 ![] bcast_S_S2x1023 cst_5
  let v30 : IVec S2x1023 1 := cmpf .oeq v24 v29
  let v31 : IVec S2x1023 32 := extui 32 v30 natLt_1_32
  let c : IVec S_ 32 := constantI S_ 32 0#32
  let w0 : IVec S_ 32 := broadcastInDim S_ ![] bcast_S_S_ c
  let v32 : IVec S2x1023 32 := Host.reduceWindow IntOp.addi ![1, 1023] ![1, 1] ![0, 1022] ![0, 0] v31 w0 reduceWindows_S2x1023_S2x1023_w1s1p0_0_w1023s1p1022_0 h_S_
  let c_6 : IVec S_ 32 := constantI S_ 32 4#32
  let v33 : IVec S2x1023 32 := broadcastInDim S2x1023 ![] bcast_S_S2x1023 c_6
  let v34 : IVec S2x1023 1 := cmpi .sge v32 v33
  let v35 : IVec S2x1023 1 := andi v30 v34
  let c_7 : IVec S_ 32 := constantI S_ 32 100#32
  let v36 : IVec S2x1023 32 := broadcastInDim S2x1023 ![] bcast_S_S2x1023 c_7
  let v37 : IVec S2x1023 1 := cmpi .sle v32 v36
  let v38 : IVec S2x1023 1 := andi v35 v37
  let v39 : FVec F S2x1023 .f32 := uitofp .f32 v38
  let v40 : FVec F S2x1023 .f32 := mulf v23 v39
  let cst_8 : FVec F S_ .f32 := constant S_ .f32 0x00000000#32
  let v41 : FVec F S2 .f32 := Host.reduceAdd v40 cst_8 reducesTo_S2x1023_S2_d1 h_S_
  let v42 : IVec S2x1023 32 := extui 32 v38 natLt_1_32
  let c_9 : IVec S_ 32 := constantI S_ 32 0#32
  let v43 : IVec S2 32 := Host.reduce IntOp.addi v42 c_9 reducesTo_S2x1023_S2_d1 h_S_
  let v44 : FVec F S2 .f32 := sitofp .f32 v43
  Host.divf v41 v44

/-! ## The program as a list of operations -/

/-- @main's 108 operations as the program spells them: each call's body at its call site, over the call's typed
    references. -/
abbrev opsT : List (HloOp τ sig (Elt F)) :=
  [ StableHlo.unary main_arg1 main_v0 ((extractStridedSlice S2x1023 ![0, 1] · slices_S2x1024_S2x1023_0_1) : (⟨S2x1024, .i32⟩ : BufTy).Contents (Elt F) → (⟨S2x1023, .i32⟩ : BufTy).Contents (Elt F)),
    StableHlo.nullary main_c (constantI S_ 32 0#32),
    StableHlo.TRef.unary (.of main_c : StableHlo.TRef sig ⟨S_, .i32⟩) main_call0.v0 id,
    StableHlo.TRef.binary (.of main_v0 : StableHlo.TRef sig ⟨S2x1023, .i32⟩) main_call0.v0 main_call0.v1 (fun x v => pad S2x1024 ![0, 0] ![0, 1] ![0, 0] x v pads_S2x1023_S2x1024_000_010 h_S_),
    StableHlo.nullary main_cst (constant S_ .f32 0x00000000#32),
    StableHlo.TRef.unary (.of main_cst : StableHlo.TRef sig ⟨S_, .f32⟩) main_call1.v0 id,
    StableHlo.TRef.binary (.of main_arg2 : StableHlo.TRef sig ⟨S2x1023, .f32⟩) main_call1.v0 main_call1.v1 (fun x v => pad S2x1024 ![0, 0] ![0, 1] ![0, 0] x v pads_S2x1023_S2x1024_000_010 h_S_),
    StableHlo.TRef.nullary main_call2.cst (constant S_ .f32 0xFF800000#32),
    StableHlo.TRef.binary (.of main_arg0 : StableHlo.TRef sig ⟨S2x1024x128256, .f32⟩) main_call2.cst main_call2.v0 (fun x v => Host.reduce FloatOps.maximumf x v reducesTo_S2x1024x128256_S2x1024_d2 h_S_),
    StableHlo.TRef.nullary main_call2.cst_0 (constant S_ .f32 0xFF800000#32),
    StableHlo.TRef.unary main_call2.cst_0 main_call2.v1 (broadcastInDim S2x1024 ![] bcast_S_S2x1024),
    StableHlo.TRef.binary main_call2.v1 main_call2.v0 main_call2.v2 maximumf,
    StableHlo.TRef.unary main_call2.v2 main_call2.v3 (broadcastInDim S2x1024x1 ![0, 1] bcast_S2x1024_S2x1024x1_0_1),
    StableHlo.TRef.unary main_call2.v3 main_call2.v4 (broadcastInDim S2x1024x128256 ![0, 1, 2] bcast_S2x1024x1_S2x1024x128256_0_1_2),
    StableHlo.TRef.binary (.of main_arg0 : StableHlo.TRef sig ⟨S2x1024x128256, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S2x1024x128256_S2x1024_d2 h_S_),
    StableHlo.TRef.unary main_call2.v7 main_call2.v8 (broadcastInDim S2x1024x1 ![0, 1] bcast_S2x1024_S2x1024x1_0_1),
    StableHlo.TRef.unary main_call2.v8 main_call2.v9 Host.log,
    StableHlo.TRef.unary main_call2.v9 main_call2.v10 (broadcastInDim S2x1024x128256 ![0, 1, 2] bcast_S2x1024x1_S2x1024x128256_0_1_2),
    StableHlo.TRef.binary main_call2.v5 main_call2.v10 main_call2.v11 subf,
    StableHlo.unary main_v1 main_v4 (broadcastInDim S2x1024x1 ![0, 1] bcast_S2x1024_S2x1024x1_0_1 : (⟨S2x1024, .i32⟩ : BufTy).Contents (Elt F) → (⟨S2x1024x1, .i32⟩ : BufTy).Contents (Elt F)),
    StableHlo.TRef.nullary main_call3.c (constantI S_ 32 0#32),
    StableHlo.TRef.unary main_call3.c main_call3.v0 (broadcastInDim S2x1024x1 ![] bcast_S_S2x1024x1),
    StableHlo.TRef.binary (.of main_v4 : StableHlo.TRef sig ⟨S2x1024x1, .i32⟩) main_call3.v0 main_call3.v1 (cmpi .slt),
    StableHlo.TRef.nullary main_call3.c_0 (constantI S_ 32 128256#32),
    StableHlo.TRef.unary main_call3.c_0 main_call3.v2 (broadcastInDim S2x1024x1 ![] bcast_S_S2x1024x1),
    StableHlo.TRef.binary (.of main_v4 : StableHlo.TRef sig ⟨S2x1024x1, .i32⟩) main_call3.v2 main_call3.v3 addi,
    StableHlo.TRef.ternary main_call3.v1 main_call3.v3 (.of main_v4 : StableHlo.TRef sig ⟨S2x1024x1, .i32⟩) main_call3.v4 select,
    StableHlo.TRef.reshape main_call3.v4 main_call3.v5 rfl shapeCasts_S2x1024x1_S2x1024x1x1,
    StableHlo.TRef.nullary main_call3.c_1 (constantI S1 32 128255#32),
    StableHlo.TRef.nullary main_call3.c_2 (constantI S_ 32 0#32),
    StableHlo.TRef.unary main_call3.c_2 main_call3.v6 (broadcastInDim S2x1024x1x1 ![] bcast_S_S2x1024x1x1),
    StableHlo.TRef.binary main_call3.v5 main_call3.v6 main_call3.v7 (cmpi .sge),
    StableHlo.TRef.unary main_call3.c_1 main_call3.v8 (broadcastInDim S1x1x1x1 ![3] bcast_S1_S1x1x1x1_3),
    StableHlo.TRef.unary main_call3.v8 main_call3.v9 (broadcastInDim S2x1024x1x1 ![0, 1, 2, 3] bcast_S1x1x1x1_S2x1024x1x1_0_1_2_3),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S2x1024x1x1_S2x1024x1_d3 h_S_),
    StableHlo.TRef.binary (.of main_v3 : StableHlo.TRef sig ⟨S2x1024x128256, .f32⟩) main_call3.v5 main_call3.v13 (fun x i => Host.gather gather_S2x1024x128256_S2x1024x1x1_S2x1024x1_n_2_01_01_2_3_111 x i),
    StableHlo.TRef.nullary main_call3.cst (constant S_ .f32 0x7FC00000#32),
    StableHlo.TRef.unary main_call3.cst main_call3.v14 (broadcastInDim S2x1024x1 ![] bcast_S_S2x1024x1),
    StableHlo.TRef.ternary main_call3.v12 main_call3.v13 main_call3.v14 main_call3.v15 select,
    StableHlo.reshape main_v5 main_v6 rfl shapeCasts_S2x1024x1_S2x1024,
    StableHlo.binary main_v6 main_v2 main_v7 (subf : (⟨S2x1024, .f32⟩ : BufTy).Contents (Elt F) → (⟨S2x1024, .f32⟩ : BufTy).Contents (Elt F) → (⟨S2x1024, .f32⟩ : BufTy).Contents (Elt F)),
    StableHlo.unary main_v7 main_v8 (Host.exp : (⟨S2x1024, .f32⟩ : BufTy).Contents (Elt F) → (⟨S2x1024, .f32⟩ : BufTy).Contents (Elt F)),
    StableHlo.unary main_arg3 main_v9 (broadcastInDim S2x1 ![0] bcast_S2_S2x1_0 : (⟨S2, .f32⟩ : BufTy).Contents (Elt F) → (⟨S2x1, .f32⟩ : BufTy).Contents (Elt F)),
    StableHlo.unary main_v9 main_v10 (broadcastInDim S2x1024 ![0, 1] bcast_S2x1_S2x1024_0_1 : (⟨S2x1, .f32⟩ : BufTy).Contents (Elt F) → (⟨S2x1024, .f32⟩ : BufTy).Contents (Elt F)),
    StableHlo.binary main_v8 main_v10 main_v11 (mulf : (⟨S2x1024, .f32⟩ : BufTy).Contents (Elt F) → (⟨S2x1024, .f32⟩ : BufTy).Contents (Elt F) → (⟨S2x1024, .f32⟩ : BufTy).Contents (Elt F)),
    StableHlo.nullary main_cst_0 (constant S_ .f32 0x3F4CCCCD#32),
    StableHlo.nullary main_cst_1 (constant S_ .f32 0x3FA66666#32),
    StableHlo.TRef.unary (.of main_cst_0 : StableHlo.TRef sig ⟨S_, .f32⟩) main_call4.v0 id,
    StableHlo.TRef.unary main_call4.v0 main_call4.v1 (broadcastInDim S2x1024 ![] bcast_S_S2x1024),
    StableHlo.TRef.binary main_call4.v1 (.of main_v8 : StableHlo.TRef sig ⟨S2x1024, .f32⟩) main_call4.v2 maximumf,
    StableHlo.TRef.unary (.of main_cst_1 : StableHlo.TRef sig ⟨S_, .f32⟩) main_call4.v3 id,
    StableHlo.TRef.unary main_call4.v3 main_call4.v4 (broadcastInDim S2x1024 ![] bcast_S_S2x1024),
    StableHlo.TRef.binary main_call4.v4 main_call4.v2 main_call4.v5 minimumf,
    StableHlo.unary main_v9 main_v13 (broadcastInDim S2x1024 ![0, 1] bcast_S2x1_S2x1024_0_1 : (⟨S2x1, .f32⟩ : BufTy).Contents (Elt F) → (⟨S2x1024, .f32⟩ : BufTy).Contents (Elt F)),
    StableHlo.binary main_v12 main_v13 main_v14 (mulf : (⟨S2x1024, .f32⟩ : BufTy).Contents (Elt F) → (⟨S2x1024, .f32⟩ : BufTy).Contents (Elt F) → (⟨S2x1024, .f32⟩ : BufTy).Contents (Elt F)),
    StableHlo.binary main_v11 main_v14 main_v15 (minimumf : (⟨S2x1024, .f32⟩ : BufTy).Contents (Elt F) → (⟨S2x1024, .f32⟩ : BufTy).Contents (Elt F) → (⟨S2x1024, .f32⟩ : BufTy).Contents (Elt F)),
    StableHlo.unary main_v15 main_v16 (Host.negf : (⟨S2x1024, .f32⟩ : BufTy).Contents (Elt F) → (⟨S2x1024, .f32⟩ : BufTy).Contents (Elt F)),
    StableHlo.unary main_v3 main_v17 (Host.exp : (⟨S2x1024x128256, .f32⟩ : BufTy).Contents (Elt F) → (⟨S2x1024x128256, .f32⟩ : BufTy).Contents (Elt F)),
    StableHlo.binary main_v17 main_v3 main_v18 (mulf : (⟨S2x1024x128256, .f32⟩ : BufTy).Contents (Elt F) → (⟨S2x1024x128256, .f32⟩ : BufTy).Contents (Elt F) → (⟨S2x1024x128256, .f32⟩ : BufTy).Contents (Elt F)),
    StableHlo.nullary main_cst_2 (constant S_ .f32 0x00000000#32),
    StableHlo.binary main_v18 main_cst_2 main_v19 ((fun x v => Host.reduceAdd x v reducesTo_S2x1024x128256_S2x1024_d2 h_S_) : (⟨S2x1024x128256, .f32⟩ : BufTy).Contents (Elt F) → (⟨S_, .f32⟩ : BufTy).Contents (Elt F) → (⟨S2x1024, .f32⟩ : BufTy).Contents (Elt F)),
    StableHlo.unary main_v19 main_v20 (Host.negf : (⟨S2x1024, .f32⟩ : BufTy).Contents (Elt F) → (⟨S2x1024, .f32⟩ : BufTy).Contents (Elt F)),
    StableHlo.unary main_v16 main_v21 ((extractStridedSlice S2x1023 ![0, 0] · slices_S2x1024_S2x1023_0_0) : (⟨S2x1024, .f32⟩ : BufTy).Contents (Elt F) → (⟨S2x1023, .f32⟩ : BufTy).Contents (Elt F)),
    StableHlo.unary main_v6 main_v22 ((extractStridedSlice S2x1023 ![0, 0] · slices_S2x1024_S2x1023_0_0) : (⟨S2x1024, .f32⟩ : BufTy).Contents (Elt F) → (⟨S2x1023, .f32⟩ : BufTy).Contents (Elt F)),
    StableHlo.unary main_v20 main_v23 ((extractStridedSlice S2x1023 ![0, 0] · slices_S2x1024_S2x1023_0_0) : (⟨S2x1024, .f32⟩ : BufTy).Contents (Elt F) → (⟨S2x1023, .f32⟩ : BufTy).Contents (Elt F)),
    StableHlo.unary main_arg4 main_v24 ((extractStridedSlice S2x1023 ![0, 1] · slices_S2x1024_S2x1023_0_1) : (⟨S2x1024, .f32⟩ : BufTy).Contents (Elt F) → (⟨S2x1023, .f32⟩ : BufTy).Contents (Elt F)),
    StableHlo.binary main_v23 main_v24 main_v25 (mulf : (⟨S2x1023, .f32⟩ : BufTy).Contents (Elt F) → (⟨S2x1023, .f32⟩ : BufTy).Contents (Elt F) → (⟨S2x1023, .f32⟩ : BufTy).Contents (Elt F)),
    StableHlo.nullary main_cst_3 (constant S_ .f32 0x00000000#32),
    StableHlo.binary main_v25 main_cst_3 main_v26 ((fun x v => Host.reduceAdd x v reducesTo_S2x1023_S2_d1 h_S_) : (⟨S2x1023, .f32⟩ : BufTy).Contents (Elt F) → (⟨S_, .f32⟩ : BufTy).Contents (Elt F) → (⟨S2, .f32⟩ : BufTy).Contents (Elt F)),
    StableHlo.nullary main_cst_4 (constant S_ .f32 0x00000000#32),
    StableHlo.binary main_v24 main_cst_4 main_v27 ((fun x v => Host.reduceAdd x v reducesTo_S2x1023_S2_d1 h_S_) : (⟨S2x1023, .f32⟩ : BufTy).Contents (Elt F) → (⟨S_, .f32⟩ : BufTy).Contents (Elt F) → (⟨S2, .f32⟩ : BufTy).Contents (Elt F)),
    StableHlo.binary main_v26 main_v27 main_v28 (Host.divf : (⟨S2, .f32⟩ : BufTy).Contents (Elt F) → (⟨S2, .f32⟩ : BufTy).Contents (Elt F) → (⟨S2, .f32⟩ : BufTy).Contents (Elt F)),
    StableHlo.nullary main_cst_5 (constant S_ .f32 0x3F800000#32),
    StableHlo.unary main_cst_5 main_v29 (broadcastInDim S2x1023 ![] bcast_S_S2x1023 : (⟨S_, .f32⟩ : BufTy).Contents (Elt F) → (⟨S2x1023, .f32⟩ : BufTy).Contents (Elt F)),
    StableHlo.binary main_v24 main_v29 main_v30 (cmpf .oeq : (⟨S2x1023, .f32⟩ : BufTy).Contents (Elt F) → (⟨S2x1023, .f32⟩ : BufTy).Contents (Elt F) → (⟨S2x1023, .i1⟩ : BufTy).Contents (Elt F)),
    StableHlo.unary main_v30 main_v31 ((extui 32 · natLt_1_32) : (⟨S2x1023, .i1⟩ : BufTy).Contents (Elt F) → (⟨S2x1023, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v31 : StableHlo.TRef sig ⟨S2x1023, .i32⟩) main_call5.call0.v0 main_call5.call0.v1 (fun x v => Host.reduceWindow IntOp.addi ![1, 1023] ![1, 1] ![0, 1022] ![0, 0] x v reduceWindows_S2x1023_S2x1023_w1s1p0_0_w1023s1p1022_0 h_S_),
    StableHlo.nullary main_c_6 (constantI S_ 32 4#32),
    StableHlo.unary main_c_6 main_v33 (broadcastInDim S2x1023 ![] bcast_S_S2x1023 : (⟨S_, .i32⟩ : BufTy).Contents (Elt F) → (⟨S2x1023, .i32⟩ : BufTy).Contents (Elt F)),
    StableHlo.binary main_v32 main_v33 main_v34 (cmpi .sge : (⟨S2x1023, .i32⟩ : BufTy).Contents (Elt F) → (⟨S2x1023, .i32⟩ : BufTy).Contents (Elt F) → (⟨S2x1023, .i1⟩ : BufTy).Contents (Elt F)),
    StableHlo.binary main_v30 main_v34 main_v35 (andi : (⟨S2x1023, .i1⟩ : BufTy).Contents (Elt F) → (⟨S2x1023, .i1⟩ : BufTy).Contents (Elt F) → (⟨S2x1023, .i1⟩ : BufTy).Contents (Elt F)),
    StableHlo.nullary main_c_7 (constantI S_ 32 100#32),
    StableHlo.unary main_c_7 main_v36 (broadcastInDim S2x1023 ![] bcast_S_S2x1023 : (⟨S_, .i32⟩ : BufTy).Contents (Elt F) → (⟨S2x1023, .i32⟩ : BufTy).Contents (Elt F)),
    StableHlo.binary main_v32 main_v36 main_v37 (cmpi .sle : (⟨S2x1023, .i32⟩ : BufTy).Contents (Elt F) → (⟨S2x1023, .i32⟩ : BufTy).Contents (Elt F) → (⟨S2x1023, .i1⟩ : BufTy).Contents (Elt F)),
    StableHlo.binary main_v35 main_v37 main_v38 (andi : (⟨S2x1023, .i1⟩ : BufTy).Contents (Elt F) → (⟨S2x1023, .i1⟩ : BufTy).Contents (Elt F) → (⟨S2x1023, .i1⟩ : BufTy).Contents (Elt F)),
    StableHlo.unary main_v38 main_v39 (uitofp .f32 : (⟨S2x1023, .i1⟩ : BufTy).Contents (Elt F) → (⟨S2x1023, .f32⟩ : BufTy).Contents (Elt F)),
    StableHlo.binary main_v23 main_v39 main_v40 (mulf : (⟨S2x1023, .f32⟩ : BufTy).Contents (Elt F) → (⟨S2x1023, .f32⟩ : BufTy).Contents (Elt F) → (⟨S2x1023, .f32⟩ : BufTy).Contents (Elt F)),
    StableHlo.nullary main_cst_8 (constant S_ .f32 0x00000000#32),
    StableHlo.binary main_v40 main_cst_8 main_v41 ((fun x v => Host.reduceAdd x v reducesTo_S2x1023_S2_d1 h_S_) : (⟨S2x1023, .f32⟩ : BufTy).Contents (Elt F) → (⟨S_, .f32⟩ : BufTy).Contents (Elt F) → (⟨S2, .f32⟩ : BufTy).Contents (Elt F)),
    StableHlo.unary main_v38 main_v42 ((extui 32 · natLt_1_32) : (⟨S2x1023, .i1⟩ : BufTy).Contents (Elt F) → (⟨S2x1023, .i32⟩ : BufTy).Contents (Elt F)),
    StableHlo.nullary main_c_9 (constantI S_ 32 0#32),
    StableHlo.binary main_v42 main_c_9 main_v43 ((fun x v => Host.reduce IntOp.addi x v reducesTo_S2x1023_S2_d1 h_S_) : (⟨S2x1023, .i32⟩ : BufTy).Contents (Elt F) → (⟨S_, .i32⟩ : BufTy).Contents (Elt F) → (⟨S2, .i32⟩ : BufTy).Contents (Elt F)),
    StableHlo.unary main_v43 main_v44 (sitofp .f32 : (⟨S2, .i32⟩ : BufTy).Contents (Elt F) → (⟨S2, .f32⟩ : BufTy).Contents (Elt F)),
    StableHlo.binary main_v41 main_v44 main_v45 (Host.divf : (⟨S2, .f32⟩ : BufTy).Contents (Elt F) → (⟨S2, .f32⟩ : BufTy).Contents (Elt F) → (⟨S2, .f32⟩ : BufTy).Contents (Elt F)),
    StableHlo.nullary main_cst_10 (constant S_ .f32 0x00000000#32),
    StableHlo.binary main_v24 main_cst_10 main_v46 ((fun x v => Host.reduceAdd x v reducesTo_S2x1023_S_d0_1 h_S_) : (⟨S2x1023, .f32⟩ : BufTy).Contents (Elt F) → (⟨S_, .f32⟩ : BufTy).Contents (Elt F) → (⟨S_, .f32⟩ : BufTy).Contents (Elt F)),
    StableHlo.binary main_v21 main_v24 main_v47 (mulf : (⟨S2x1023, .f32⟩ : BufTy).Contents (Elt F) → (⟨S2x1023, .f32⟩ : BufTy).Contents (Elt F) → (⟨S2x1023, .f32⟩ : BufTy).Contents (Elt F)),
    StableHlo.nullary main_cst_11 (constant S_ .f32 0x00000000#32),
    StableHlo.binary main_v47 main_cst_11 main_v48 ((fun x v => Host.reduceAdd x v reducesTo_S2x1023_S_d0_1 h_S_) : (⟨S2x1023, .f32⟩ : BufTy).Contents (Elt F) → (⟨S_, .f32⟩ : BufTy).Contents (Elt F) → (⟨S_, .f32⟩ : BufTy).Contents (Elt F)),
    StableHlo.binary main_v48 main_v46 main_v49 (Host.divf : (⟨S_, .f32⟩ : BufTy).Contents (Elt F) → (⟨S_, .f32⟩ : BufTy).Contents (Elt F) → (⟨S_, .f32⟩ : BufTy).Contents (Elt F)) ]

/-- The same 108 operations over the bare references, each function at its operands' and result's types. -/
abbrev ops : List (HloOp τ sig (Elt F)) :=
  [ StableHlo.unary main_arg1 main_v0 ((extractStridedSlice S2x1023 ![0, 1] · slices_S2x1024_S2x1023_0_1) : (⟨S2x1024, .i32⟩ : BufTy).Contents (Elt F) → (⟨S2x1023, .i32⟩ : BufTy).Contents (Elt F)),
    StableHlo.nullary main_c (constantI S_ 32 0#32),
    StableHlo.unary main_c main_call0_v0 (id : (⟨S_, .i32⟩ : BufTy).Contents (Elt F) → (⟨S_, .i32⟩ : BufTy).Contents (Elt F)),
    StableHlo.binary main_v0 main_call0_v0 main_v1 ((fun x v => pad S2x1024 ![0, 0] ![0, 1] ![0, 0] x v pads_S2x1023_S2x1024_000_010 h_S_) : (⟨S2x1023, .i32⟩ : BufTy).Contents (Elt F) → (⟨S_, .i32⟩ : BufTy).Contents (Elt F) → (⟨S2x1024, .i32⟩ : BufTy).Contents (Elt F)),
    StableHlo.nullary main_cst (constant S_ .f32 0x00000000#32),
    StableHlo.unary main_cst main_call1_v0 (id : (⟨S_, .f32⟩ : BufTy).Contents (Elt F) → (⟨S_, .f32⟩ : BufTy).Contents (Elt F)),
    StableHlo.binary main_arg2 main_call1_v0 main_v2 ((fun x v => pad S2x1024 ![0, 0] ![0, 1] ![0, 0] x v pads_S2x1023_S2x1024_000_010 h_S_) : (⟨S2x1023, .f32⟩ : BufTy).Contents (Elt F) → (⟨S_, .f32⟩ : BufTy).Contents (Elt F) → (⟨S2x1024, .f32⟩ : BufTy).Contents (Elt F)),
    StableHlo.nullary main_call2_cst ((constant S_ .f32 0xFF800000#32) : (⟨S_, .f32⟩ : BufTy).Contents (Elt F)),
    StableHlo.binary main_arg0 main_call2_cst main_call2_v0 ((fun x v => Host.reduce FloatOps.maximumf x v reducesTo_S2x1024x128256_S2x1024_d2 h_S_) : (⟨S2x1024x128256, .f32⟩ : BufTy).Contents (Elt F) → (⟨S_, .f32⟩ : BufTy).Contents (Elt F) → (⟨S2x1024, .f32⟩ : BufTy).Contents (Elt F)),
    StableHlo.nullary main_call2_cst_0 ((constant S_ .f32 0xFF800000#32) : (⟨S_, .f32⟩ : BufTy).Contents (Elt F)),
    StableHlo.unary main_call2_cst_0 main_call2_v1 ((broadcastInDim S2x1024 ![] bcast_S_S2x1024) : (⟨S_, .f32⟩ : BufTy).Contents (Elt F) → (⟨S2x1024, .f32⟩ : BufTy).Contents (Elt F)),
    StableHlo.binary main_call2_v1 main_call2_v0 main_call2_v2 (maximumf : (⟨S2x1024, .f32⟩ : BufTy).Contents (Elt F) → (⟨S2x1024, .f32⟩ : BufTy).Contents (Elt F) → (⟨S2x1024, .f32⟩ : BufTy).Contents (Elt F)),
    StableHlo.unary main_call2_v2 main_call2_v3 ((broadcastInDim S2x1024x1 ![0, 1] bcast_S2x1024_S2x1024x1_0_1) : (⟨S2x1024, .f32⟩ : BufTy).Contents (Elt F) → (⟨S2x1024x1, .f32⟩ : BufTy).Contents (Elt F)),
    StableHlo.unary main_call2_v3 main_call2_v4 ((broadcastInDim S2x1024x128256 ![0, 1, 2] bcast_S2x1024x1_S2x1024x128256_0_1_2) : (⟨S2x1024x1, .f32⟩ : BufTy).Contents (Elt F) → (⟨S2x1024x128256, .f32⟩ : BufTy).Contents (Elt F)),
    StableHlo.binary main_arg0 main_call2_v4 main_call2_v5 (subf : (⟨S2x1024x128256, .f32⟩ : BufTy).Contents (Elt F) → (⟨S2x1024x128256, .f32⟩ : BufTy).Contents (Elt F) → (⟨S2x1024x128256, .f32⟩ : BufTy).Contents (Elt F)),
    StableHlo.unary main_call2_v5 main_call2_v6 (Host.exp : (⟨S2x1024x128256, .f32⟩ : BufTy).Contents (Elt F) → (⟨S2x1024x128256, .f32⟩ : BufTy).Contents (Elt F)),
    StableHlo.nullary main_call2_cst_1 ((constant S_ .f32 0x00000000#32) : (⟨S_, .f32⟩ : BufTy).Contents (Elt F)),
    StableHlo.binary main_call2_v6 main_call2_cst_1 main_call2_v7 ((fun x v => Host.reduceAdd x v reducesTo_S2x1024x128256_S2x1024_d2 h_S_) : (⟨S2x1024x128256, .f32⟩ : BufTy).Contents (Elt F) → (⟨S_, .f32⟩ : BufTy).Contents (Elt F) → (⟨S2x1024, .f32⟩ : BufTy).Contents (Elt F)),
    StableHlo.unary main_call2_v7 main_call2_v8 ((broadcastInDim S2x1024x1 ![0, 1] bcast_S2x1024_S2x1024x1_0_1) : (⟨S2x1024, .f32⟩ : BufTy).Contents (Elt F) → (⟨S2x1024x1, .f32⟩ : BufTy).Contents (Elt F)),
    StableHlo.unary main_call2_v8 main_call2_v9 (Host.log : (⟨S2x1024x1, .f32⟩ : BufTy).Contents (Elt F) → (⟨S2x1024x1, .f32⟩ : BufTy).Contents (Elt F)),
    StableHlo.unary main_call2_v9 main_call2_v10 ((broadcastInDim S2x1024x128256 ![0, 1, 2] bcast_S2x1024x1_S2x1024x128256_0_1_2) : (⟨S2x1024x1, .f32⟩ : BufTy).Contents (Elt F) → (⟨S2x1024x128256, .f32⟩ : BufTy).Contents (Elt F)),
    StableHlo.binary main_call2_v5 main_call2_v10 main_v3 (subf : (⟨S2x1024x128256, .f32⟩ : BufTy).Contents (Elt F) → (⟨S2x1024x128256, .f32⟩ : BufTy).Contents (Elt F) → (⟨S2x1024x128256, .f32⟩ : BufTy).Contents (Elt F)),
    StableHlo.unary main_v1 main_v4 (broadcastInDim S2x1024x1 ![0, 1] bcast_S2x1024_S2x1024x1_0_1 : (⟨S2x1024, .i32⟩ : BufTy).Contents (Elt F) → (⟨S2x1024x1, .i32⟩ : BufTy).Contents (Elt F)),
    StableHlo.nullary main_call3_c ((constantI S_ 32 0#32) : (⟨S_, .i32⟩ : BufTy).Contents (Elt F)),
    StableHlo.unary main_call3_c main_call3_v0 ((broadcastInDim S2x1024x1 ![] bcast_S_S2x1024x1) : (⟨S_, .i32⟩ : BufTy).Contents (Elt F) → (⟨S2x1024x1, .i32⟩ : BufTy).Contents (Elt F)),
    StableHlo.binary main_v4 main_call3_v0 main_call3_v1 ((cmpi .slt) : (⟨S2x1024x1, .i32⟩ : BufTy).Contents (Elt F) → (⟨S2x1024x1, .i32⟩ : BufTy).Contents (Elt F) → (⟨S2x1024x1, .i1⟩ : BufTy).Contents (Elt F)),
    StableHlo.nullary main_call3_c_0 ((constantI S_ 32 128256#32) : (⟨S_, .i32⟩ : BufTy).Contents (Elt F)),
    StableHlo.unary main_call3_c_0 main_call3_v2 ((broadcastInDim S2x1024x1 ![] bcast_S_S2x1024x1) : (⟨S_, .i32⟩ : BufTy).Contents (Elt F) → (⟨S2x1024x1, .i32⟩ : BufTy).Contents (Elt F)),
    StableHlo.binary main_v4 main_call3_v2 main_call3_v3 (addi : (⟨S2x1024x1, .i32⟩ : BufTy).Contents (Elt F) → (⟨S2x1024x1, .i32⟩ : BufTy).Contents (Elt F) → (⟨S2x1024x1, .i32⟩ : BufTy).Contents (Elt F)),
    StableHlo.ternary main_call3_v1 main_call3_v3 main_v4 main_call3_v4 (select : (⟨S2x1024x1, .i1⟩ : BufTy).Contents (Elt F) → (⟨S2x1024x1, .i32⟩ : BufTy).Contents (Elt F) → (⟨S2x1024x1, .i32⟩ : BufTy).Contents (Elt F) → (⟨S2x1024x1, .i32⟩ : BufTy).Contents (Elt F)),
    StableHlo.reshape main_call3_v4 main_call3_v5 rfl shapeCasts_S2x1024x1_S2x1024x1x1,
    StableHlo.nullary main_call3_c_1 ((constantI S1 32 128255#32) : (⟨S1, .i32⟩ : BufTy).Contents (Elt F)),
    StableHlo.nullary main_call3_c_2 ((constantI S_ 32 0#32) : (⟨S_, .i32⟩ : BufTy).Contents (Elt F)),
    StableHlo.unary main_call3_c_2 main_call3_v6 ((broadcastInDim S2x1024x1x1 ![] bcast_S_S2x1024x1x1) : (⟨S_, .i32⟩ : BufTy).Contents (Elt F) → (⟨S2x1024x1x1, .i32⟩ : BufTy).Contents (Elt F)),
    StableHlo.binary main_call3_v5 main_call3_v6 main_call3_v7 ((cmpi .sge) : (⟨S2x1024x1x1, .i32⟩ : BufTy).Contents (Elt F) → (⟨S2x1024x1x1, .i32⟩ : BufTy).Contents (Elt F) → (⟨S2x1024x1x1, .i1⟩ : BufTy).Contents (Elt F)),
    StableHlo.unary main_call3_c_1 main_call3_v8 ((broadcastInDim S1x1x1x1 ![3] bcast_S1_S1x1x1x1_3) : (⟨S1, .i32⟩ : BufTy).Contents (Elt F) → (⟨S1x1x1x1, .i32⟩ : BufTy).Contents (Elt F)),
    StableHlo.unary main_call3_v8 main_call3_v9 ((broadcastInDim S2x1024x1x1 ![0, 1, 2, 3] bcast_S1x1x1x1_S2x1024x1x1_0_1_2_3) : (⟨S1x1x1x1, .i32⟩ : BufTy).Contents (Elt F) → (⟨S2x1024x1x1, .i32⟩ : BufTy).Contents (Elt F)),
    StableHlo.binary main_call3_v5 main_call3_v9 main_call3_v10 ((cmpi .sle) : (⟨S2x1024x1x1, .i32⟩ : BufTy).Contents (Elt F) → (⟨S2x1024x1x1, .i32⟩ : BufTy).Contents (Elt F) → (⟨S2x1024x1x1, .i1⟩ : BufTy).Contents (Elt F)),
    StableHlo.binary main_call3_v7 main_call3_v10 main_call3_v11 (andi : (⟨S2x1024x1x1, .i1⟩ : BufTy).Contents (Elt F) → (⟨S2x1024x1x1, .i1⟩ : BufTy).Contents (Elt F) → (⟨S2x1024x1x1, .i1⟩ : BufTy).Contents (Elt F)),
    StableHlo.nullary main_call3_c_3 ((constantI S_ 1 1#1) : (⟨S_, .i1⟩ : BufTy).Contents (Elt F)),
    StableHlo.binary main_call3_v11 main_call3_c_3 main_call3_v12 ((fun x v => Host.reduce IntOp.andi x v reducesTo_S2x1024x1x1_S2x1024x1_d3 h_S_) : (⟨S2x1024x1x1, .i1⟩ : BufTy).Contents (Elt F) → (⟨S_, .i1⟩ : BufTy).Contents (Elt F) → (⟨S2x1024x1, .i1⟩ : BufTy).Contents (Elt F)),
    StableHlo.binary main_v3 main_call3_v5 main_call3_v13 ((fun x i => Host.gather gather_S2x1024x128256_S2x1024x1x1_S2x1024x1_n_2_01_01_2_3_111 x i) : (⟨S2x1024x128256, .f32⟩ : BufTy).Contents (Elt F) → (⟨S2x1024x1x1, .i32⟩ : BufTy).Contents (Elt F) → (⟨S2x1024x1, .f32⟩ : BufTy).Contents (Elt F)),
    StableHlo.nullary main_call3_cst ((constant S_ .f32 0x7FC00000#32) : (⟨S_, .f32⟩ : BufTy).Contents (Elt F)),
    StableHlo.unary main_call3_cst main_call3_v14 ((broadcastInDim S2x1024x1 ![] bcast_S_S2x1024x1) : (⟨S_, .f32⟩ : BufTy).Contents (Elt F) → (⟨S2x1024x1, .f32⟩ : BufTy).Contents (Elt F)),
    StableHlo.ternary main_call3_v12 main_call3_v13 main_call3_v14 main_v5 (select : (⟨S2x1024x1, .i1⟩ : BufTy).Contents (Elt F) → (⟨S2x1024x1, .f32⟩ : BufTy).Contents (Elt F) → (⟨S2x1024x1, .f32⟩ : BufTy).Contents (Elt F) → (⟨S2x1024x1, .f32⟩ : BufTy).Contents (Elt F)),
    StableHlo.reshape main_v5 main_v6 rfl shapeCasts_S2x1024x1_S2x1024,
    StableHlo.binary main_v6 main_v2 main_v7 (subf : (⟨S2x1024, .f32⟩ : BufTy).Contents (Elt F) → (⟨S2x1024, .f32⟩ : BufTy).Contents (Elt F) → (⟨S2x1024, .f32⟩ : BufTy).Contents (Elt F)),
    StableHlo.unary main_v7 main_v8 (Host.exp : (⟨S2x1024, .f32⟩ : BufTy).Contents (Elt F) → (⟨S2x1024, .f32⟩ : BufTy).Contents (Elt F)),
    StableHlo.unary main_arg3 main_v9 (broadcastInDim S2x1 ![0] bcast_S2_S2x1_0 : (⟨S2, .f32⟩ : BufTy).Contents (Elt F) → (⟨S2x1, .f32⟩ : BufTy).Contents (Elt F)),
    StableHlo.unary main_v9 main_v10 (broadcastInDim S2x1024 ![0, 1] bcast_S2x1_S2x1024_0_1 : (⟨S2x1, .f32⟩ : BufTy).Contents (Elt F) → (⟨S2x1024, .f32⟩ : BufTy).Contents (Elt F)),
    StableHlo.binary main_v8 main_v10 main_v11 (mulf : (⟨S2x1024, .f32⟩ : BufTy).Contents (Elt F) → (⟨S2x1024, .f32⟩ : BufTy).Contents (Elt F) → (⟨S2x1024, .f32⟩ : BufTy).Contents (Elt F)),
    StableHlo.nullary main_cst_0 (constant S_ .f32 0x3F4CCCCD#32),
    StableHlo.nullary main_cst_1 (constant S_ .f32 0x3FA66666#32),
    StableHlo.unary main_cst_0 main_call4_v0 (id : (⟨S_, .f32⟩ : BufTy).Contents (Elt F) → (⟨S_, .f32⟩ : BufTy).Contents (Elt F)),
    StableHlo.unary main_call4_v0 main_call4_v1 ((broadcastInDim S2x1024 ![] bcast_S_S2x1024) : (⟨S_, .f32⟩ : BufTy).Contents (Elt F) → (⟨S2x1024, .f32⟩ : BufTy).Contents (Elt F)),
    StableHlo.binary main_call4_v1 main_v8 main_call4_v2 (maximumf : (⟨S2x1024, .f32⟩ : BufTy).Contents (Elt F) → (⟨S2x1024, .f32⟩ : BufTy).Contents (Elt F) → (⟨S2x1024, .f32⟩ : BufTy).Contents (Elt F)),
    StableHlo.unary main_cst_1 main_call4_v3 (id : (⟨S_, .f32⟩ : BufTy).Contents (Elt F) → (⟨S_, .f32⟩ : BufTy).Contents (Elt F)),
    StableHlo.unary main_call4_v3 main_call4_v4 ((broadcastInDim S2x1024 ![] bcast_S_S2x1024) : (⟨S_, .f32⟩ : BufTy).Contents (Elt F) → (⟨S2x1024, .f32⟩ : BufTy).Contents (Elt F)),
    StableHlo.binary main_call4_v4 main_call4_v2 main_v12 (minimumf : (⟨S2x1024, .f32⟩ : BufTy).Contents (Elt F) → (⟨S2x1024, .f32⟩ : BufTy).Contents (Elt F) → (⟨S2x1024, .f32⟩ : BufTy).Contents (Elt F)),
    StableHlo.unary main_v9 main_v13 (broadcastInDim S2x1024 ![0, 1] bcast_S2x1_S2x1024_0_1 : (⟨S2x1, .f32⟩ : BufTy).Contents (Elt F) → (⟨S2x1024, .f32⟩ : BufTy).Contents (Elt F)),
    StableHlo.binary main_v12 main_v13 main_v14 (mulf : (⟨S2x1024, .f32⟩ : BufTy).Contents (Elt F) → (⟨S2x1024, .f32⟩ : BufTy).Contents (Elt F) → (⟨S2x1024, .f32⟩ : BufTy).Contents (Elt F)),
    StableHlo.binary main_v11 main_v14 main_v15 (minimumf : (⟨S2x1024, .f32⟩ : BufTy).Contents (Elt F) → (⟨S2x1024, .f32⟩ : BufTy).Contents (Elt F) → (⟨S2x1024, .f32⟩ : BufTy).Contents (Elt F)),
    StableHlo.unary main_v15 main_v16 (Host.negf : (⟨S2x1024, .f32⟩ : BufTy).Contents (Elt F) → (⟨S2x1024, .f32⟩ : BufTy).Contents (Elt F)),
    StableHlo.unary main_v3 main_v17 (Host.exp : (⟨S2x1024x128256, .f32⟩ : BufTy).Contents (Elt F) → (⟨S2x1024x128256, .f32⟩ : BufTy).Contents (Elt F)),
    StableHlo.binary main_v17 main_v3 main_v18 (mulf : (⟨S2x1024x128256, .f32⟩ : BufTy).Contents (Elt F) → (⟨S2x1024x128256, .f32⟩ : BufTy).Contents (Elt F) → (⟨S2x1024x128256, .f32⟩ : BufTy).Contents (Elt F)),
    StableHlo.nullary main_cst_2 (constant S_ .f32 0x00000000#32),
    StableHlo.binary main_v18 main_cst_2 main_v19 ((fun x v => Host.reduceAdd x v reducesTo_S2x1024x128256_S2x1024_d2 h_S_) : (⟨S2x1024x128256, .f32⟩ : BufTy).Contents (Elt F) → (⟨S_, .f32⟩ : BufTy).Contents (Elt F) → (⟨S2x1024, .f32⟩ : BufTy).Contents (Elt F)),
    StableHlo.unary main_v19 main_v20 (Host.negf : (⟨S2x1024, .f32⟩ : BufTy).Contents (Elt F) → (⟨S2x1024, .f32⟩ : BufTy).Contents (Elt F)),
    StableHlo.unary main_v16 main_v21 ((extractStridedSlice S2x1023 ![0, 0] · slices_S2x1024_S2x1023_0_0) : (⟨S2x1024, .f32⟩ : BufTy).Contents (Elt F) → (⟨S2x1023, .f32⟩ : BufTy).Contents (Elt F)),
    StableHlo.unary main_v6 main_v22 ((extractStridedSlice S2x1023 ![0, 0] · slices_S2x1024_S2x1023_0_0) : (⟨S2x1024, .f32⟩ : BufTy).Contents (Elt F) → (⟨S2x1023, .f32⟩ : BufTy).Contents (Elt F)),
    StableHlo.unary main_v20 main_v23 ((extractStridedSlice S2x1023 ![0, 0] · slices_S2x1024_S2x1023_0_0) : (⟨S2x1024, .f32⟩ : BufTy).Contents (Elt F) → (⟨S2x1023, .f32⟩ : BufTy).Contents (Elt F)),
    StableHlo.unary main_arg4 main_v24 ((extractStridedSlice S2x1023 ![0, 1] · slices_S2x1024_S2x1023_0_1) : (⟨S2x1024, .f32⟩ : BufTy).Contents (Elt F) → (⟨S2x1023, .f32⟩ : BufTy).Contents (Elt F)),
    StableHlo.binary main_v23 main_v24 main_v25 (mulf : (⟨S2x1023, .f32⟩ : BufTy).Contents (Elt F) → (⟨S2x1023, .f32⟩ : BufTy).Contents (Elt F) → (⟨S2x1023, .f32⟩ : BufTy).Contents (Elt F)),
    StableHlo.nullary main_cst_3 (constant S_ .f32 0x00000000#32),
    StableHlo.binary main_v25 main_cst_3 main_v26 ((fun x v => Host.reduceAdd x v reducesTo_S2x1023_S2_d1 h_S_) : (⟨S2x1023, .f32⟩ : BufTy).Contents (Elt F) → (⟨S_, .f32⟩ : BufTy).Contents (Elt F) → (⟨S2, .f32⟩ : BufTy).Contents (Elt F)),
    StableHlo.nullary main_cst_4 (constant S_ .f32 0x00000000#32),
    StableHlo.binary main_v24 main_cst_4 main_v27 ((fun x v => Host.reduceAdd x v reducesTo_S2x1023_S2_d1 h_S_) : (⟨S2x1023, .f32⟩ : BufTy).Contents (Elt F) → (⟨S_, .f32⟩ : BufTy).Contents (Elt F) → (⟨S2, .f32⟩ : BufTy).Contents (Elt F)),
    StableHlo.binary main_v26 main_v27 main_v28 (Host.divf : (⟨S2, .f32⟩ : BufTy).Contents (Elt F) → (⟨S2, .f32⟩ : BufTy).Contents (Elt F) → (⟨S2, .f32⟩ : BufTy).Contents (Elt F)),
    StableHlo.nullary main_cst_5 (constant S_ .f32 0x3F800000#32),
    StableHlo.unary main_cst_5 main_v29 (broadcastInDim S2x1023 ![] bcast_S_S2x1023 : (⟨S_, .f32⟩ : BufTy).Contents (Elt F) → (⟨S2x1023, .f32⟩ : BufTy).Contents (Elt F)),
    StableHlo.binary main_v24 main_v29 main_v30 (cmpf .oeq : (⟨S2x1023, .f32⟩ : BufTy).Contents (Elt F) → (⟨S2x1023, .f32⟩ : BufTy).Contents (Elt F) → (⟨S2x1023, .i1⟩ : BufTy).Contents (Elt F)),
    StableHlo.unary main_v30 main_v31 ((extui 32 · natLt_1_32) : (⟨S2x1023, .i1⟩ : BufTy).Contents (Elt F) → (⟨S2x1023, .i32⟩ : BufTy).Contents (Elt F)),
    StableHlo.nullary main_call5_call0_c ((constantI S_ 32 0#32) : (⟨S_, .i32⟩ : BufTy).Contents (Elt F)),
    StableHlo.unary main_call5_call0_c main_call5_call0_v0 ((broadcastInDim S_ ![] bcast_S_S_) : (⟨S_, .i32⟩ : BufTy).Contents (Elt F) → (⟨S_, .i32⟩ : BufTy).Contents (Elt F)),
    StableHlo.binary main_v31 main_call5_call0_v0 main_v32 ((fun x v => Host.reduceWindow IntOp.addi ![1, 1023] ![1, 1] ![0, 1022] ![0, 0] x v reduceWindows_S2x1023_S2x1023_w1s1p0_0_w1023s1p1022_0 h_S_) : (⟨S2x1023, .i32⟩ : BufTy).Contents (Elt F) → (⟨S_, .i32⟩ : BufTy).Contents (Elt F) → (⟨S2x1023, .i32⟩ : BufTy).Contents (Elt F)),
    StableHlo.nullary main_c_6 (constantI S_ 32 4#32),
    StableHlo.unary main_c_6 main_v33 (broadcastInDim S2x1023 ![] bcast_S_S2x1023 : (⟨S_, .i32⟩ : BufTy).Contents (Elt F) → (⟨S2x1023, .i32⟩ : BufTy).Contents (Elt F)),
    StableHlo.binary main_v32 main_v33 main_v34 (cmpi .sge : (⟨S2x1023, .i32⟩ : BufTy).Contents (Elt F) → (⟨S2x1023, .i32⟩ : BufTy).Contents (Elt F) → (⟨S2x1023, .i1⟩ : BufTy).Contents (Elt F)),
    StableHlo.binary main_v30 main_v34 main_v35 (andi : (⟨S2x1023, .i1⟩ : BufTy).Contents (Elt F) → (⟨S2x1023, .i1⟩ : BufTy).Contents (Elt F) → (⟨S2x1023, .i1⟩ : BufTy).Contents (Elt F)),
    StableHlo.nullary main_c_7 (constantI S_ 32 100#32),
    StableHlo.unary main_c_7 main_v36 (broadcastInDim S2x1023 ![] bcast_S_S2x1023 : (⟨S_, .i32⟩ : BufTy).Contents (Elt F) → (⟨S2x1023, .i32⟩ : BufTy).Contents (Elt F)),
    StableHlo.binary main_v32 main_v36 main_v37 (cmpi .sle : (⟨S2x1023, .i32⟩ : BufTy).Contents (Elt F) → (⟨S2x1023, .i32⟩ : BufTy).Contents (Elt F) → (⟨S2x1023, .i1⟩ : BufTy).Contents (Elt F)),
    StableHlo.binary main_v35 main_v37 main_v38 (andi : (⟨S2x1023, .i1⟩ : BufTy).Contents (Elt F) → (⟨S2x1023, .i1⟩ : BufTy).Contents (Elt F) → (⟨S2x1023, .i1⟩ : BufTy).Contents (Elt F)),
    StableHlo.unary main_v38 main_v39 (uitofp .f32 : (⟨S2x1023, .i1⟩ : BufTy).Contents (Elt F) → (⟨S2x1023, .f32⟩ : BufTy).Contents (Elt F)),
    StableHlo.binary main_v23 main_v39 main_v40 (mulf : (⟨S2x1023, .f32⟩ : BufTy).Contents (Elt F) → (⟨S2x1023, .f32⟩ : BufTy).Contents (Elt F) → (⟨S2x1023, .f32⟩ : BufTy).Contents (Elt F)),
    StableHlo.nullary main_cst_8 (constant S_ .f32 0x00000000#32),
    StableHlo.binary main_v40 main_cst_8 main_v41 ((fun x v => Host.reduceAdd x v reducesTo_S2x1023_S2_d1 h_S_) : (⟨S2x1023, .f32⟩ : BufTy).Contents (Elt F) → (⟨S_, .f32⟩ : BufTy).Contents (Elt F) → (⟨S2, .f32⟩ : BufTy).Contents (Elt F)),
    StableHlo.unary main_v38 main_v42 ((extui 32 · natLt_1_32) : (⟨S2x1023, .i1⟩ : BufTy).Contents (Elt F) → (⟨S2x1023, .i32⟩ : BufTy).Contents (Elt F)),
    StableHlo.nullary main_c_9 (constantI S_ 32 0#32),
    StableHlo.binary main_v42 main_c_9 main_v43 ((fun x v => Host.reduce IntOp.addi x v reducesTo_S2x1023_S2_d1 h_S_) : (⟨S2x1023, .i32⟩ : BufTy).Contents (Elt F) → (⟨S_, .i32⟩ : BufTy).Contents (Elt F) → (⟨S2, .i32⟩ : BufTy).Contents (Elt F)),
    StableHlo.unary main_v43 main_v44 (sitofp .f32 : (⟨S2, .i32⟩ : BufTy).Contents (Elt F) → (⟨S2, .f32⟩ : BufTy).Contents (Elt F)),
    StableHlo.binary main_v41 main_v44 main_v45 (Host.divf : (⟨S2, .f32⟩ : BufTy).Contents (Elt F) → (⟨S2, .f32⟩ : BufTy).Contents (Elt F) → (⟨S2, .f32⟩ : BufTy).Contents (Elt F)),
    StableHlo.nullary main_cst_10 (constant S_ .f32 0x00000000#32),
    StableHlo.binary main_v24 main_cst_10 main_v46 ((fun x v => Host.reduceAdd x v reducesTo_S2x1023_S_d0_1 h_S_) : (⟨S2x1023, .f32⟩ : BufTy).Contents (Elt F) → (⟨S_, .f32⟩ : BufTy).Contents (Elt F) → (⟨S_, .f32⟩ : BufTy).Contents (Elt F)),
    StableHlo.binary main_v21 main_v24 main_v47 (mulf : (⟨S2x1023, .f32⟩ : BufTy).Contents (Elt F) → (⟨S2x1023, .f32⟩ : BufTy).Contents (Elt F) → (⟨S2x1023, .f32⟩ : BufTy).Contents (Elt F)),
    StableHlo.nullary main_cst_11 (constant S_ .f32 0x00000000#32),
    StableHlo.binary main_v47 main_cst_11 main_v48 ((fun x v => Host.reduceAdd x v reducesTo_S2x1023_S_d0_1 h_S_) : (⟨S2x1023, .f32⟩ : BufTy).Contents (Elt F) → (⟨S_, .f32⟩ : BufTy).Contents (Elt F) → (⟨S_, .f32⟩ : BufTy).Contents (Elt F)),
    StableHlo.binary main_v48 main_v46 main_v49 (Host.divf : (⟨S_, .f32⟩ : BufTy).Contents (Elt F) → (⟨S_, .f32⟩ : BufTy).Contents (Elt F) → (⟨S_, .f32⟩ : BufTy).Contents (Elt F)) ]

set_option maxRecDepth 100000 in
set_option maxHeartbeats 2000000 in
/-- @main is that straight line: sequencing in the program monad is grafting at the leaves, which computes. -/
theorem main_eqT (c : Dev nD) : main (F := F) c = seq opsT := rfl

/-- A two-operand operation over typed references that are literal references at their own types is the
    operation over the bare references: the transports along the type equations are the identity. -/
theorem binary_of {Val : EltTy → Type} (a b y : Ref sig .tc)
    (ha : a.space ≠ .host) (ha' : a.isScoped = false) (hb : b.space ≠ .host) (hb' : b.isScoped = false)
    (hy : y.space ≠ .host) (hy' : y.isScoped = false)
    (f : a.ty.Contents Val → b.ty.Contents Val → y.ty.Contents Val) :
    (TRef.binary (τ := τ) (TRef.of a rfl ha ha') (TRef.of b rfl hb hb') (TRef.of y rfl hy hy') f : HloOp τ sig Val)
      = StableHlo.binary a b y f (TRef.of a rfl ha ha').dev (TRef.of b rfl hb hb').dev (TRef.of y rfl hy hy').dev := rfl

theorem op8_eq : (StableHlo.TRef.binary (.of main_arg0 : StableHlo.TRef sig ⟨S2x1024x128256, .f32⟩) main_call2.cst main_call2.v0 (fun x v => Host.reduce FloatOps.maximumf x v reducesTo_S2x1024x128256_S2x1024_d2 h_S_) : HloOp τ sig (Elt F))
    = StableHlo.binary main_arg0 main_call2_cst main_call2_v0 ((fun x v => Host.reduce FloatOps.maximumf x v reducesTo_S2x1024x128256_S2x1024_d2 h_S_) : (⟨S2x1024x128256, .f32⟩ : BufTy).Contents (Elt F) → (⟨S_, .f32⟩ : BufTy).Contents (Elt F) → (⟨S2x1024, .f32⟩ : BufTy).Contents (Elt F)) :=
  binary_of main_arg0 main_call2_cst main_call2_v0 (by decide) rfl (by decide) rfl (by decide) rfl _

theorem op84_eq : (StableHlo.TRef.binary (.of main_v31 : StableHlo.TRef sig ⟨S2x1023, .i32⟩) main_call5.call0.v0 main_call5.call0.v1 (fun x v => Host.reduceWindow IntOp.addi ![1, 1023] ![1, 1] ![0, 1022] ![0, 0] x v reduceWindows_S2x1023_S2x1023_w1s1p0_0_w1023s1p1022_0 h_S_) : HloOp τ sig (Elt F))
    = StableHlo.binary main_v31 main_call5_call0_v0 main_v32 ((fun x v => Host.reduceWindow IntOp.addi ![1, 1023] ![1, 1] ![0, 1022] ![0, 0] x v reduceWindows_S2x1023_S2x1023_w1s1p0_0_w1023s1p1022_0 h_S_) : (⟨S2x1023, .i32⟩ : BufTy).Contents (Elt F) → (⟨S_, .i32⟩ : BufTy).Contents (Elt F) → (⟨S2x1023, .i32⟩ : BufTy).Contents (Elt F)) :=
  binary_of main_v31 main_call5_call0_v0 main_v32 (by decide) rfl (by decide) rfl (by decide) rfl _

set_option maxRecDepth 100000 in
set_option maxHeartbeats 2000000 in
/-- The same line over bare references (no transport left in an operation's function). -/
theorem ops_eq : (opsT : List (HloOp τ sig (Elt F))) = ops := by
  unfold opsT ops
  rw [op8_eq, op84_eq]
  rfl

theorem main_eq (c : Dev nD) : main (F := F) c = seq ops := (main_eqT c).trans (congrArg seq ops_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., unary_bufs_sub .., unary_bufs_sub .., unary_bufs_sub .., unary_bufs_sub .., binary_bufs_sub .., nullary_bufs_sub .., binary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., binary_bufs_sub .., unary_bufs_sub .., nullary_bufs_sub .., binary_bufs_sub .., unary_bufs_sub .., binary_bufs_sub .., nullary_bufs_sub .., binary_bufs_sub .., binary_bufs_sub .., nullary_bufs_sub .., binary_bufs_sub .., binary_bufs_sub ..⟩

/-! ## What each result buffer holds after the line -/

set_option maxRecDepth 100000 in
set_option maxHeartbeats 2000000 in
theorem v49_eq (V : Valuation τ sig (Elt F)) :
    after ops V (main_v49 : DevRef τ sig) = out0 (lpTerm (V (main_arg0 : DevRef τ sig)) (V (main_arg1 : DevRef τ sig))) (V (main_arg2 : DevRef τ sig)) (V (main_arg3 : DevRef τ sig)) (V (main_arg4 : DevRef τ sig)) := by
  after_results_simp
  rfl

set_option maxRecDepth 100000 in
set_option maxHeartbeats 2000000 in
theorem v22_eq (V : Valuation τ sig (Elt F)) :
    after ops V (main_v22 : DevRef τ sig) = out1 (lpTerm (V (main_arg0 : DevRef τ sig)) (V (main_arg1 : DevRef τ sig))) := by
  after_results_simp
  rfl

set_option maxRecDepth 100000 in
set_option maxHeartbeats 2000000 in
theorem v28_eq (V : Valuation τ sig (Elt F)) :
    after ops V (main_v28 : DevRef τ sig) = out2 (entTerm (V (main_arg0 : DevRef τ sig))) (V (main_arg4 : DevRef τ sig)) := by
  after_results_simp
  rfl

set_option maxRecDepth 100000 in
set_option maxHeartbeats 2000000 in
theorem v45_eq (V : Valuation τ sig (Elt F)) :
    after ops V (main_v45 : DevRef τ sig) = out3 (entTerm (V (main_arg0 : DevRef τ sig))) (V (main_arg4 : DevRef τ sig)) := by
  after_results_simp
  rfl

set_option maxRecDepth 100000 in
theorem arg0_eq (V : Valuation τ sig (Elt F)) :
    after ops V (main_arg0 : DevRef τ sig) = V (main_arg0 : DevRef τ sig) := by
  after_results_simp

set_option maxRecDepth 100000 in
theorem arg1_eq (V : Valuation τ sig (Elt F)) :
    after ops V (main_arg1 : DevRef τ sig) = V (main_arg1 : DevRef τ sig) := by
  after_results_simp

set_option maxRecDepth 100000 in
theorem arg2_eq (V : Valuation τ sig (Elt F)) :
    after ops V (main_arg2 : DevRef τ sig) = V (main_arg2 : DevRef τ sig) := by
  after_results_simp

set_option maxRecDepth 100000 in
theorem arg3_eq (V : Valuation τ sig (Elt F)) :
    after ops V (main_arg3 : DevRef τ sig) = V (main_arg3 : DevRef τ sig) := by
  after_results_simp

set_option maxRecDepth 100000 in
theorem arg4_eq (V : Valuation τ sig (Elt F)) :
    after ops V (main_arg4 : DevRef τ sig) = V (main_arg4 : DevRef τ sig) := by
  after_results_simp

/-! ## The run -/

/-- On the device, for any float values, from any memory with zero counters: every weakly fair execution of
    @main terminates with the four results at their terms of the arguments' launch contents and the five
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v49) = out0 (lpTerm (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))
        ∧ r.2.mem ((c.tc : Thread nD τ).loc main_v22) = out1 (lpTerm (m ((c.tc : Thread nD τ).loc main_arg0)) (m ((c.tc : Thread nD τ).loc main_arg1)))
        ∧ r.2.mem ((c.tc : Thread nD τ).loc main_v28) = out2 (entTerm (m ((c.tc : Thread nD τ).loc main_arg0))) (m ((c.tc : Thread nD τ).loc main_arg4))
        ∧ r.2.mem ((c.tc : Thread nD τ).loc main_v45) = out3 (entTerm (m ((c.tc : Thread nD τ).loc main_arg0))) (m ((c.tc : Thread nD τ).loc main_arg4)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c =>
      ⟨⟨(h c main_v49).trans (v49_eq _), (h c main_v22).trans (v22_eq _), (h c main_v28).trans (v28_eq _),
          (h c main_v45).trans (v45_eq _)⟩,
        (h c main_arg0).trans (arg0_eq _), (h c main_arg1).trans (arg1_eq _), (h c main_arg2).trans (arg2_eq _),
        (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefRead.lean ====
/-
  The reference program's values read at an index, at the extended reals: its log-softmax along the vocabulary
  axis is each row's log-softmax; its pick at the next-token indices (the token array shifted left by one
  position, 0 in the last column) is the log-softmax at the chosen column; and minus its row sum of probability
  times log-probability is the entropy of the row's softmax. Each array equals the specification's, per position.
-/
import proofs.«430439_j8589934595_1_alg».proof.Proof.RefTerms
import proofs.«430439_j8589934595_1_alg».proof.Proof.Rows
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.RefRead

open Idealize.ShloMosaic Idealize.SL.Sem Idealize.ShloMosaic.ValueIdx
open Cert.ReferenceIdeal Cert.ReferenceIdeal.Facts₀ Cert.ReferenceIdeal.Facts Cert.ReferenceIdeal.RefRun
open Cert.RowSoftmax (NV rowMax expSum lsm entropy scores chosen lsmAt logpSpec entSpec)

variable [hR : Cert.ReferenceIdeal.Facts]

/-- The bit pattern of minus infinity denotes the bottom element. -/
theorem ofBits_negInf : Ideal.ofBits .f32 0xFF800000#32 = (⊥ : EReal) := by
  simp [Ideal.ofBits, Ideal.ieee]

theorem reduces_vocab : S2x1024x128256.Reduces [2] S2x1024 := by decide

/-- The index over position (b, t) with column k inserted on the vocabulary axis. -/
theorem lift_vocab (h : S2x1024x128256.Reduces [2] S2x1024) (b : Fin 2) (t : Fin 1024) (k : Fin 128256) :
    h.lift (ix2 b t) k = ix3 b t k := by
  funext c
  refine Fin.ext ?_
  match c with
  | ⟨0, _⟩ => rfl
  | ⟨1, _⟩ => rfl
  | ⟨2, _⟩ => rfl

/-- The maximum over the vocabulary axis from minus infinity, at position (b, t), is the row's supremum. -/
theorem rowMax_read (a0 : FVec Ideal S2x1024x128256 .f32) (b : Fin 2) (t : Fin 1024) :
    Host.reduce FloatOps.maximumf a0 (constant (F := Ideal) S_ .f32 0xFF800000#32)
        reducesTo_S2x1024x128256_S2x1024_d2 h_S_ (ix2 b t)
      = rowMax (scores a0 b t) := by
  rw [Host.reduce_eq_fold_single FloatOps.maximumf a0 _ reducesTo_S2x1024x128256_S2x1024_d2 reduces_vocab h_S_ (ix2 b t)]
  rw [constant_apply, ofBits_negInf]
  have hf : (a0 ∘ reduces_vocab.lift (ix2 b t)) = scores a0 b t := by
    funext k
    exact congrArg a0 (lift_vocab reduces_vocab b t k)
  rw [hf]
  rfl

/-- A one-column array broadcast along the vocabulary axis reads its entry of the position. -/
theorem bcast_vocab_apply {α : Type} (x : S2x1024x1.Idx → α) (b : Fin 2) (t : Fin 1024) (j : Fin 128256) :
    broadcastInDim S2x1024x128256 ![0, 1, 2] bcast_S2x1024x1_S2x1024x128256_0_1_2 x (ix3 b t j) = x (ix3 b t 0) := by
  refine broadcastInDim_apply _ _ x (ix3 b t j) (ix3 b t 0) fun a => ?_
  match a with
  | ⟨0, _⟩ => rfl
  | ⟨1, _⟩ => rfl
  | ⟨2, _⟩ => rfl

/-- A per-position array given a trailing unit axis reads the position's entry. -/
theorem bcast_unit_apply {α : Type} (x : S2x1024.Idx → α) (b : Fin 2) (t : Fin 1024) (z : Fin 1) :
    broadcastInDim S2x1024x1 ![0, 1] bcast_S2x1024_S2x1024x1_0_1 x (ix3 b t z) = x (ix2 b t) := by
  refine broadcastInDim_apply _ _ x (ix3 b t z) (ix2 b t) fun a => ?_
  match a with
  | ⟨0, _⟩ => rfl
  | ⟨1, _⟩ => rfl

/-- The host's exponential, logarithm and negation at an index are the extended reals'. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl
theorem hostNegf_apply {s : Shape} {φ : FTy} (x : FVec Ideal s φ) (i : s.Idx) : Host.negf x i = -(x i) := rfl

/-- The scores less their row maximum: the first half of the log-softmax. -/
def shiftT (a0 : FVec Ideal S2x1024x128256 .f32) : FVec Ideal S2x1024x128256 .f32 :=
  subf a0 (broadcastInDim S2x1024x128256 ![0, 1, 2] bcast_S2x1024x1_S2x1024x128256_0_1_2
        (broadcastInDim S2x1024x1 ![0, 1] bcast_S2x1024_S2x1024x1_0_1
          (maximumf (broadcastInDim S2x1024 ![] bcast_S_S2x1024 (constant (F := Ideal) S_ .f32 0xFF800000#32))
            (Host.reduce FloatOps.maximumf a0 (constant (F := Ideal) S_ .f32 0xFF800000#32)
              reducesTo_S2x1024x128256_S2x1024_d2 h_S_))))

/-- The log-softmax is the shifted scores less the logarithm of the row sum of their exponentials. -/
theorem lsmTerm_eq (a0 : FVec Ideal S2x1024x128256 .f32) :
    lsmTerm (F := Ideal) a0 = subf (shiftT a0)
      (broadcastInDim S2x1024x128256 ![0, 1, 2] bcast_S2x1024x1_S2x1024x128256_0_1_2
        (Host.log (broadcastInDim S2x1024x1 ![0, 1] bcast_S2x1024_S2x1024x1_0_1
          (Host.reduceAdd (Host.exp (shiftT a0)) (constant (F := Ideal) S_ .f32 0x00000000#32)
            reducesTo_S2x1024x128256_S2x1024_d2 h_S_)))) := rfl

/-- The shifted score at (b, t, k) is the row's score at k less the row's supremum. -/
theorem shiftT_apply (a0 : FVec Ideal S2x1024x128256 .f32) (b : Fin 2) (t : Fin 1024) (k : Fin 128256) :
    shiftT a0 (ix3 b t k) = scores a0 b t k - rowMax (scores a0 b t) := by
  unfold shiftT
  rw [subf_apply, bcast_vocab_apply, bcast_unit_apply, maximumf_apply, rowMax_read,
    broadcastInDim_scalar_apply, constant_apply, ofBits_negInf, max_eq_right bot_le]
  rfl

/-- The exponential of the shifted score, read at column k of position (b, t). -/
theorem exp_shift_lift (a0 : FVec Ideal S2x1024x128256 .f32) (b : Fin 2) (t : Fin 1024) (k : Fin 128256) :
    Host.exp (shiftT a0) (reduces_vocab.lift (ix2 b t) k) = Ideal.exp (scores a0 b t k - rowMax (scores a0 b t)) := by
  rw [lift_vocab, hostExp_apply, shiftT_apply]

/-- The program's log-softmax at (b, t, j) is the row's log-softmax at column j. -/
theorem lsmTerm_apply (a0 : FVec Ideal S2x1024x128256 .f32) (b : Fin 2) (t : Fin 1024) (j : Fin 128256) :
    lsmTerm (F := Ideal) a0 (ix3 b t j) = lsm (scores a0 b t) j := by
  rw [lsmTerm_eq, subf_apply, shiftT_apply, bcast_vocab_apply, hostLog_apply, bcast_unit_apply, hostReduceAdd_apply,
    Ideal.hostReduceAdd_single reducesTo_S2x1024x128256_S2x1024_d2 reduces_vocab, constant_apply, Ideal.ofBits_zero_f32, zero_add]
  have hsum : (∑ k : Fin (S2x1024x128256.size 2), Host.exp (shiftT a0) (reduces_vocab.lift (ix2 b t) k))
      = expSum (scores a0 b t) :=
    Finset.sum_congr rfl fun k _ => exp_shift_lift a0 b t k
  rw [hsum]
  rfl

/-- The next-token index at (b, t): the token at t + 1, and 0 in the last column. -/
theorem idsTerm_apply (a1 : IVec S2x1024 32) (b : Fin 2) (t : Fin 1024) :
    idsTerm a1 (ix2 b t) = if h : t.val + 1 < 1024 then a1 (ix2 b ⟨t.val + 1, h⟩) else 0#32 := by
  unfold idsTerm
  by_cases h : t.val + 1 < 1024
  · rw [dif_pos h]
    have ht : t.val < 1023 := by omega
    rw [pad_apply_of_inside _ _ _ _ _ pads_S2x1023_S2x1024_000_010 h_S_ (ix2 b t) (ix2 b (⟨t.val, ht⟩ : Fin 1023)) (fun a => by
      match a with
      | ⟨0, _⟩ => show b.val = 0 + b.val * (0 + 1); omega
      | ⟨1, _⟩ => show t.val = 0 + t.val * (0 + 1); omega)]
    exact slice2_axis1_apply 1 a1 slices_S2x1024_S2x1023_0_1 b ⟨t.val, ht⟩ ⟨t.val + 1, h⟩ (by show t.val + 1 = 1 + t.val; omega)
  · rw [dif_neg h]
    rw [pad_apply_of_not_inside _ _ _ _ _ pads_S2x1023_S2x1024_000_010 h_S_ (ix2 b t) (1 : Fin 2) (by
      show ¬(0 ≤ t.val ∧ (t.val - 0) % (0 + 1) = 0 ∧ (t.val - 0) / (0 + 1) < 1023)
      omega)]
    rfl

/-- A word read as a signed integer inside [0, 128256) is its reading as a natural number. -/
theorem toNat_of_toInt_range (c : BitVec 32) (h0 : 0 ≤ c.toInt) (h1 : c.toInt < 128256) :
    c.toInt = (c.toNat : Int) ∧ c.toNat < 128256 := by
  have hlt : c.toNat < 4294967296 := c.isLt
  have hc := BitVec.toInt_eq_toNat_cond c
  by_cases h : 2 * c.toNat < 2 ^ 32
  · rw [if_pos h] at hc
    omega
  · rw [if_neg h] at hc
    have : (2 : Nat) ^ 32 = 4294967296 := by norm_num
    omega

/-- The comparisons of the index chain on a word inside [0, 128256). -/
theorem cmpi_slt_zero (c : BitVec 32) (h0 : 0 ≤ c.toInt) : IntOp.cmpi .slt c 0#32 = 0#1 := by
  have : c.slt 0#32 = false := by
    rw [BitVec.slt]
    simpa using h0
  show BitVec.ofBool (c.slt 0#32) = 0#1
  rw [this]; rfl

theorem cmpi_sge_zero (c : BitVec 32) (h0 : 0 ≤ c.toInt) : IntOp.cmpi .sge c 0#32 = 1#1 := by
  have : (0#32 : BitVec 32).sle c = true := by
    rw [BitVec.sle]
    simpa using h0
  show BitVec.ofBool ((0#32 : BitVec 32).sle c) = 1#1
  rw [this]; rfl

theorem cmpi_sle_last (c : BitVec 32) (h1 : c.toInt < 128256) : IntOp.cmpi .sle c 128255#32 = 1#1 := by
  have h255 : (128255#32 : BitVec 32).toInt = 128255 := by decide
  have : c.sle 128255#32 = true := by
    rw [BitVec.sle, h255]
    simp only [decide_eq_true_eq]
    omega
  show BitVec.ofBool (c.sle 128255#32) = 1#1
  rw [this]; rfl

/-- The index array with a negative entry counted from the end, given a fourth unit axis. -/
def wrapT (i : IVec S2x1024x1 32) : IVec S2x1024x1x1 32 :=
  shapeCast S2x1024x1x1
    (select (cmpi .slt i (broadcastInDim S2x1024x1 ![] bcast_S_S2x1024x1 (constantI S_ 32 0#32)))
      (addi i (broadcastInDim S2x1024x1 ![] bcast_S_S2x1024x1 (constantI S_ 32 128256#32))) i)
    shapeCasts_S2x1024x1_S2x1024x1x1

/-- The test that an index lies on the vocabulary axis. -/
def inRangeT (w : IVec S2x1024x1x1 32) : IVec S2x1024x1 1 :=
  Host.reduce IntOp.andi
    (andi (cmpi .sge w (broadcastInDim S2x1024x1x1 ![] bcast_S_S2x1024x1x1 (constantI S_ 32 0#32)))
      (cmpi .sle w (broadcastInDim S2x1024x1x1 ![0, 1, 2, 3] bcast_S1x1x1x1_S2x1024x1x1_0_1_2_3
        (broadcastInDim S1x1x1x1 ![3] bcast_S1_S1x1x1x1_3 (constantI S1 32 128255#32)))))
    (constantI S_ 1 1#1) reducesTo_S2x1024x1x1_S2x1024x1_d3 h_S_

/-- The pick along the vocabulary axis, in those two parts. -/
theorem takeTerm_eq (x : FVec Ideal S2x1024x128256 .f32) (i : IVec S2x1024x1 32) :
    takeTerm (F := Ideal) x i = select (inRangeT (wrapT i))
      (Host.gather gather_S2x1024x128256_S2x1024x1x1_S2x1024x1_n_2_01_01_2_3_111 x (wrapT i))
      (broadcastInDim S2x1024x1 ![] bcast_S_S2x1024x1 (constant (F := Ideal) S_ .f32 0x7FC00000#32)) := rfl

/-- A nonnegative index is kept as it is. -/
theorem wrapT_apply (i : IVec S2x1024x1 32) (b : Fin 2) (t : Fin 1024) (h0 : 0 ≤ (i (ix3 b t 0)).toInt) :
    wrapT i (ix4 b t 0 0) = i (ix3 b t 0) := by
  unfold wrapT
  rw [shapeCast_apply _ shapeCasts_S2x1024x1_S2x1024x1x1 (ix4 b t 0 0) (ix3 b t 0) (by
    rw [Shape.rowMajor_val_three, Shape.rowMajor_val_four]
    show (b.val * 1024 + t.val) * 1 + 0 = ((b.val * 1024 + t.val) * 1 + 0) * 1 + 0
    omega)]
  rw [select_apply]
  have hc : cmpi .slt i (broadcastInDim S2x1024x1 ![] bcast_S_S2x1024x1 (constantI S_ 32 0#32)) (ix3 b t 0) = 0#1 :=
    cmpi_slt_zero _ h0
  rw [hc, select_zero]

theorem reduces_unit : S2x1024x1x1.Reduces [3] S2x1024x1 := by decide

/-- A fold over an axis of one coordinate is the operation on that entry and the initial value. -/
theorem fold_fin_one {α : Type} (op : α → α → α) [Std.Commutative op] [Std.Associative op] (init : α) (f : Fin 1 → α) :
    (Finset.univ : Finset (Fin 1)).fold op init f = op (f 0) init := by
  have hu : (Finset.univ : Finset (Fin 1)) = {0} := rfl
  rw [hu, Finset.fold_singleton]

/-- An index inside [0, 128256) passes the test. -/
theorem inRangeT_apply (w : IVec S2x1024x1x1 32) (b : Fin 2) (t : Fin 1024)
    (h0 : 0 ≤ (w (ix4 b t 0 0)).toInt) (h1 : (w (ix4 b t 0 0)).toInt < 128256) :
    inRangeT w (ix3 b t 0) = 1#1 := by
  unfold inRangeT
  rw [Host.reduce_eq_fold_single IntOp.andi _ _ reducesTo_S2x1024x1x1_S2x1024x1_d3 reduces_unit h_S_ (ix3 b t 0)]
  refine (fold_fin_one IntOp.andi _ _).trans ?_
  have hl : reduces_unit.lift (ix3 b t 0) (0 : Fin 1) = ix4 b t 0 0 := by
    funext c
    refine Fin.ext ?_
    match c with
    | ⟨0, _⟩ => rfl
    | ⟨1, _⟩ => rfl
    | ⟨2, _⟩ => rfl
    | ⟨3, _⟩ => rfl
  show IntOp.andi (andi _ _ (reduces_unit.lift (ix3 b t 0) (0 : Fin 1))) 1#1 = 1#1
  rw [hl]
  have ha : cmpi .sge w (broadcastInDim S2x1024x1x1 ![] bcast_S_S2x1024x1x1 (constantI S_ 32 0#32)) (ix4 b t 0 0) = 1#1 :=
    cmpi_sge_zero _ h0
  have hb : cmpi .sle w (broadcastInDim S2x1024x1x1 ![0, 1, 2, 3] bcast_S1x1x1x1_S2x1024x1x1_0_1_2_3
        (broadcastInDim S1x1x1x1 ![3] bcast_S1_S1x1x1x1_3 (constantI S1 32 128255#32))) (ix4 b t 0 0) = 1#1 :=
    cmpi_sle_last _ h1
  show IntOp.andi (IntOp.andi (cmpi .sge w _ (ix4 b t 0 0)) (cmpi .sle w _ (ix4 b t 0 0))) 1#1 = 1#1
  rw [ha, hb]
  rfl

/-- The gather along the vocabulary axis, read at position (b, t): the operand at the column the index array
    holds there, read signed and clamped onto the axis. -/
theorem gather_apply {α : Type} (x : S2x1024x128256.Idx → α) (w : IVec S2x1024x1x1 32) (b : Fin 2) (t : Fin 1024) :
    Host.gather gather_S2x1024x128256_S2x1024x1x1_S2x1024x1_n_2_01_01_2_3_111 x w (ix3 b t 0)
      = x (ix3 b t ⟨min (w (ix4 b t 0 0)).toInt.toNat 128255, by omega⟩) := by
  unfold Host.gather
  refine congrArg x (funext fun a => Fin.ext ?_)
  match a with
  | ⟨0, _⟩ =>
    show GatherDims.start gather_S2x1024x128256_S2x1024x1x1_S2x1024x1_n_2_01_01_2_3_111 (ix3 b t 0) w 0
        + GatherDims.batchCoord gather_S2x1024x128256_S2x1024x1x1_S2x1024x1_n_2_01_01_2_3_111 (ix3 b t 0) 0
        + GatherDims.offCoord gather_S2x1024x128256_S2x1024x1x1_S2x1024x1_n_2_01_01_2_3_111 (ix3 b t 0) 0
      = b.val
    rw [GatherDims.start_batching _ _ _ _ (by decide),
      GatherDims.offCoord_eq_zero _ _ _ (fun h => ((GatherDims.mem_sKept _ _).mp h).2 (by decide))]
    simp only [Nat.add_zero, Nat.zero_add]
    unfold GatherDims.batchCoord
    rw [dif_pos (by decide)]
    rfl
  | ⟨1, _⟩ =>
    show GatherDims.start gather_S2x1024x128256_S2x1024x1x1_S2x1024x1_n_2_01_01_2_3_111 (ix3 b t 0) w 1
        + GatherDims.batchCoord gather_S2x1024x128256_S2x1024x1x1_S2x1024x1_n_2_01_01_2_3_111 (ix3 b t 0) 1
        + GatherDims.offCoord gather_S2x1024x128256_S2x1024x1x1_S2x1024x1_n_2_01_01_2_3_111 (ix3 b t 0) 1
      = t.val
    rw [GatherDims.start_batching _ _ _ _ (by decide),
      GatherDims.offCoord_eq_zero _ _ _ (fun h => ((GatherDims.mem_sKept _ _).mp h).2 (by decide))]
    simp only [Nat.add_zero, Nat.zero_add]
    unfold GatherDims.batchCoord
    rw [dif_pos (by decide)]
    rfl
  | ⟨2, _⟩ =>
    show GatherDims.start gather_S2x1024x128256_S2x1024x1x1_S2x1024x1_n_2_01_01_2_3_111 (ix3 b t 0) w 2
        + GatherDims.batchCoord gather_S2x1024x128256_S2x1024x1x1_S2x1024x1_n_2_01_01_2_3_111 (ix3 b t 0) 2
        + GatherDims.offCoord gather_S2x1024x128256_S2x1024x1x1_S2x1024x1_n_2_01_01_2_3_111 (ix3 b t 0) 2
      = min (w (ix4 b t 0 0)).toInt.toNat 128255
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S2x1024x128256_S2x1024x1x1_S2x1024x1_n_2_01_01_2_3_111).startIndexMap from
      List.mem_singleton.mpr rfl)]
    have hsi : GatherDims.siIdx gather_S2x1024x128256_S2x1024x1x1_S2x1024x1_n_2_01_01_2_3_111 (ix3 b t 0)
        ⟨List.idxOf (2 : Fin 3) (gather_S2x1024x128256_S2x1024x1x1_S2x1024x1_n_2_01_01_2_3_111).startIndexMap,
          List.idxOf_lt_length_iff.2 (List.mem_singleton.mpr rfl)⟩ = ix4 b t 0 0 := by
      funext c
      refine Fin.ext ?_
      match c with
      | ⟨0, _⟩ => rfl
      | ⟨1, _⟩ => rfl
      | ⟨2, _⟩ => rfl
      | ⟨3, _⟩ => rfl
    rw [hsi]
    rfl

/-- The pick at position (b, t) with an index inside [0, 128256): the operand at that column. -/
theorem takeTerm_apply (x : FVec Ideal S2x1024x128256 .f32) (i : IVec S2x1024x1 32) (b : Fin 2) (t : Fin 1024)
    (h0 : 0 ≤ (i (ix3 b t 0)).toInt) (h1 : (i (ix3 b t 0)).toInt < 128256) :
    takeTerm (F := Ideal) x i (ix3 b t 0)
      = x (ix3 b t ⟨(i (ix3 b t 0)).toNat, (toNat_of_toInt_range _ h0 h1).2⟩) := by
  have hw := wrapT_apply i b t h0
  rw [takeTerm_eq, select_apply,
    inRangeT_apply (wrapT i) b t (by rw [hw]; exact h0) (by rw [hw]; exact h1), select_one, gather_apply]
  refine congrArg x (congrArg (ix3 b t) (Fin.ext ?_))
  show min (wrapT i (ix4 b t 0 0)).toInt.toNat 128255 = (i (ix3 b t 0)).toNat
  rw [hw]
  have := toNat_of_toInt_range _ h0 h1
  omega

/-- The log-softmax at a column given as a natural number inside the row. -/
theorem lsmAt_of_lt (x : Fin NV → EReal) (n : ℕ) (h : n < NV) : lsmAt x n = lsm x ⟨n, h⟩ := dif_pos h

/-- The chosen column is the next-token index read as a natural number. -/
theorem chosen_eq (a1 : IVec S2x1024 32) (b : Fin 2) (t : Fin 1024) :
    chosen a1 b t = (idsTerm a1 (ix2 b t)).toNat := by
  rw [idsTerm_apply]
  unfold chosen
  by_cases h : t.val + 1 < 1024
  · rw [dif_pos h, dif_pos h]
  · rw [dif_neg h, dif_neg h]; rfl

/-- The next-token index lies inside [0, 128256) when the tokens past the first column do. -/
theorem idsTerm_range (a1 : IVec S2x1024 32)
    (hids : ∀ (b : Fin 2) (t : Fin 1024), 1 ≤ t.val → 0 ≤ (a1 (ix2 b t)).toInt ∧ (a1 (ix2 b t)).toInt < 128256)
    (b : Fin 2) (t : Fin 1024) :
    0 ≤ (idsTerm a1 (ix2 b t)).toInt ∧ (idsTerm a1 (ix2 b t)).toInt < 128256 := by
  rw [idsTerm_apply]
  by_cases h : t.val + 1 < 1024
  · rw [dif_pos h]
    exact hids b ⟨t.val + 1, h⟩ (Nat.le_add_left 1 t.val)
  · rw [dif_neg h]
    decide

/-- The program's log-probability of the next token is the specification's. -/
theorem lpTerm_eq (a0 : FVec Ideal S2x1024x128256 .f32) (a1 : IVec S2x1024 32)
    (hids : ∀ (b : Fin 2) (t : Fin 1024), 1 ≤ t.val → 0 ≤ (a1 (ix2 b t)).toInt ∧ (a1 (ix2 b t)).toInt < 128256) :
    lpTerm (F := Ideal) a0 a1 = logpSpec a0 a1 := by
  funext i
  obtain ⟨b, t, rfl⟩ : ∃ b t, i = ix2 b t := ⟨i 0, i 1, eq_ix2 i⟩
  have hL : lpTerm (F := Ideal) a0 a1 = shapeCast S2x1024
      (takeTerm (lsmTerm a0) (broadcastInDim S2x1024x1 ![0, 1] bcast_S2x1024_S2x1024x1_0_1 (idsTerm a1)))
      shapeCasts_S2x1024x1_S2x1024 := rfl
  rw [hL, shapeCast_apply _ shapeCasts_S2x1024x1_S2x1024 (ix2 b t) (ix3 b t 0) (by
    rw [Shape.rowMajor_val_three, Shape.rowMajor_val_two]
    show (b.val * 1024 + t.val) * 1 + 0 = b.val * 1024 + t.val
    omega)]
  have hc : broadcastInDim S2x1024x1 ![0, 1] bcast_S2x1024_S2x1024x1_0_1 (idsTerm a1) (ix3 b t 0) = idsTerm a1 (ix2 b t) :=
    bcast_unit_apply _ b t 0
  have hr := idsTerm_range a1 hids b t
  rw [takeTerm_apply _ _ b t (by rw [hc]; exact hr.1) (by rw [hc]; exact hr.2), lsmTerm_apply]
  have hn := toNat_of_toInt_range _ hr.1 hr.2
  show _ = lsmAt (scores a0 b t) (chosen a1 b t)
  rw [chosen_eq, lsmAt_of_lt _ _ hn.2]
  exact congrArg (lsm (scores a0 b t)) (Fin.ext (congrArg BitVec.toNat hc))

/-- The summand of the entropy, read at column k of position (b, t). -/
theorem ent_summand (a0 : FVec Ideal S2x1024x128256 .f32) (b : Fin 2) (t : Fin 1024) (k : Fin 128256) :
    mulf (Host.exp (lsmTerm (F := Ideal) a0)) (lsmTerm a0) (reduces_vocab.lift (ix2 b t) k)
      = Ideal.exp (lsm (scores a0 b t) k) * lsm (scores a0 b t) k := by
  rw [lift_vocab, mulf_apply, hostExp_apply, lsmTerm_apply]

/-- The program's entropy is the specification's. -/
theorem entTerm_eq (a0 : FVec Ideal S2x1024x128256 .f32) : entTerm (F := Ideal) a0 = entSpec a0 := by
  funext i
  obtain ⟨b, t, rfl⟩ : ∃ b t, i = ix2 b t := ⟨i 0, i 1, eq_ix2 i⟩
  have hE : entTerm (F := Ideal) a0 = Host.negf (Host.reduceAdd (mulf (Host.exp (lsmTerm a0)) (lsmTerm a0))
      (constant (F := Ideal) S_ .f32 0x00000000#32) reducesTo_S2x1024x128256_S2x1024_d2 h_S_) := rfl
  rw [hE, hostNegf_apply, hostReduceAdd_apply,
    Ideal.hostReduceAdd_single reducesTo_S2x1024x128256_S2x1024_d2 reduces_vocab, constant_apply, Ideal.ofBits_zero_f32, zero_add]
  have hsum : (∑ k : Fin (S2x1024x128256.size 2),
        mulf (Host.exp (lsmTerm (F := Ideal) a0)) (lsmTerm a0) (reduces_vocab.lift (ix2 b t) k))
      = ∑ k : Fin NV, Ideal.exp (lsm (scores a0 b t) k) * lsm (scores a0 b t) k :=
    Finset.sum_congr rfl fun k _ => ent_summand a0 b t k
  rw [hsum]
  rfl

end Cert.ReferenceIdeal.RefRead

end
-- ==== Proof.PreFacts.lean ====
/-
  The precondition read back. The predicate is the conjunction of five universally quantified
  statements, each an AND-reduction of an i1 array to a scalar: every |logit|, every |old|,
  every |advantage| and every |label| lies strictly below +∞, and every token id in columns
  1‥1023 is at least 0 and below 128256 (signed 32-bit comparisons). From the predicate
  being 1 we recover, at a single index, that a logit is a real number, and that a token id
  in a column t ≥ 1 lies in [0, 128256).
-/
import proofs.«430439_j8589934595_1_alg».proof.Pre_finite_inputs
import Idealize.ShloMosaic.Lib.ValueIdx
import Idealize.ShloMosaic.Lib.ValueLayout
import Idealize.ShloMosaic.Lib.ReduceAll
import Idealize.ShloMosaic.Lib.StableHlo.Predicate

namespace Cert.PreFacts

open Idealize.ShloMosaic Idealize.ShloMosaic.ValueIdx

variable [hF : Cert.Pre_finite_inputs.Facts]

/-- The scalar shape has exactly one index. -/
instance : Subsingleton Cert.Pre_finite_inputs.S_.Idx := ⟨fun a b => funext fun d => d.elim0⟩

/-- An extended real whose absolute value max(x, -x) lies strictly below +∞ is a real number:
    x = +∞ gives max = +∞, and x = -∞ gives -x = +∞. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (exponent all ones, mantissa zero, sign clear) is +∞. -/
theorem ofBits_inf : Ideal.ofBits .f32 0x7F800000#32 = ⊤ := by simp [Ideal.ofBits, Ideal.ieee]

/-- An elementwise AND of two i1 arrays is 1 at an index exactly when both operands are 1 there. -/
theorem andi_apply_eq_one {s : Shape} (x y : IVec s 1) (i : s.Idx) :
    andi x y i = 1#1 ↔ x i = 1#1 ∧ y i = 1#1 := IntOp.andi_eq_one

/-- Under the precondition every logit is a real number: the first conjunct says the AND over all
    indices of (|logit| < +∞) is 1, so the comparison holds at each index, and an extended real
    with |x| < +∞ is neither +∞ nor -∞. -/
theorem logits_real (a0 : FVec Ideal Cert.Pre_finite_inputs.S2x1024x128256 .f32) (a1 : IVec Cert.Pre_finite_inputs.S2x1024 32) (a2 : FVec Ideal Cert.Pre_finite_inputs.S2x1023 .f32) (a3 : FVec Ideal Cert.Pre_finite_inputs.S2 .f32) (a4 : FVec Ideal Cert.Pre_finite_inputs.S2x1024 .f32)
    (h : Cert.Pre_finite_inputs.fn (F := Ideal) a0 a1 a2 a3 a4 = fun _ => 1#1) :
    ∀ i : Cert.Pre_finite_inputs.S2x1024x128256.Idx, ∃ r : ℝ, a0 i = (r : EReal) := by
  intro i
  have h0 := congrFun h ix0
  dsimp only [Cert.Pre_finite_inputs.fn, Cert.Pre_finite_inputs.fn_part1] at h0
  rw [andi_apply_eq_one, andi_apply_eq_one, andi_apply_eq_one, andi_apply_eq_one] at h0
  obtain ⟨⟨⟨⟨h1, -⟩, -⟩, -⟩, -⟩ := h0
  have e := Host.reduce_andi_all _ _ _ _ _ h1 i
  change Ideal.cmp .olt (max (a0 i) (-(a0 i))) (Ideal.ofBits .f32 0x7F800000#32) = 1#1 at e
  rw [ofBits_inf] at e
  simp only [Ideal.cmp, StableHlo.Predicate.ofBool_eq_one_iff, decide_eq_true_eq] at e
  exact real_of_abs_lt_top _ e

/-- Under the precondition a token id in a column t ≥ 1 lies in [0, 128256): the last conjunct is
    the AND over the 2 × 1023 block of columns 1‥1023 of (0 ≤ id) ∧ (id < 128256), read signed;
    column t of the array is column t - 1 of the block. -/
theorem ids_range {F : FTy → Type} [FloatOps F] (a0 : FVec F Cert.Pre_finite_inputs.S2x1024x128256 .f32) (a1 : IVec Cert.Pre_finite_inputs.S2x1024 32) (a2 : FVec F Cert.Pre_finite_inputs.S2x1023 .f32) (a3 : FVec F Cert.Pre_finite_inputs.S2 .f32) (a4 : FVec F Cert.Pre_finite_inputs.S2x1024 .f32)
    (h : Cert.Pre_finite_inputs.fn (F := F) a0 a1 a2 a3 a4 = fun _ => 1#1) :
    ∀ (b : Fin 2) (t : Fin 1024), 1 ≤ t.val → 0 ≤ (a1 (ix2 b t)).toInt ∧ (a1 (ix2 b t)).toInt < 128256 := by
  intro b t ht
  have h0 := congrFun h ix0
  dsimp only [Cert.Pre_finite_inputs.fn, Cert.Pre_finite_inputs.fn_part1] at h0
  rw [andi_apply_eq_one] at h0
  obtain ⟨-, h5⟩ := h0
  have ht' : t.val - 1 < 1023 := by omega
  have e := Host.reduce_andi_all _ _ _ _ _ h5 (ix2 b (⟨t.val - 1, ht'⟩ : Fin 1023))
  rw [andi_apply_eq_one] at e
  obtain ⟨e1, e2⟩ := e
  have s : extractStridedSlice Cert.Pre_finite_inputs.S2x1023 ![0, 1] a1 hF.slices_S2x1024_S2x1023_0_1
        (ix2 b (⟨t.val - 1, ht'⟩ : Fin 1023)) = a1 (ix2 b t) :=
    slice2_axis1_apply 1 a1 _ b _ t (by show t.val = 1 + (t.val - 1); omega)
  change IntOp.cmpi .sge (extractStridedSlice Cert.Pre_finite_inputs.S2x1023 ![0, 1] a1 hF.slices_S2x1024_S2x1023_0_1
    (ix2 b (⟨t.val - 1, ht'⟩ : Fin 1023))) 0#32 = 1#1 at e1
  change IntOp.cmpi .slt (extractStridedSlice Cert.Pre_finite_inputs.S2x1023 ![0, 1] a1 hF.slices_S2x1024_S2x1023_0_1
    (ix2 b (⟨t.val - 1, ht'⟩ : Fin 1023))) 128256#32 = 1#1 at e2
  rw [s, IntOp.cmpi_sge] at e1
  rw [s, IntOp.cmpi_slt] at e2
  have z : (0#32 : BitVec 32).toInt = 0 := by decide
  have c : (128256#32 : BitVec 32).toInt = 128256 := by decide
  rw [z] at e1
  rw [c] at e2
  exact ⟨e1, e2⟩

end Cert.PreFacts
-- ==== Proof.lean ====
/-
  The certificate's claims. The kernel computes, for each of the 2048 positions, the log-softmax of the position's
  128256 scores at the next position's token and the entropy of the softmax, by a chunked ("online") evaluation over 21
  chunks of 6144 columns — a running maximum, the sum of exponentials shifted by it, the same sum weighted by the scores,
  and the score picked at the chosen column — and then applies a chain of host operations (the clipped policy-ratio loss
  and two masked entropy averages); the reference computes the same two per-position arrays directly and applies the same
  chain. Over the extended reals, for finite scores and token ids inside the vocabulary, the chunked evaluation is the
  direct one (Algebra.lean), so the two programs end with equal results. The kernel's finite stand-in for minus infinity
  (the running maximum's start and the fill of the columns past the vocabulary's end) is read as minus infinity.
-/
import proofs.«430439_j8589934595_1_alg».proof.Defs
import proofs.«430439_j8589934595_1_alg».proof.Proof.Gen.Kernel
import proofs.«430439_j8589934595_1_alg».proof.Proof.Gen.KernelIdeal
import proofs.«430439_j8589934595_1_alg».proof.Proof.Gen.ReferenceIdeal
import proofs.«430439_j8589934595_1_alg».proof.Proof.Gen.Pre_finite_inputs
import proofs.«430439_j8589934595_1_alg».proof.Proof.BFrame
import proofs.«430439_j8589934595_1_alg».proof.Proof.KValue
import proofs.«430439_j8589934595_1_alg».proof.Proof.RefRun
import proofs.«430439_j8589934595_1_alg».proof.Proof.RefRead
import proofs.«430439_j8589934595_1_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.RowSoftmax

/-! ## The precondition's two consequences -/

/-- Every score is a real number. -/
theorem scores_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) :
    ∀ (c : Dev Cert.KernelIdeal.nD) (i : Sx.Idx), ∃ r : ℝ, Cert.KernelIdeal.Data.A0 m c i = (r : EReal) :=
  fun c => Cert.PreFacts.logits_real (hF := Cert.Pre_finite_inputs.Gen.facts) _ _ _ _ _ (h c)

/-- Every token id after the first position lies inside the vocabulary. -/
theorem ids_inside (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) :
    ∀ (c : Dev Cert.KernelIdeal.nD) (b : Fin 2) (t : Fin 1024), 1 ≤ t.val →
      0 ≤ (Cert.KernelIdeal.Data.A1 m c (ix2 b t)).toInt ∧ (Cert.KernelIdeal.Data.A1 m c (ix2 b t)).toInt < 128256 :=
  fun c => Cert.PreFacts.ids_range (hF := Cert.Pre_finite_inputs.Gen.facts) (F := Ideal) _ _ _ _ _ (h c)

/-! ## The shared host chain -/

theorem chain0 : Cert.KernelIdeal.Tail.kout0 (F := Ideal) = Cert.ReferenceIdeal.RefRun.out0 (F := Ideal) := rfl
theorem chain1 : Cert.KernelIdeal.Tail.kout1 (F := Ideal) = Cert.ReferenceIdeal.RefRun.out1 (F := Ideal) := rfl
theorem chain2 : Cert.KernelIdeal.Tail.kout2 (F := Ideal) = Cert.ReferenceIdeal.RefRun.out2 (F := Ideal) := rfl
theorem chain3 : Cert.KernelIdeal.Tail.kout3 (F := Ideal) = Cert.ReferenceIdeal.RefRun.out3 (F := Ideal) := rfl

/-! ## The claims -/

theorem frame_k : Cert.frame_Kernel (hKernel := Cert.Kernel.Gen.facts) (hPre_finite_inputs := Cert.Pre_finite_inputs.Gen.facts) :=
  fun m ρ _ => Cert.Kernel.BFrame.frame m ρ

theorem frame_ki : Cert.frame_KernelIdeal (hKernelIdeal := Cert.KernelIdeal.Gen.facts) (hPre_finite_inputs := Cert.Pre_finite_inputs.Gen.facts) :=
  fun m ρ h => Cert.KernelIdeal.Data.frame m ρ (scores_real m h) (ids_inside m h)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The ledger's two entries: the certificate's table gives the stand-in the value minus infinity. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hx := scores_real m hpre
  have hids := ids_inside m hpre
  refine ⟨fun c => Cert.ReferenceIdeal.RefRun.out0 (F := Ideal) (logpSpec (Cert.KernelIdeal.Data.A0 m c) (Cert.KernelIdeal.Data.A1 m c)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.RefRun.out1 (F := Ideal) (logpSpec (Cert.KernelIdeal.Data.A0 m c) (Cert.KernelIdeal.Data.A1 m c)),
    fun c => Cert.ReferenceIdeal.RefRun.out2 (F := Ideal) (entSpec (Cert.KernelIdeal.Data.A0 m c)) (m ((c.tc : Thread Cert.KernelIdeal.nD Cert.KernelIdeal.τ).loc Cert.KernelIdeal.main_arg4)),
    fun c => Cert.ReferenceIdeal.RefRun.out3 (F := Ideal) (entSpec (Cert.KernelIdeal.Data.A0 m c)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Value.run m ρ hx hids)
    obtain ⟨⟨h0, h1, h2, h3⟩, ha0, ha1, ha2, ha3, ha4⟩ := h c
    exact ⟨h0.trans (by rw [chain0]), h1.trans (by rw [chain1]), h2.trans (by rw [chain2]), h3.trans (by rw [chain3]), ha0, ha1, ha2, ha3, ha4⟩
  · refine (θ_run Cert.ReferenceIdeal.defs _ _).mono (fun r h c => ?_) (Cert.ReferenceIdeal.RefRun.run (F := Ideal) m' ρ')
    obtain ⟨⟨h0, h1, h2, h3⟩, ha0, ha1, ha2, ha3, ha4⟩ := h c
    obtain ⟨e0, e1, e2, e3, e4⟩ := hagree c
    have hlp : Cert.ReferenceIdeal.RefRun.lpTerm (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        = logpSpec (Cert.KernelIdeal.Data.A0 m c) (Cert.KernelIdeal.Data.A1 m c) := by
      rw [e0, e1]; exact Cert.ReferenceIdeal.RefRead.lpTerm_eq _ _ (hids c)
    have hent : Cert.ReferenceIdeal.RefRun.entTerm (F := Ideal) (m' ((c.tc : Thread Cert.ReferenceIdeal.nD Cert.ReferenceIdeal.τ).loc Cert.ReferenceIdeal.main_arg0))
        = entSpec (Cert.KernelIdeal.Data.A0 m c) := by
      rw [e0]; exact Cert.ReferenceIdeal.RefRead.entTerm_eq _
    exact ⟨h0.trans (by rw [hlp, e2, e3, e4]), h1.trans (by rw [hlp]), h2.trans (by rw [hent, e4]), h3.trans (by rw [hent, e4]), ha0, ha1, ha2, ha3, ha4⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
